-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x11008 : Shape := ⟨3, ![4, 2048, 11008]⟩
abbrev S4096x11008 : Shape := ⟨2, ![4096, 11008]⟩
abbrev S4096 : Shape := ⟨1, ![4096]⟩
abbrev S5504 : Shape := ⟨1, ![5504]⟩
abbrev S2048 : Shape := ⟨1, ![2048]⟩
abbrev S_ : Shape := ⟨0, ![]⟩
abbrev S5504x1 : Shape := ⟨2, ![5504, 1]⟩
abbrev S1x5504 : Shape := ⟨2, ![1, 5504]⟩
abbrev S5504x5504 : Shape := ⟨2, ![5504, 5504]⟩

class Facts : Prop where
  bcast_S_S4x2048x11008 : S_.BroadcastsInDim S4x2048x11008 (![] : Fin 0 → Fin S4x2048x11008.rank)
  reducesTo_S4x2048x11008_S_d0_1_2 : S4x2048x11008.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_
  bcast_S_S5504 : S_.BroadcastsInDim S5504 (![] : Fin 0 → Fin S5504.rank)
  reducesTo_S5504_S_d0 : S5504.ReducesTo [0] S_
  bcast_S5504_S5504x1_0 : S5504.BroadcastsInDim S5504x1 (![0] : Fin 1 → Fin S5504x1.rank)
  bcast_S5504_S1x5504_1 : S5504.BroadcastsInDim S1x5504 (![1] : Fin 1 → Fin S1x5504.rank)
  bcast_S5504x1_S5504x5504_0_1 : S5504x1.BroadcastsInDim S5504x5504 (![0, 1] : Fin 2 → Fin S5504x5504.rank)
  bcast_S1x5504_S5504x5504_0_1 : S1x5504.BroadcastsInDim S5504x5504 (![0, 1] : Fin 2 → Fin S5504x5504.rank)
  reducesTo_S5504x5504_S_d0_1 : S5504x5504.ReducesTo [0, 1] S_

variable [Facts]

def fn_part1 {F : FTy → Type} [FloatOps F] (main_arg3 : IVec S5504 32) (main_v13 : IVec S_ 1) (main_v15 : IVec S5504 1) (main_c_5 : IVec S_ 32) : IVec S_ 1 :=
  let main_v16 : IVec S5504 32 := broadcastInDim S5504 ![] bcast_S_S5504 main_c_5
  let main_v17 : IVec S5504 1 := cmpi .slt main_arg3 main_v16
  let main_v18 : IVec S5504 1 := andi main_v15 main_v17
  let main_c_6 : IVec S_ 1 := constantI S_ 1 1#1
  let main_v19 : IVec S_ 1 := (fun x v => Host.reduce IntOp.andi x v reducesTo_S5504_S_d0 h_S_) main_v18 main_c_6
  let main_v20 : IVec S_ 1 := andi main_v13 main_v19
  let main_v21 : IVec S5504x1 32 := broadcastInDim S5504x1 ![0] bcast_S5504_S5504x1_0 main_arg3
  let main_v22 : IVec S1x5504 32 := broadcastInDim S1x5504 ![1] bcast_S5504_S1x5504_1 main_arg3
  let main_v23 : IVec S5504x5504 32 := broadcastInDim S5504x5504 ![0, 1] bcast_S5504x1_S5504x5504_0_1 main_v21
  let main_v24 : IVec S5504x5504 32 := broadcastInDim S5504x5504 ![0, 1] bcast_S1x5504_S5504x5504_0_1 main_v22
  let main_v25 : IVec S5504x5504 1 := cmpi .ne main_v23 main_v24
  let main_v26 : IVec S5504 32 := iotaInDim S5504 32 0
  let main_v27 : IVec S5504x1 32 := broadcastInDim S5504x1 ![0] bcast_S5504_S5504x1_0 main_v26
  let main_v28 : IVec S5504 32 := iotaInDim S5504 32 0
  let main_v29 : IVec S1x5504 32 := broadcastInDim S1x5504 ![1] bcast_S5504_S1x5504_1 main_v28
  let main_v30 : IVec S5504x5504 32 := broadcastInDim S5504x5504 ![0, 1] bcast_S5504x1_S5504x5504_0_1 main_v27
  let main_v31 : IVec S5504x5504 32 := broadcastInDim S5504x5504 ![0, 1] bcast_S1x5504_S5504x5504_0_1 main_v29
  let main_v32 : IVec S5504x5504 1 := cmpi .eq main_v30 main_v31
  let main_v33 : IVec S5504x5504 1 := ori main_v25 main_v32
  let main_c_7 : IVec S_ 1 := constantI S_ 1 1#1
  let main_v34 : IVec S_ 1 := (fun x v => Host.reduce IntOp.andi x v reducesTo_S5504x5504_S_d0_1 h_S_) main_v33 main_c_7
  let main_v35 : IVec S_ 1 := andi main_v20 main_v34
  main_v35

def fn {F : FTy → Type} [FloatOps F] (main_arg0 : FVec F S4x2048x11008 .f32) (main_arg1 : FVec F S4096x11008 .f32) (main_arg2 : FVec F S4096 .f32) (main_arg3 : IVec S5504 32) (main_arg4 : IVec S2048 32) : IVec S_ 1 :=
  let main_v0 : FVec F S4x2048x11008 .f32 := Host.absf main_arg0
  let main_cst : FVec F S_ .f32 := constant S_ .f32 0x7F800000#32
  let main_v1 : FVec F S4x2048x11008 .f32 := broadcastInDim S4x2048x11008 ![] bcast_S_S4x2048x11008 main_cst
  let main_v2 : IVec S4x2048x11008 1 := cmpf .olt main_v0 main_v1
  let main_c : IVec S_ 1 := constantI S_ 1 1#1
  let main_v3 : IVec S_ 1 := (fun x v => Host.reduce IntOp.andi x v reducesTo_S4x2048x11008_S_d0_1_2 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S5504 32 := broadcastInDim S5504 ![] bcast_S_S5504 main_c_4
  let main_v15 : IVec S5504 1 := cmpi .sge main_arg3 main_v14
  let main_c_5 : IVec S_ 32 := constantI S_ 32 11008#32
  fn_part1 (F := F) main_arg3 main_v13 main_v15 main_c_5
-- ==== Kernel.lean ====
abbrev S4x2048x11008 : Shape := ⟨3, ![4, 2048, 11008]⟩
abbrev S4096x11008 : Shape := ⟨2, ![4096, 11008]⟩
abbrev S4096 : Shape := ⟨1, ![4096]⟩
abbrev S5504 : Shape := ⟨1, ![5504]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x11008 : Shape := ⟨2, ![2048, 11008]⟩
abbrev S11008 : Shape := ⟨1, ![11008]⟩
abbrev S5504x1 : Shape := ⟨2, ![5504, 1]⟩
abbrev S1x11008 : Shape := ⟨2, ![1, 11008]⟩
abbrev S1x2048 : Shape := ⟨2, ![1, 2048]⟩
abbrev S8192x11008 : Shape := ⟨2, ![8192, 11008]⟩
abbrev S8192x2048 : Shape := ⟨2, ![8192, 2048]⟩
abbrev S2048x256 : Shape := ⟨2, ![2048, 256]⟩
abbrev S2048x2048 : Shape := ⟨2, ![2048, 2048]⟩
abbrev S4x2048x2048 : Shape := ⟨3, ![4, 2048, 2048]⟩
abbrev S4096x1 : Shape := ⟨2, ![4096, 1]⟩
abbrev S4x2048x4096 : Shape := ⟨3, ![4, 2048, 4096]⟩
abbrev S1x1x4096 : Shape := ⟨3, ![1, 1, 4096]⟩

abbrev nBuf : Space → Nat
  | .hbm => 118
  | .vmem => 6
  | .smem => 0
  | _ => 0

abbrev bufTy : (tb : Table) → Fin (tcTables nBuf tb) → BufTy
  | .hbm, ⟨0, _⟩ => ⟨S4x2048x11008, .f32⟩
  | .hbm, ⟨1, _⟩ => ⟨S4096x11008, .f32⟩
  | .hbm, ⟨2, _⟩ => ⟨S4096, .f32⟩
  | .hbm, ⟨3, _⟩ => ⟨S5504, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x11008, .f32⟩
  | .hbm, ⟨24, _⟩ => ⟨S2048x11008, .i1⟩
  | .hbm, ⟨25, _⟩ => ⟨S_, .f32⟩
  | .hbm, ⟨26, _⟩ => ⟨S2048x11008, .f32⟩
  | .hbm, ⟨27, _⟩ => ⟨S2048x11008, .f32⟩
  | .hbm, ⟨28, _⟩ => ⟨S_, .f32⟩
  | .hbm, ⟨29, _⟩ => ⟨S11008, .f32⟩
  | .hbm, ⟨30, _⟩ => ⟨S_, .i32⟩
  | .hbm, ⟨31, _⟩ => ⟨S5504, .i32⟩
  | .hbm, ⟨32, _⟩ => ⟨S5504, .i1⟩
  | .hbm, ⟨33, _⟩ => ⟨S_, .i32⟩
  | .hbm, ⟨34, _⟩ => ⟨S5504, .i32⟩
  | .hbm, ⟨35, _⟩ => ⟨S5504, .i32⟩
  | .hbm, ⟨36, _⟩ => ⟨S5504, .i32⟩
  | .hbm, ⟨37, _⟩ => ⟨S5504x1, .i32⟩
  | .hbm, ⟨38, _⟩ => ⟨S_, .f32⟩
  | .hbm, ⟨39, _⟩ => ⟨S5504, .f32⟩
  | .hbm, ⟨40, _⟩ => ⟨S11008, .f32⟩
  | .hbm, ⟨41, _⟩ => ⟨S1x11008, .f32⟩
  | .hbm, ⟨42, _⟩ => ⟨S2048x11008, .f32⟩
  | .hbm, ⟨43, _⟩ => ⟨S2048x11008, .f32⟩
  | .hbm, ⟨44, _⟩ => ⟨S2048x11008, .bf16⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S1, .i32⟩
  | .hbm, ⟨54, _⟩ => ⟨S_, .i32⟩
  | .hbm, ⟨55, _⟩ => ⟨S2048x1, .i32⟩
  | .hbm, ⟨56, _⟩ => ⟨S2048x1, .i1⟩
  | .hbm, ⟨57, _⟩ => ⟨S1x1, .i32⟩
  | .hbm, ⟨58, _⟩ => ⟨S2048x1, .i32⟩
  | .hbm, ⟨59, _⟩ => ⟨S2048x1, .i1⟩
  | .hbm, ⟨60, _⟩ => ⟨S2048x1, .i1⟩
  | .hbm, ⟨61, _⟩ => ⟨S_, .i1⟩
  | .hbm, ⟨62, _⟩ => ⟨S2048, .i1⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S1x2048, .f32⟩
  | .hbm, ⟨68, _⟩ => ⟨S8192x11008, .f32⟩
  | .hbm, ⟨69, _⟩ => ⟨S8192x2048, .f32⟩
  | .hbm, ⟨70, _⟩ => ⟨S4x2048x2048, .f32⟩
  | .hbm, ⟨71, _⟩ => ⟨S_, .i32⟩
  | .hbm, ⟨72, _⟩ => ⟨S4096, .i32⟩
  | .hbm, ⟨73, _⟩ => ⟨S2048, .i32⟩
  | .hbm, ⟨74, _⟩ => ⟨S_, .i32⟩
  | .hbm, ⟨75, _⟩ => ⟨S2048, .i32⟩
  | .hbm, ⟨76, _⟩ => ⟨S2048, .i1⟩
  | .hbm, ⟨77, _⟩ => ⟨S_, .i32⟩
  | .hbm, ⟨78, _⟩ => ⟨S2048, .i32⟩
  | .hbm, ⟨79, _⟩ => ⟨S2048, .i32⟩
  | .hbm, ⟨80, _⟩ => ⟨S2048, .i32⟩
  | .hbm, ⟨81, _⟩ => ⟨S2048x1, .i32⟩
  | .hbm, ⟨82, _⟩ => ⟨S4096, .i32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S_, .i32⟩
  | .hbm, ⟨91, _⟩ => ⟨S4096, .i32⟩
  | .hbm, ⟨92, _⟩ => ⟨S4096, .i1⟩
  | .hbm, ⟨93, _⟩ => ⟨S_, .i32⟩
  | .hbm, ⟨94, _⟩ => ⟨S4096, .i32⟩
  | .hbm, ⟨95, _⟩ => ⟨S4096, .i32⟩
  | .hbm, ⟨96, _⟩ => ⟨S4096, .i32⟩
  | .hbm, ⟨97, _⟩ => ⟨S4096x1, .i32⟩
  | .hbm, ⟨98, _⟩ => ⟨S1, .i32⟩
  | .hbm, ⟨99, _⟩ => ⟨S_, .i32⟩
  | .hbm, ⟨100, _⟩ => ⟨S4096x1, .i32⟩
  | .hbm, ⟨101, _⟩ => ⟨S4096x1, .i1⟩
  | .hbm, ⟨102, _⟩ => ⟨S1x1, .i32⟩
  | .hbm, ⟨103, _⟩ => ⟨S4096x1, .i32⟩
  | .hbm, ⟨104, _⟩ => ⟨S4096x1, .i1⟩
  | .hbm, ⟨105, _⟩ => ⟨S4096x1, .i1⟩
  | .hbm, ⟨106, _⟩ => ⟨S_, .i1⟩
  | .hbm, ⟨107, _⟩ => ⟨S4096, .i1⟩
  | .hbm, ⟨108, _⟩ => ⟨S4x2048x4096, .f32⟩
  | .hbm, ⟨109, _⟩ => ⟨S4x2048x4096, .i1⟩
  | .hbm, ⟨110, _⟩ => ⟨S_, .f32⟩
  | .hbm, ⟨111, _⟩ => ⟨S4x2048x4096, .f32⟩
  | .hbm, ⟨112, _⟩ => ⟨S4x2048x4096, .f32⟩
  | .hbm, ⟨113, _⟩ => ⟨S1x1x4096, .i1⟩
  | .hbm, ⟨114, _⟩ => ⟨S_, .f32⟩
  | .hbm, ⟨115, _⟩ => ⟨S4x2048x4096, .i1⟩
  | .hbm, ⟨116, _⟩ => ⟨S4x2048x4096, .f32⟩
  | .hbm, ⟨117, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x2048, .f32⟩
  | .local _ .vmem, ⟨5, _⟩ => ⟨S2048x2048, .f32⟩
  | _, _ => ⟨S4x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_c : Ref sig .tc := ⟨.hbm, 30, rfl⟩
abbrev main_v2 : Ref sig .tc := ⟨.hbm, 31, rfl⟩
abbrev main_v3 : Ref sig .tc := ⟨.hbm, 32, rfl⟩
abbrev main_c_0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_c_2 : Ref sig .tc := ⟨.hbm, 71, rfl⟩
abbrev main_v19 : Ref sig .tc := ⟨.hbm, 72, rfl⟩
abbrev main_v20 : Ref sig .tc := ⟨.hbm, 73, rfl⟩
abbrev main_c_3 : Ref sig .tc := ⟨.hbm, 74, rfl⟩
abbrev main_v21 : Ref sig .tc := ⟨.hbm, 75, rfl⟩
abbrev main_v22 : Ref sig .tc := ⟨.hbm, 76, rfl⟩
abbrev main_c_4 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_c_5 : Ref sig .tc := ⟨.hbm, 83, rfl⟩
abbrev main_v28 : Ref sig .tc := ⟨.hbm, 84, rfl⟩
abbrev main_v29 : Ref sig .tc := ⟨.hbm, 85, rfl⟩
abbrev main_c_6 : Ref sig .tc := ⟨.hbm, 86, rfl⟩
abbrev main_call2_v0 : Ref sig .tc := ⟨.hbm, 87, rfl⟩
abbrev main_call2_v1 : Ref sig .tc := ⟨.hbm, 88, rfl⟩
abbrev main_v30 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v31 : Ref sig .tc := ⟨.hbm, 112, rfl⟩
abbrev main_v32 : Ref sig .tc := ⟨.hbm, 113, rfl⟩
abbrev main_cst_7 : Ref sig .tc := ⟨.hbm, 114, rfl⟩
abbrev main_call4_v0 : Ref sig .tc := ⟨.hbm, 115, rfl⟩
abbrev main_call4_v1 : Ref sig .tc := ⟨.hbm, 116, rfl⟩
abbrev main_v33 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x11008_0 : S2048.BroadcastsInDim S2048x11008 (![0] : Fin 1 → Fin S2048x11008.rank)
  bcast_S_S2048x11008 : S_.BroadcastsInDim S2048x11008 (![] : Fin 0 → Fin S2048x11008.rank)
  bcast_S_S11008 : S_.BroadcastsInDim S11008 (![] : Fin 0 → Fin S11008.rank)
  bcast_S_S5504 : S_.BroadcastsInDim S5504 (![] : Fin 0 → Fin S5504.rank)
  bcast_S5504_S5504x1_0 : S5504.BroadcastsInDim S5504x1 (![0] : Fin 1 → Fin S5504x1.rank)
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  bitsLt_bf16_f32 : FTy.bits .bf16 < FTy.bits .f32
  shapeCasts_S2048_S1x2048 : S2048.ShapeCasts S1x2048
  shapeCasts_S4x2048x11008_S8192x11008 : S4x2048x11008.ShapeCasts S8192x11008
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x2048_S2048x2048 : S2048x2048.ShapeCasts S2048x2048
  shapeCasts_S8192x2048_S4x2048x2048 : S8192x2048.ShapeCasts S4x2048x2048
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4x2048x4096_2 : S4096.BroadcastsInDim S4x2048x4096 (![2] : Fin 1 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x11008_S2048x1_S2048x11008_1_0_n_n_0_1_111008_wf : GatherDims.WF S4096x11008 S2048x1 S2048x11008 [1] [0] [] [0] [] 1 ![1, 11008]
  scatter_S11008_S5504x1_S5504_n_0_0_1_wf : ScatterDims.WF S11008 S5504x1 S5504 [] [0] [0] 1
  gather_S4096_S2048x1_S2048_n_0_n_n_0_1_1_wf : GatherDims.WF S4096 S2048x1 S2048 [] [0] [] [0] [] 1 ![1]
  dot_S2048x256_S2048x256_S2048x2048_1_1_0_0_n_n_wf : DotDims.WF S2048x256 S2048x256 S2048x2048 [1] [1] [0] [0] [] []
  scatter_S4096_S2048x1_S2048_n_0_0_1_wf : ScatterDims.WF S4096 S2048x1 S2048 [] [0] [0] 1
  gather_S4x2048x2048_S4096x1_S4x2048x4096_01_2_n_n_2_1_420481_wf : GatherDims.WF S4x2048x2048 S4096x1 S4x2048x4096 [0, 1] [2] [] [2] [] 1 ![4, 2048, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x11008.size a
  hwx0_0 : ∀ i : grid0.Coords, EltTy.bits .f32 = 32 ∨ (Rect.block (s := S8192x11008) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x11008.size a
  hwx0_1 : ∀ i : grid0.Coords, EltTy.bits .bf16 = 32 ∨ (Rect.block (s := S2048x11008) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x2048.size a
  hwx0_3 : ∀ i : grid0.Coords, EltTy.bits .f32 = 32 ∨ (Rect.block (s := S8192x2048) S2048x2048.size (cc0_transform_3 i) (hinb0_3 i)).WholeWords (EltTy.packing .f32)

variable [Facts₀]

def gather_S4096x11008_S2048x1_S2048x11008_1_0_n_n_0_1_111008 : GatherDims S4096x11008 S2048x1 S2048x11008 where
  offsetDims := [1]
  collapsedSliceDims := [0]
  operandBatchingDims := []
  startIndicesBatchingDims := []
  startIndexMap := [0]
  indexVectorDim := 1
  sliceSizes := ![1, 11008]
  wf := gather_S4096x11008_S2048x1_S2048x11008_1_0_n_n_0_1_111008_wf
def scatter_S11008_S5504x1_S5504_n_0_0_1 : ScatterDims S11008 S5504x1 S5504 where
  updateWindowDims := []
  insertedWindowDims := [0]
  scatterDimsToOperandDims := [0]
  indexVectorDim := 1
  wf := scatter_S11008_S5504x1_S5504_n_0_0_1_wf
def gather_S4096_S2048x1_S2048_n_0_n_n_0_1_1 : GatherDims S4096 S2048x1 S2048 where
  offsetDims := []
  collapsedSliceDims := [0]
  operandBatchingDims := []
  startIndicesBatchingDims := []
  startIndexMap := [0]
  indexVectorDim := 1
  sliceSizes := ![1]
  wf := gather_S4096_S2048x1_S2048_n_0_n_n_0_1_1_wf
def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def gather_S4x2048x2048_S4096x1_S4x2048x4096_01_2_n_n_2_1_420481 : GatherDims S4x2048x2048 S4096x1 S4x2048x4096 where
  offsetDims := [0, 1]
  collapsedSliceDims := [2]
  operandBatchingDims := []
  startIndicesBatchingDims := []
  startIndexMap := [2]
  indexVectorDim := 1
  sliceSizes := ![4, 2048, 1]
  wf := gather_S4x2048x2048_S4096x1_S4x2048x4096_01_2_n_n_2_1_420481_wf

abbrev win0_0 : Pipeline.Window sig grid0 :=
  Pipeline.Window.ofSpec (Memref.whole main_v16) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x11008 : Shape := ⟨3, ![4, 2048, 11008]⟩
abbrev S4096x11008 : Shape := ⟨2, ![4096, 11008]⟩
abbrev S4096 : Shape := ⟨1, ![4096]⟩
abbrev S5504 : Shape := ⟨1, ![5504]⟩
abbrev S2048 : Shape := ⟨1, ![2048]⟩
abbrev S_ : Shape := ⟨0, ![]⟩
abbrev S2048x1 : Shape := ⟨2, ![2048, 1]⟩
abbrev S2048x11008 : Shape := ⟨2, ![2048, 11008]⟩
abbrev S5504x1 : Shape := ⟨2, ![5504, 1]⟩
abbrev S2048x5504 : Shape := ⟨2, ![2048, 5504]⟩
abbrev S4x2048x5504 : Shape := ⟨3, ![4, 2048, 5504]⟩
abbrev S4x2048x2048 : Shape := ⟨3, ![4, 2048, 2048]⟩
abbrev S1x1x2048 : Shape := ⟨3, ![1, 1, 2048]⟩
abbrev S4x2048x4096 : Shape := ⟨3, ![4, 2048, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x11008, .f32⟩
  | .hbm, ⟨1, _⟩ => ⟨S4096x11008, .f32⟩
  | .hbm, ⟨2, _⟩ => ⟨S4096, .f32⟩
  | .hbm, ⟨3, _⟩ => ⟨S5504, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x11008, .f32⟩
  | .hbm, ⟨14, _⟩ => ⟨S_, .i32⟩
  | .hbm, ⟨15, _⟩ => ⟨S5504, .i32⟩
  | .hbm, ⟨16, _⟩ => ⟨S5504, .i1⟩
  | .hbm, ⟨17, _⟩ => ⟨S_, .i32⟩
  | .hbm, ⟨18, _⟩ => ⟨S5504, .i32⟩
  | .hbm, ⟨19, _⟩ => ⟨S5504, .i32⟩
  | .hbm, ⟨20, _⟩ => ⟨S5504, .i32⟩
  | .hbm, ⟨21, _⟩ => ⟨S5504x1, .i32⟩
  | .hbm, ⟨22, _⟩ => ⟨S2048x5504, .f32⟩
  | .hbm, ⟨23, _⟩ => ⟨S_, .i32⟩
  | .hbm, ⟨24, _⟩ => ⟨S5504, .i32⟩
  | .hbm, ⟨25, _⟩ => ⟨S5504, .i1⟩
  | .hbm, ⟨26, _⟩ => ⟨S_, .i32⟩
  | .hbm, ⟨27, _⟩ => ⟨S5504, .i32⟩
  | .hbm, ⟨28, _⟩ => ⟨S5504, .i32⟩
  | .hbm, ⟨29, _⟩ => ⟨S5504, .i32⟩
  | .hbm, ⟨30, _⟩ => ⟨S5504x1, .i32⟩
  | .hbm, ⟨31, _⟩ => ⟨S4x2048x5504, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x4096, .f32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048x1, .i32⟩
  | .hbm, ⟨55, _⟩ => ⟨S4x2048x4096, .f32⟩
  | _, _ => ⟨S4x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S5504 : S_.BroadcastsInDim S5504 (![] : Fin 0 → Fin S5504.rank)
  bcast_S5504_S5504x1_0 : S5504.BroadcastsInDim S5504x1 (![0] : Fin 1 → Fin S5504x1.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x4096 : S_.BroadcastsInDim S4x2048x4096 (![] : Fin 0 → Fin S4x2048x4096.rank)
  gather_S4096x11008_S2048x1_S2048x11008_1_0_n_n_0_1_111008_wf : GatherDims.WF S4096x11008 S2048x1 S2048x11008 [1] [0] [] [0] [] 1 ![1, 11008]
  gather_S2048x11008_S5504x1_S2048x5504_0_1_n_n_1_1_20481_wf : GatherDims.WF S2048x11008 S5504x1 S2048x5504 [0] [1] [] [1] [] 1 ![2048, 1]
  gather_S4x2048x11008_S5504x1_S4x2048x5504_01_2_n_n_2_1_420481_wf : GatherDims.WF S4x2048x11008 S5504x1 S4x2048x5504 [0, 1] [2] [] [2] [] 1 ![4, 2048, 1]
  gather_S4096_S2048x1_S2048_n_0_n_n_0_1_1_wf : GatherDims.WF S4096 S2048x1 S2048 [] [0] [] [0] [] 1 ![1]
  dot_S4x2048x5504_S2048x5504_S4x2048x2048_2_1_01_0_n_n_wf : DotDims.WF S4x2048x5504 S2048x5504 S4x2048x2048 [2] [1] [0, 1] [0] [] []
  scatter_S4x2048x4096_S2048x1_S4x2048x2048_01_2_2_1_wf : ScatterDims.WF S4x2048x4096 S2048x1 S4x2048x2048 [0, 1] [2] [2] 1

variable [Facts₀]

def gather_S4096x11008_S2048x1_S2048x11008_1_0_n_n_0_1_111008 : GatherDims S4096x11008 S2048x1 S2048x11008 where
  offsetDims := [1]
  collapsedSliceDims := [0]
  operandBatchingDims := []
  startIndicesBatchingDims := []
  startIndexMap := [0]
  indexVectorDim := 1
  sliceSizes := ![1, 11008]
  wf := gather_S4096x11008_S2048x1_S2048x11008_1_0_n_n_0_1_111008_wf
def gather_S2048x11008_S5504x1_S2048x5504_0_1_n_n_1_1_20481 : GatherDims S2048x11008 S5504x1 S2048x5504 where
  offsetDims := [0]
  collapsedSliceDims := [1]
  operandBatchingDims := []
  startIndicesBatchingDims := []
  startIndexMap := [1]
  indexVectorDim := 1
  sliceSizes := ![2048, 1]
  wf := gather_S2048x11008_S5504x1_S2048x5504_0_1_n_n_1_1_20481_wf
def gather_S4x2048x11008_S5504x1_S4x2048x5504_01_2_n_n_2_1_420481 : GatherDims S4x2048x11008 S5504x1 S4x2048x5504 where
  offsetDims := [0, 1]
  collapsedSliceDims := [2]
  operandBatchingDims := []
  startIndicesBatchingDims := []
  startIndexMap := [2]
  indexVectorDim := 1
  sliceSizes := ![4, 2048, 1]
  wf := gather_S4x2048x11008_S5504x1_S4x2048x5504_01_2_n_n_2_1_420481_wf
def gather_S4096_S2048x1_S2048_n_0_n_n_0_1_1 : GatherDims S4096 S2048x1 S2048 where
  offsetDims := []
  collapsedSliceDims := [0]
  operandBatchingDims := []
  startIndicesBatchingDims := []
  startIndexMap := [0]
  indexVectorDim := 1
  sliceSizes := ![1]
  wf := gather_S4096_S2048x1_S2048_n_0_n_n_0_1_1_wf
def dot_S4x2048x5504_S2048x5504_S4x2048x2048_2_1_01_0_n_n : DotDims S4x2048x5504 S2048x5504 S4x2048x2048 where
  lhsContracting := [2]
  rhsContracting := [1]
  lhsNonContracting := [0, 1]
  rhsNonContracting := [0]
  lhsBatch := []
  rhsBatch := []
  wf := dot_S4x2048x5504_S2048x5504_S4x2048x2048_2_1_01_0_n_n_wf
def scatter_S4x2048x4096_S2048x1_S4x2048x2048_01_2_2_1 : ScatterDims S4x2048x4096 S2048x1 S4x2048x2048 where
  updateWindowDims := [0, 1]
  insertedWindowDims := [2]
  scatterDimsToOperandDims := [2]
  indexVectorDim := 1
  wf := scatter_S4x2048x4096_S2048x1_S4x2048x2048_01_2_2_1_wf

class Facts : Prop extends Facts₀ where

variable [Facts]
-- ==== Proof.LibSumBlocks.lean ====
/-
  A finite sum taken block by block.

  A sum over the `a * b` positions `0, 1, …, a * b - 1` is the sum, over the `a` consecutive blocks of `b` positions,
  of each block's own sum: position `q` is `b * s + r` for exactly one block number `s < a` and one place `r < b` in
  the block. The monoid is any commutative additive one, so the statement serves the extended reals, where the sum of
  `+∞` and `-∞` is defined and addition is still commutative and associative: regrouping a sum needs nothing finite.
-/
import Mathlib.Algebra.BigOperators.Fin
import Mathlib.Logic.Equiv.Fin.Basic

namespace SumBlocks

/-- The sum over `Fin (a * b)` of a function of the position is the sum over the `a` blocks of the sums over each
    block's `b` places, the place `r` of block `s` being position `b * s + r`. -/
theorem sum_fin_mul {β : Type*} [AddCommMonoid β] (a b : ℕ) (f : ℕ → β) :
    ∑ q : Fin (a * b), f q.val = ∑ s ∈ Finset.range a, ∑ r : Fin b, f (b * s + r.val) := by
  rw [Finset.sum_range, ← Equiv.sum_comp finProdFinEquiv (fun q : Fin (a * b) => f q.val), Fintype.sum_prod_type]
  refine Finset.sum_congr rfl fun s _ => Finset.sum_congr rfl fun r _ => ?_
  show f (r.val + b * s.val) = f (b * s.val + r.val)
  rw [Nat.add_comm]

end SumBlocks
-- ==== Proof.Spec.lean ====
/-
  The mathematics shared by the two programs, stated once over plain index types.

  Both programs compute a linear layer restricted to a list of input columns and a list of output rows. The reference
  gathers the listed columns of the activations and of the weight rows and contracts over the LIST; the kernel keeps
  every column, multiplies the weight row by the indicator of the listed columns and contracts over ALL columns. When the
  listed columns are pairwise distinct the two contractions are the same extended real: a column outside the list
  contributes `x * (w * 0) = 0`, a listed column contributes `x * (w * 1) = x * w` exactly once (`masked_dot`). No
  finiteness is needed: on the extended reals a product with zero is zero and addition is commutative and associative.
  The kernel contracts the columns block by block over a grid axis; regrouping the sum over `43 * 256` columns into 43
  blocks of 256 is `blocks_sum`.
-/
import Idealize.ShloMosaic.PureOps.Ideal.Laws
import Idealize.ShloMosaic.Lib.ValueIdx
import proofs.«413134_j85873576116768_3_alg».proof.Proof.LibSumBlocks

noncomputable section

namespace Cert.Spec

open Idealize.ShloMosaic Idealize.ShloMosaic.ValueIdx

/-- A contraction against an indicator-masked row is the contraction over the listed columns, when the list has no
    repeats: `mask` is 1 on the listed columns and 0 elsewhere. -/
theorem masked_dot {K n : ℕ} (col : Fin n → Fin K) (hinj : Function.Injective col) (x w mask : Fin K → EReal)
    (h1 : ∀ i, mask (col i) = 1) (h0 : ∀ k, (∀ i, col i ≠ k) → mask k = 0) :
    ∑ k : Fin K, x k * (w k * mask k) = ∑ i : Fin n, x (col i) * w (col i) := by
  classical
  rw [← Finset.sum_subset (Finset.subset_univ (Finset.univ.image col))]
  · rw [Finset.sum_image (fun a _ b _ h => hinj h)]
    refine Finset.sum_congr rfl fun i _ => ?_
    rw [h1, mul_one]
  · intro k _ hk
    have hne : ∀ i, col i ≠ k := fun i hi => hk (Finset.mem_image.mpr ⟨i, Finset.mem_univ _, hi⟩)
    rw [h0 k hne, mul_zero, mul_zero]

/-- The running sum over the first `k + 1` blocks of `b` columns, and what one more block adds. -/
theorem blocks_succ {β : Type*} [AddCommMonoid β] (b k : ℕ) (f : ℕ → β) :
    ∑ s ∈ Finset.range (k + 1 + 1), ∑ r : Fin b, f (b * s + r.val)
      = (∑ s ∈ Finset.range (k + 1), ∑ r : Fin b, f (b * s + r.val)) + ∑ r : Fin b, f (b * (k + 1) + r.val) :=
  Finset.sum_range_succ _ _

/-- All `a` blocks together are the whole sum. -/
theorem blocks_sum {β : Type*} [AddCommMonoid β] (a b : ℕ) (f : ℕ → β) :
    ∑ s ∈ Finset.range a, ∑ r : Fin b, f (b * s + r.val) = ∑ q : Fin (a * b), f q.val :=
  (SumBlocks.sum_fin_mul a b f).symm

end Cert.Spec

end
-- ==== Proof.LibContract.lean ====
/-
  Two contractions over one axis, read at an output entry on the extended reals.

  * `[M, K]` by `[N, K]`, both contracted on their LAST axis (dimension numbers `[1] x [1]`, free axes `[0]` and `[0]`, no batch
    axes): a matrix-unit product into the zero accumulator, read at `(r, j)`, is `∑ k, x (r, k) * w (j, k)`.
  * `[A, B, K]` by `[N, K]`, contracted on the last axis of each (dimension numbers `[2] x [1]`, free axes `[0, 1]` and
    `[0]`, no batch axes): the host's product, read at `(a, b, o)`, is `∑ k, l (a, b, k) * r (o, k)`.

  Both hold for any extents and any operand formats. The route is the same for both: the product at an index is the sum
  over the contraction index set of the operands at the indices the dimension numbers assign; that index set has one axis,
  so the sum is re-indexed by its one coordinate; and the assigned indices are computed axis by axis.
-/
import Idealize.ShloMosaic.PureOps.Ideal.Laws
import Idealize.ShloMosaic.Lib.ValueIdx

noncomputable section

namespace Cert.Lib.Contract

open Idealize.ShloMosaic Idealize.ShloMosaic.ValueIdx

/-! ## `[M, K]` by `[N, K]`: the right operand contracted on its last axis -/

/-- The dimension numbers `[1] x [1]`, free axes `[0]` and `[0]`, no batch axes. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section NT

variable {M K N : Nat} (wf : DotDims.WF ⟨2, ![M, K]⟩ ⟨2, ![N, K]⟩ ⟨2, ![M, N]⟩ [1] [1] [0] [0] [] [])

/-- The left operand's row is the output's row. -/
theorem nt_lhs_row (i : (⟨2, ![M, N]⟩ : Shape).Idx) (q : (ntDims M K N wf).contr.Idx) :
    ((ntDims M K N wf).lhsIdx i q 0).val = (i 0).val := by
  unfold DotDims.lhsIdx
  rw [dif_neg (show ¬(0 : Fin (⟨2, ![M, K]⟩ : Shape).rank) ∈ (ntDims M K N wf).lhsBatch from List.not_mem_nil),
    dif_pos (show (0 : Fin (⟨2, ![M, K]⟩ : Shape).rank) ∈ (ntDims M K N wf).lhsNonContracting from
      List.mem_singleton.mpr rfl)]
  rfl

/-- The left operand's column is the contraction coordinate. -/
theorem nt_lhs_col (i : (⟨2, ![M, N]⟩ : Shape).Idx) (q : (ntDims M K N wf).contr.Idx) :
    ((ntDims M K N wf).lhsIdx i q 1).val = (q ⟨0, Nat.one_pos⟩).val :=
  (ntDims M K N wf).lhsIdx_val_of_single rfl i q

/-- The right operand's row is the output's column: its free axis comes after the left operand's one free axis. -/
theorem nt_rhs_row (i : (⟨2, ![M, N]⟩ : Shape).Idx) (q : (ntDims M K N wf).contr.Idx) :
    ((ntDims M K N wf).rhsIdx i q 0).val = (i 1).val := by
  unfold DotDims.rhsIdx
  rw [dif_neg (show ¬(0 : Fin (⟨2, ![N, K]⟩ : Shape).rank) ∈ (ntDims M K N wf).rhsBatch from List.not_mem_nil),
    dif_pos (show (0 : Fin (⟨2, ![N, K]⟩ : Shape).rank) ∈ (ntDims M K N wf).rhsNonContracting from
      List.mem_singleton.mpr rfl)]
  rfl

/-- The right operand's column is the contraction coordinate. -/
theorem nt_rhs_col (i : (⟨2, ![M, N]⟩ : Shape).Idx) (q : (ntDims M K N wf).contr.Idx) :
    ((ntDims M K N wf).rhsIdx i q 1).val = (q ⟨0, Nat.one_pos⟩).val :=
  (ntDims M K N wf).rhsIdx_val_of_single rfl i q

/-- The product into the zero accumulator, at `(r, j)`: the sum over the contraction of row `r` of the left operand
    against row `j` of the right one. -/
theorem matmul_nt_zero_apply {φ₁ φ₂ : FTy} (x : FVec Ideal ⟨2, ![M, K]⟩ φ₁) (w : FVec Ideal ⟨2, ![N, K]⟩ φ₂)
    (r : Fin M) (j : Fin N) :
    matmul (ntDims M K N wf) none x w (constant ⟨2, ![M, N]⟩ .f32 0x00000000#32) (ix2 r j)
      = ∑ k : Fin K, x (ix2 r k) * w (ix2 j k) := by
  show FloatOps.matmul (ntDims M K N wf) none x w (constant ⟨2, ![M, N]⟩ .f32 0x00000000#32) (ix2 r j) = _
  rw [Ideal.matmul_constant_zero_apply, ← Equiv.sum_comp (contrEquiv1 (ntDims M K N wf) K rfl rfl).symm]
  refine Finset.sum_congr rfl fun k _ => ?_
  have hk := contrEquiv1_symm_val (ntDims M K N wf) K rfl rfl k
  have el : (ntDims M K N wf).lhsIdx (ix2 r j) ((contrEquiv1 (ntDims M K N wf) K rfl rfl).symm k) = ix2 r k :=
    funext fun a => Fin.ext (by
      match a with
      | ⟨0, _⟩ => exact nt_lhs_row wf _ _
      | ⟨1, _⟩ => exact (nt_lhs_col wf _ _).trans hk)
  have er : (ntDims M K N wf).rhsIdx (ix2 r j) ((contrEquiv1 (ntDims M K N wf) K rfl rfl).symm k) = ix2 j k :=
    funext fun a => Fin.ext (by
      match a with
      | ⟨0, _⟩ => exact nt_rhs_row wf _ _
      | ⟨1, _⟩ => exact (nt_rhs_col wf _ _).trans hk)
  rw [el, er]

end NT

/-! ## `[A, B, K]` by `[N, K]`: each operand contracted on its last axis -/

/-- The dimension numbers `[2] x [1]`, free axes `[0, 1]` and `[0]`, no batch axes. -/
abbrev d3x2 (A B K N : Nat)
    (wf : DotDims.WF ⟨3, ![A, B, K]⟩ ⟨2, ![N, K]⟩ ⟨3, ![A, B, N]⟩ [2] [1] [0, 1] [0] [] []) :
    DotDims ⟨3, ![A, B, K]⟩ ⟨2, ![N, K]⟩ ⟨3, ![A, B, N]⟩ where
  lhsContracting := [2]
  rhsContracting := [1]
  lhsNonContracting := [0, 1]
  rhsNonContracting := [0]
  lhsBatch := []
  rhsBatch := []
  wf := wf

section ThreeByTwo

variable {A B K N : Nat}
  (wf : DotDims.WF ⟨3, ![A, B, K]⟩ ⟨2, ![N, K]⟩ ⟨3, ![A, B, N]⟩ [2] [1] [0, 1] [0] [] [])

/-- The left operand's first coordinate is the output's first. -/
theorem d3x2_lhs_zero (i : (⟨3, ![A, B, N]⟩ : Shape).Idx) (q : (d3x2 A B K N wf).contr.Idx) :
    ((d3x2 A B K N wf).lhsIdx i q 0).val = (i 0).val := by
  unfold DotDims.lhsIdx
  rw [dif_neg (show ¬(0 : Fin (⟨3, ![A, B, K]⟩ : Shape).rank) ∈ (d3x2 A B K N wf).lhsBatch from List.not_mem_nil),
    dif_pos (show (0 : Fin (⟨3, ![A, B, K]⟩ : Shape).rank) ∈ (d3x2 A B K N wf).lhsNonContracting from
      List.mem_cons_self)]
  rfl

/-- The left operand's second coordinate is the output's second. -/
theorem d3x2_lhs_one (i : (⟨3, ![A, B, N]⟩ : Shape).Idx) (q : (d3x2 A B K N wf).contr.Idx) :
    ((d3x2 A B K N wf).lhsIdx i q 1).val = (i 1).val := by
  unfold DotDims.lhsIdx
  rw [dif_neg (show ¬(1 : Fin (⟨3, ![A, B, K]⟩ : Shape).rank) ∈ (d3x2 A B K N wf).lhsBatch from List.not_mem_nil),
    dif_pos (show (1 : Fin (⟨3, ![A, B, K]⟩ : Shape).rank) ∈ (d3x2 A B K N wf).lhsNonContracting from
      List.mem_cons_of_mem _ (List.mem_singleton.mpr rfl))]
  rfl

/-- The left operand's last coordinate is the contraction coordinate. -/
theorem d3x2_lhs_two (i : (⟨3, ![A, B, N]⟩ : Shape).Idx) (q : (d3x2 A B K N wf).contr.Idx) :
    ((d3x2 A B K N wf).lhsIdx i q 2).val = (q ⟨0, Nat.one_pos⟩).val :=
  (d3x2 A B K N wf).lhsIdx_val_of_single rfl i q

/-- The right operand's row is the output's last coordinate: its free axis comes after the left operand's two. -/
theorem d3x2_rhs_zero (i : (⟨3, ![A, B, N]⟩ : Shape).Idx) (q : (d3x2 A B K N wf).contr.Idx) :
    ((d3x2 A B K N wf).rhsIdx i q 0).val = (i 2).val := by
  unfold DotDims.rhsIdx
  rw [dif_neg (show ¬(0 : Fin (⟨2, ![N, K]⟩ : Shape).rank) ∈ (d3x2 A B K N wf).rhsBatch from List.not_mem_nil),
    dif_pos (show (0 : Fin (⟨2, ![N, K]⟩ : Shape).rank) ∈ (d3x2 A B K N wf).rhsNonContracting from
      List.mem_singleton.mpr rfl)]
  rfl

/-- The right operand's column is the contraction coordinate. -/
theorem d3x2_rhs_one (i : (⟨3, ![A, B, N]⟩ : Shape).Idx) (q : (d3x2 A B K N wf).contr.Idx) :
    ((d3x2 A B K N wf).rhsIdx i q 1).val = (q ⟨0, Nat.one_pos⟩).val :=
  (d3x2 A B K N wf).rhsIdx_val_of_single rfl i q

/-- The host's product at `(a, b, o)`: the sum over the contraction of the fibre `(a, b, ·)` of the left operand against
    row `o` of the right one. -/
theorem dotGeneral_3x2_apply {φ₁ φ₂ : FTy} (l : FVec Ideal ⟨3, ![A, B, K]⟩ φ₁) (r : FVec Ideal ⟨2, ![N, K]⟩ φ₂)
    (a : Fin A) (b : Fin B) (o : Fin N) :
    Host.dotGeneral (d3x2 A B K N wf) none l r (ix3 a b o) = ∑ k : Fin K, l (ix3 a b k) * r (ix2 o k) := by
  show FloatOps.dotGeneral (d3x2 A B K N wf) none .single l r (ix3 a b o) = _
  rw [Ideal.dotGeneral_apply, ← Equiv.sum_comp (contrEquiv1 (d3x2 A B K N wf) K rfl rfl).symm]
  refine Finset.sum_congr rfl fun k _ => ?_
  have hk := contrEquiv1_symm_val (d3x2 A B K N wf) K rfl rfl k
  have el : (d3x2 A B K N wf).lhsIdx (ix3 a b o) ((contrEquiv1 (d3x2 A B K N wf) K rfl rfl).symm k) = ix3 a b k :=
    funext fun e => Fin.ext (by
      match e with
      | ⟨0, _⟩ => exact d3x2_lhs_zero wf _ _
      | ⟨1, _⟩ => exact d3x2_lhs_one wf _ _
      | ⟨2, _⟩ => exact (d3x2_lhs_two wf _ _).trans hk)
  have er : (d3x2 A B K N wf).rhsIdx (ix3 a b o) ((contrEquiv1 (d3x2 A B K N wf) K rfl rfl).symm k) = ix2 o k :=
    funext fun e => Fin.ext (by
      match e with
      | ⟨0, _⟩ => exact d3x2_rhs_zero wf _ _
      | ⟨1, _⟩ => exact (d3x2_rhs_one wf _ _).trans hk)
  rw [el, er]

end ThreeByTwo

end Cert.Lib.Contract

end
-- ==== Proof.KernelAcc.lean ====
/-
  What the kernel's matrix product leaves in its result array, at the exact instance.

  The grid is 4 row blocks by 43 column blocks. At column block 0 the body writes the bias row, broadcast over the 2048
  rows of the output block, and then adds the product of the 2048 x 256 block of activations with the 2048 x 256 block
  of the masked weights; at every later column block it adds the product of that block to what the block before left.
  So after column block k the output block holds, at row r and column q,
      bias q + sum over the first (k + 1) * 256 columns j of a (row, j) * w (q, j),
  by induction on the grid point; after the last column block the sum runs over all 43 * 256 = 11008 columns, and that is
  what each row block of the result array is written back as.
-/
import proofs.«413134_j85873576116768_3_alg».proof.Proof.KernelIdealFrame
import proofs.«413134_j85873576116768_3_alg».proof.Proof.Spec
import proofs.«413134_j85873576116768_3_alg».proof.Proof.LibContract
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Acc

open Cert.KernelIdeal Cert.KernelIdeal.Gen

section Pieces

variable {F : FTy → Type} [FloatOps F]

theorem hz : (![0, 0] : Fin 2 → Nat) = fun _ => 0 := funext fun a => by fin_cases a <;> rfl

/-- A later column block: the one covering store writes the sum of what the output block held and the block product. -/
theorem out_B (c : Dev nD) (i : grid0.Coords) (a2 : Memref sig .tc .vmem S2048x256 .f32) (h2 : a2.IsWhole)
    (a3 : Memref sig .tc .vmem S2048x256 .bf16) (h3 : a3.IsWhole) (a4 : Memref sig .tc .vmem S1x2048 .f32) (h4 : a4.IsWhole)
    (a5 : Memref sig .tc .vmem S2048x2048 .f32) (h5 : a5.IsWhole) (hc : ¬cond0_0 i)
    (x0 : Vec F S2048x256 .f32) (x1 : Vec F S2048x256 .bf16) (x2 : Vec F S1x2048 .f32) (xo3 : Vec F S2048x2048 .f32) :
    out0_B_3 c i a2 h2 a3 h3 a4 h4 a5 h5 hc x0 x1 x2 xo3 = k0_pay2 x0 xo3 x1 := by
  unfold out0_B_3
  rw [View.read_writes_eq_canon _ _ _ (cover0_B_3 c i a2 h2 a3 h3 a4 h4 a5 h5 hc x0 x1 x2 xo3)]
  unfold kernelRun0_B
  dsimp only
  sl_unfold_words
  rw [View.canon_unit_zero hz]
  simp only [View.readAt_eq_ld, h2.read_unread, h3.read_unread, h5.read_unread, View.ld_unit_zero (S := S2048x256) hz,
    View.ld_unit_zero (S := S2048x2048) hz]

/-- Column block 0: the bias row is stored, read back, and the block product added to it. -/
theorem out_A (c : Dev nD) (i : grid0.Coords) (a2 : Memref sig .tc .vmem S2048x256 .f32) (h2 : a2.IsWhole)
    (a3 : Memref sig .tc .vmem S2048x256 .bf16) (h3 : a3.IsWhole) (a4 : Memref sig .tc .vmem S1x2048 .f32) (h4 : a4.IsWhole)
    (a5 : Memref sig .tc .vmem S2048x2048 .f32) (h5 : a5.IsWhole) (hc : cond0_0 i)
    (x0 : Vec F S2048x256 .f32) (x1 : Vec F S2048x256 .bf16) (x2 : Vec F S1x2048 .f32) :
    out0_A_3 c i a2 h2 a3 h3 a4 h4 a5 h5 hc x0 x1 x2 = k0_pay2 x0 (k0_pay1 x2) x1 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S2048x2048) hz, View.readCov_unit_zero (S := S2048x2048) _ hz]
  simp only [View.readAt_eq_ld, h2.read_unread, h3.read_unread, h4.read_unread, View.ld_unit_zero (S := S2048x256) hz,
    View.ld_unit_zero (S := S1x2048) hz, View.ld_unit_zero (S := S2048x2048) hz]

end Pieces

section Blocks

variable {F : FTy → Type} [FloatOps F]
variable (m : (ℓ : Loc nD τ sig) → Buf (Elt F) ℓ)

/-- The three operand arrays as the region finds them, and the blocks the windows stage, at their literal types. -/
abbrev Aarr (c : Dev nD) : FVec F S8192x11008 .f32 := V m c main_v16
abbrev Warr (c : Dev nD) : FVec F S2048x11008 .bf16 := V m c main_v13
abbrev Barr (c : Dev nD) : FVec F S1x2048 .f32 := V m c main_v15
abbrev ablk (c : Dev nD) (t : Fin cfg0.N) : Vec F S2048x256 .f32 := iblk m c 0 t
abbrev wblk (c : Dev nD) (t : Fin cfg0.N) : Vec F S2048x256 .bf16 := iblk m c 1 t
abbrev bblk (c : Dev nD) (t : Fin cfg0.N) : Vec F S1x2048 .f32 := iblk m c 2 t

/-- The printed index maps over the grid: point `t` is row block `t / 43`, column block `t % 43`. -/
theorem idx_facts : ∀ t : Fin cfg0.N, win0_0.index t (0 : Fin 2) = t.val / 43 ∧ win0_0.index t (1 : Fin 2) = t.val % 43
    ∧ win0_1.index t (0 : Fin 2) = 0 ∧ win0_1.index t (1 : Fin 2) = t.val % 43
    ∧ win0_2.index t (0 : Fin 2) = 0 ∧ win0_2.index t (1 : Fin 2) = 0
    ∧ win0_3.index t (0 : Fin 2) = t.val / 43 ∧ win0_3.index t (1 : Fin 2) = 0 :=
  (by decide +kernel : ∀ t : Fin grid0.N, _)

theorem lt172 (t : Fin cfg0.N) : t.val < 172 := lt_of_lt_of_eq t.isLt (show cfg0.N = 172 from N_0)

/-- The activations' block at point `t`: rows `2048 (t / 43) + r`, columns `256 (t % 43) + kk`. -/
theorem ablk_apply (c : Dev nD) (t : Fin cfg0.N) (r : Fin 2048) (kk : Fin 256) :
    ablk m c t (ix2 r kk) = Aarr m c (ix2 ⟨2048 * (t.val / 43) + r.val, by have := lt172 t; omega⟩
      ⟨256 * (t.val % 43) + kk.val, by omega⟩) := by
  obtain ⟨e0, e1, -⟩ := idx_facts t
  show V m c main_v16 (((cfg0.win 0).blk t).view.emb (ix2 r kk)) = V m c main_v16 _
  congr 1
  funext a; apply Fin.ext
  match a with
  | ⟨0, _⟩ => show win0_0.index t (0 : Fin 2) * 2048 + 1 * r.val = 2048 * (t.val / 43) + r.val; rw [e0]; omega
  | ⟨1, _⟩ => show win0_0.index t (1 : Fin 2) * 256 + 1 * kk.val = 256 * (t.val % 43) + kk.val; rw [e1]; omega

/-- The weights' block at point `t`: all 2048 rows, columns `256 (t % 43) + kk`. -/
theorem wblk_apply (c : Dev nD) (t : Fin cfg0.N) (q : Fin 2048) (kk : Fin 256) :
    wblk m c t (ix2 q kk) = Warr m c (ix2 q ⟨256 * (t.val % 43) + kk.val, by omega⟩) := by
  obtain ⟨-, -, e2, e3, -⟩ := idx_facts t
  show V m c main_v13 (((cfg0.win 1).blk t).view.emb (ix2 q kk)) = V m c main_v13 _
  congr 1
  funext a; apply Fin.ext
  match a with
  | ⟨0, _⟩ => show win0_1.index t (0 : Fin 2) * 2048 + 1 * q.val = q.val; rw [e2]; omega
  | ⟨1, _⟩ => show win0_1.index t (1 : Fin 2) * 256 + 1 * kk.val = 256 * (t.val % 43) + kk.val; rw [e3]; omega

/-- The bias row's block is the whole row at every point. -/
theorem bblk_apply (c : Dev nD) (t : Fin cfg0.N) (q : Fin 2048) :
    bblk m c t (ix2 0 q) = Barr m c (ix2 0 q) := by
  obtain ⟨-, -, -, -, e4, e5, -⟩ := idx_facts t
  show V m c main_v15 (((cfg0.win 2).blk t).view.emb (ix2 0 q)) = V m c main_v15 _
  congr 1
  funext a; apply Fin.ext
  match a with
  | ⟨0, _⟩ => show win0_2.index t (0 : Fin 2) * 1 + 1 * 0 = 0; rw [e4]
  | ⟨1, _⟩ => show win0_2.index t (1 : Fin 2) * 2048 + 1 * q.val = q.val; rw [e5]; omega

end Blocks

section Exact

variable (m : (ℓ : Loc nD τ sig) → Buf (Elt Ideal) ℓ) (ρ : Dev nD → PrngReg)

/-- The bias row broadcast over the rows. -/
theorem pay1_apply (x2 : Vec Ideal S1x2048 .f32) (r q : Fin 2048) : k0_pay1 x2 (ix2 r q) = x2 (ix2 0 q) := by
  unfold k0_pay1
  simp only [shapeCast_self]
  exact broadcastTo_apply _ _ _ (ix2 0 q) (fun a => by
    match a with
    | ⟨0, _⟩ => rfl
    | ⟨1, _⟩ => rfl)

/-- What the body adds at an entry: the contraction of row `r` of the activations' block with row `q` of the weights'
    block (the narrowing of the activations to bf16 is the identity on the extended reals). -/
theorem pay2_apply (x0 : Vec Ideal S2048x256 .f32) (xo : Vec Ideal S2048x2048 .f32) (x1 : Vec Ideal S2048x256 .bf16)
    (r q : Fin 2048) :
    k0_pay2 x0 xo x1 (ix2 r q) = xo (ix2 r q) + ∑ kk : Fin 256, x0 (ix2 r kk) * x1 (ix2 q kk) := by
  unfold k0_pay2
  simp only [shapeCast_self, addf, Ideal.addf_def]
  refine congrArg (xo (ix2 r q) + ·) ?_
  exact Cert.Lib.Contract.matmul_nt_zero_apply (M := 2048) (K := 256) (N := 2048) _ (φ₁ := .bf16) (φ₂ := .bf16)
    (truncf .bf16 x0 bitsLt_bf16_f32) x1 r q

/-- The arrays read at natural-number positions, zero outside (so that sums can be regrouped over plain numbers). -/
def aN (c : Dev nD) (row j : ℕ) : EReal :=
  if h : row < 8192 ∧ j < 11008 then Aarr m c (ix2 ⟨row, h.1⟩ ⟨j, h.2⟩) else 0
def wN (c : Dev nD) (q : Fin 2048) (j : ℕ) : EReal :=
  if h : j < 11008 then Warr m c (ix2 q ⟨j, h⟩) else 0

theorem aN_eq (c : Dev nD) (row j : ℕ) (h1 : row < 8192) (h2 : j < 11008) :
    aN m c row j = Aarr m c (ix2 ⟨row, h1⟩ ⟨j, h2⟩) := dif_pos ⟨h1, h2⟩
theorem wN_eq (c : Dev nD) (q : Fin 2048) (j : ℕ) (h : j < 11008) : wN m c q j = Warr m c (ix2 q ⟨j, h⟩) := dif_pos h

theorem ablk_aN (c : Dev nD) (t : Fin cfg0.N) (r : Fin 2048) (kk : Fin 256) :
    ablk m c t (ix2 r kk) = aN m c (2048 * (t.val / 43) + r.val) (256 * (t.val % 43) + kk.val) := by
  rw [ablk_apply, aN_eq]
theorem wblk_wN (c : Dev nD) (t : Fin cfg0.N) (q : Fin 2048) (kk : Fin 256) :
    wblk m c t (ix2 q kk) = wN m c q (256 * (t.val % 43) + kk.val) := by
  rw [wblk_apply, wN_eq]

/-- The output block after point `n`, at row `r` and column `q`: the bias plus the first `n % 43 + 1` column blocks. -/
def closed (c : Dev nD) (n : ℕ) (r q : Fin 2048) : EReal :=
  Barr m c (ix2 0 q) + ∑ s ∈ Finset.range (n % 43 + 1), ∑ kk : Fin 256,
    aN m c (2048 * (n / 43) + r.val) (256 * s + kk.val) * wN m c q (256 * s + kk.val)

/-- A point of column block 0 leaves the bias plus the first block's product. -/
theorem caseA (c : Dev nD) (t : Fin cfg0.N) (h0 : t.val % 43 = 0) (r q : Fin 2048) :
    outsAt0 m c t.val t.isLt (ix2 r q) = closed m c t.val r q := by
  rw [outsAt0_A m c t h0, out_A, pay2_apply, pay1_apply]
  show bblk m c t (ix2 0 q) + ∑ kk : Fin 256, ablk m c t (ix2 r kk) * wblk m c t (ix2 q kk) = _
  unfold closed
  rw [bblk_apply]
  simp only [ablk_aN, wblk_wN]
  rw [h0, Finset.sum_range_one]

/-- By induction on the grid point: the output block's contents are the running sum. -/
theorem outs_apply (c : Dev nD) : ∀ (n : ℕ) (h : n < cfg0.N) (r q : Fin 2048),
    outsAt0 m c n h (ix2 r q) = closed m c n r q
  | 0, h, r, q => caseA m c ⟨0, h⟩ rfl r q
  | n + 1, h, r, q => by
    by_cases h0 : (n + 1) % 43 = 0
    · exact caseA m c ⟨n + 1, h⟩ h0 r q
    · rw [outsAt0_B m c ⟨n + 1, h⟩ h0, out_B, pay2_apply]
      show outsAt0 m c n _ (ix2 r q) + ∑ kk : Fin 256, ablk m c ⟨n + 1, h⟩ (ix2 r kk) * wblk m c ⟨n + 1, h⟩ (ix2 q kk) = _
      rw [outs_apply c n _ r q]
      unfold closed
      simp only [ablk_aN, wblk_wN]
      have e1 : (n + 1) / 43 = n / 43 := by omega
      have e2 : (n + 1) % 43 = n % 43 + 1 := by omega
      rw [e1, e2, add_assoc]
      conv_rhs => rw [Finset.sum_range_succ]

/-- All the column blocks together are all the columns. -/
theorem all_blocks {β : Type*} [AddCommMonoid β] (a b n : ℕ) (h : a * b = n) (f : ℕ → β) :
    ∑ s ∈ Finset.range a, ∑ r : Fin b, f (b * s + r.val) = ∑ q : Fin n, f q.val := by
  subst h; exact Cert.Spec.blocks_sum a b f

/-- The result array, as one function of the operand arrays: the bias plus the full contraction. -/
def Gy (c : Dev nD) : S8192x2048.Idx → EReal := fun i =>
  Barr m c (ix2 0 (i 1)) + ∑ j : Fin 11008, Aarr m c (ix2 (i 0) j) * Warr m c (ix2 (i 1) j)

/-- After the last column block the running sum is the full contraction: 43 blocks of 256 columns are all 11008. -/
theorem closed_last (c : Dev nD) (n : ℕ) (hn : n < 172) (h42 : n % 43 = 42) (r q : Fin 2048) :
    closed m c n r q = Gy m c (ix2 ⟨2048 * (n / 43) + r.val, by omega⟩ q) := by
  have hs : ∑ s ∈ Finset.range 43, ∑ kk : Fin 256,
        aN m c (2048 * (n / 43) + r.val) (256 * s + kk.val) * wN m c q (256 * s + kk.val)
      = ∑ j : Fin 11008, Aarr m c (ix2 ⟨2048 * (n / 43) + r.val, by omega⟩ j) * Warr m c (ix2 q j) := by
    refine (all_blocks 43 256 11008 (by norm_num) (fun j => aN m c (2048 * (n / 43) + r.val) j * wN m c q j)).trans ?_
    refine Finset.sum_congr rfl fun j _ => ?_
    show aN m c (2048 * (n / 43) + r.val) j.val * wN m c q j.val = _
    rw [aN_eq m c _ _ (by omega) j.isLt, wN_eq m c _ _ j.isLt]
  unfold closed Gy
  rw [h42]
  exact congrArg (Barr m c (ix2 0 q) + ·) hs

/-- What a writing point writes back is its block of `Gy`. -/
theorem flushed_eq (c : Dev nD) (t : Fin cfg0.N) (hf : (cfg0.win 3).flush t = true) :
    (dats m 0 c).flushed 3 t = ((cfg0.win 3).blk t).view.read (Elt Ideal) (Gy m c) := by
  have h42 : t.val % 43 = 42 := (flush0_3 t).mp hf
  obtain ⟨-, -, -, -, -, -, e6, e7⟩ := idx_facts t
  show (cfg0.win 3).cut (grid0.coords t) ((dats m 0 c).after 3 t) = _
  rw [after0_3]
  funext (y : S2048x2048.Idx)
  obtain ⟨r, q, rfl⟩ : ∃ (r q : Fin 2048), y = ix2 r q := ⟨y 0, y 1, eq_ix2 y⟩
  show outsAt0 m c t.val t.isLt (ix2 r q) = Gy m c (((cfg0.win 3).blk t).view.emb (ix2 r q))
  rw [outs_apply m c t.val t.isLt r q, closed_last m c t.val (lt172 t) h42 r q]
  congr 1
  funext a; apply Fin.ext
  match a with
  | ⟨0, _⟩ => show 2048 * (t.val / 43) + r.val = win0_3.index t (0 : Fin 2) * 2048 + 1 * r.val; rw [e6]; omega
  | ⟨1, _⟩ => show q.val = win0_3.index t (1 : Fin 2) * 2048 + 1 * q.val; rw [e7]; omega

/-- Every row of the result array lies in the block of the last point of its row block, so the array ends at `Gy`. -/
theorem final_y (c : Dev nD) : (dats m 0 c).arrAt 3 cfg0.N = Gy m c :=
  (dats m 0 c).arrAt_eq_of_cover 3 (Gy m c) (flushed_eq m c) fun (i : S8192x2048.Idx) => by
    have hi0 : (i 0).val < 8192 := (i 0).isLt
    have hi1 : (i 1).val < 2048 := (i 1).isLt
    have hN : cfg0.N = 172 := N_0
    have ht : 43 * ((i 0).val / 2048) + 42 < cfg0.N := by omega
    obtain ⟨-, -, -, -, -, -, e6, e7⟩ := idx_facts ⟨43 * ((i 0).val / 2048) + 42, ht⟩
    refine ⟨⟨43 * ((i 0).val / 2048) + 42, ht⟩, (flush0_3 _).mpr (by dsimp only; omega), ?_⟩
    show i ∈ ((View.whole main_v17).slice (win0_3.rect ⟨43 * ((i 0).val / 2048) + 42, ht⟩)).set
    rw [View.set_slice_whole, Rect.mem_set_unit]
    intro a
    match a with
    | ⟨0, _⟩ =>
      show win0_3.index ⟨43 * ((i 0).val / 2048) + 42, ht⟩ (0 : Fin 2) * 2048 ≤ (i 0).val
        ∧ (i 0).val < win0_3.index ⟨43 * ((i 0).val / 2048) + 42, ht⟩ (0 : Fin 2) * 2048 + 2048
      rw [e6]; dsimp only; omega
    | ⟨1, _⟩ =>
      show win0_3.index ⟨43 * ((i 0).val / 2048) + 42, ht⟩ (1 : Fin 2) * 2048 ≤ (i 1).val
        ∧ (i 1).val < win0_3.index ⟨43 * ((i 0).val / 2048) + 42, ht⟩ (1 : Fin 2) * 2048 + 2048
      rw [e7]; omega

end Exact

end Cert.KernelIdeal.Acc

end
-- ==== Proof.LibTake.lean ====
/-
  Index normalisation and the in-range guard of a table lookup, each read at one entry, at any extent.

  A position word a into a table of N rows is first WRAPPED: a negative word counts from the end, so it becomes a + N,
  and a non-negative word is kept. The wrapped word, kept as an [n × 1] column, is then GUARDED: the lookup at row p
  is honoured when 0 ≤ col(p, 0) ≤ M (signed), M the last admissible start, and filled otherwise; the guard is the
  and-reduction, along the second axis (of extent one), of the one-bit rectangle of those two comparisons, so its
  entry p is one exactly when both hold at (p, 0). The lookup itself clamps the start into [0, N − 1], which changes
  nothing for a word already in [0, N). Besides these: a vector kept as a column read at (p, 0), a scalar broadcast read
  anywhere, a select read at an index, and three facts on signed words.
-/
import Idealize.ShloMosaic.Lib.StableHlo.Predicate
import Idealize.ShloMosaic.Lib.ReduceAll
import Idealize.ShloMosaic.Lib.ValueIdx

noncomputable section

namespace Cert.Lib.Take

open Idealize.ShloMosaic
open Idealize.ShloMosaic.ValueIdx

/-- The scalar shape. -/
local notation "S_" => (⟨0, ![]⟩ : Shape)

/-! ## Signed words -/

theorem toInt_zero : (0#32 : BitVec 32).toInt = 0 := by decide

/-- The all-ones word is −1. -/
theorem toInt_neg_one : (4294967295#32 : BitVec 32).toInt = -1 := by decide

/-- A small natural number as a word reads back as itself. -/
theorem toInt_ofNat_lt (k : Nat) (h : k < 2 ^ 31) : (BitVec.ofNat 32 k).toInt = k :=
  StableHlo.Predicate.toInt_ofNat_small k h

/-- The comparison a ≥ 0, signed, read back. -/
theorem sge_zero_iff (a : BitVec 32) : IntOp.cmpi .sge a 0#32 = 1#1 ↔ 0 ≤ a.toInt := by
  rw [IntOp.cmpi_sge, toInt_zero]

/-! ## The wrap of a negative position -/

/-- A position word counted from the end when negative: a + N if a < 0 (signed), else a. -/
def wrap (N a : BitVec 32) : BitVec 32 := Scalar.select (IntOp.cmpi .slt a 0#32) (IntOp.addi a N) a

/-- The vector form of the wrap, read at entry p. -/
theorem wrap_vec_apply {n : Nat} (hb : Shape.BroadcastsInDim S_ ⟨1, ![n]⟩ ![]) (N : BitVec 32) (a : IVec ⟨1, ![n]⟩ 32) (p : Fin n) :
    select (cmpi .slt a (broadcastInDim ⟨1, ![n]⟩ ![] hb (constantI S_ 32 0#32)))
      (addi a (broadcastInDim ⟨1, ![n]⟩ ![] hb (constantI S_ 32 N))) a (ix1 p) = wrap N (a (ix1 p)) := rfl

/-- A non-negative position is its own wrap. -/
theorem wrap_of_nonneg (N a : BitVec 32) (h : 0 ≤ a.toInt) : wrap N a = a := by
  unfold wrap Scalar.select
  rw [if_neg]
  intro hc
  have hlt := IntOp.cmpi_slt.1 hc
  rw [toInt_zero] at hlt
  omega

/-! ## Reads -/

/-- The rank-1 index at coordinate p, in either spelling. -/
theorem ofFin_eq_ix1 {n : Nat} (p : Fin n) : Shape.Idx.ofFin p = ix1 p := by
  funext a
  match a with
  | ⟨0, _⟩ => rfl

/-- A vector kept as an [n × 1] column reads, at (p, 0), the vector at p. -/
theorem col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) := by
  have e1 : (ix2 p (0 : Fin 1) : (⟨2, ![n, 1]⟩ : Shape).Idx) = StableHlo.Predicate.ixP p := by
    funext a
    match a with
    | ⟨0, _⟩ => rfl
    | ⟨1, _⟩ => rfl
  rw [e1, StableHlo.Predicate.bcast_col1, ofFin_eq_ix1]

/-- A scalar broadcast to any shape reads the scalar everywhere. -/
theorem bcast_scalar_apply {α : Type} {t : Shape} (h : Shape.BroadcastsInDim S_ t ![]) (v : Shape.Idx S_ → α) (i : t.Idx) :
    broadcastInDim t ![] h v i = v ix0 := by
  simp only [broadcastInDim]
  congr 1
  funext a
  exact Fin.elim0 a

/-- A select read at an index chooses by the condition's bit there. -/
theorem select_apply {α : Type} {s : Shape} (c : IVec s 1) (a b : s.Idx → α) (i : s.Idx) :
    select c a b i = if c i = 1#1 then a i else b i := rfl

/-! ## The clamp of an in-range start -/

/-- A start already in [0, N) is its own clamp into [0, N − 1]. -/
theorem clamp_of_range (a : BitVec 32) (N : Nat) (h0 : 0 ≤ a.toInt) (h1 : a.toInt < N) :
    min a.toInt.toNat (N - 1) = a.toInt.toNat := by
  have e : (a.toInt.toNat : Int) = a.toInt := Int.toNat_of_nonneg h0
  omega

/-! ## The guard -/

/-- The in-range guard at row p: the and-reduction along the second axis, of extent one, of the rectangle of the two
    comparisons 0 ≤ col and col ≤ M is one at p exactly when both hold at (p, 0). -/
theorem guard_apply {n : Nat} (hbs : Shape.BroadcastsInDim S_ ⟨2, ![n, 1]⟩ ![])
    (hb1 : (⟨1, ![1]⟩ : Shape).BroadcastsInDim ⟨2, ![1, 1]⟩ ![1])
    (hb2 : (⟨2, ![1, 1]⟩ : Shape).BroadcastsInDim ⟨2, ![n, 1]⟩ ![0, 1])
    (hr : (⟨2, ![n, 1]⟩ : Shape).ReducesTo [1] ⟨1, ![n]⟩) (h0 : 0 < Shape.numel S_) (M : BitVec 32)
    (col : IVec ⟨2, ![n, 1]⟩ 32) (p : Fin n) :
    Host.reduce IntOp.andi
        (andi (cmpi .sge col (broadcastInDim ⟨2, ![n, 1]⟩ ![] hbs (constantI S_ 32 0#32)))
          (cmpi .sle col (broadcastInDim ⟨2, ![n, 1]⟩ ![0, 1] hb2
            (broadcastInDim ⟨2, ![1, 1]⟩ ![1] hb1 (constantI ⟨1, ![1]⟩ 32 M)))))
        (constantI S_ 1 1#1) hr h0 (ix1 p) = 1#1
      ↔ (0 ≤ (col (ix2 p 0)).toInt ∧ (col (ix2 p 0)).toInt ≤ M.toInt) := by
  classical
  rw [Host.reduce_eq_fold]
  -- the one source index that drops to row p is (p, 0)
  have hset : (Finset.univ.filter fun i : (⟨2, ![n, 1]⟩ : Shape).Idx => hr.drop i = ix1 p) = {ix2 p 0} := by
    ext i
    simp only [Finset.mem_filter, Finset.mem_univ, true_and, Finset.mem_singleton]
    have hv : (hr.drop i 0 : Nat) = i 0 := Shape.ReducesTo.drop_apply_val hr i 0
    constructor
    · intro e
      rw [e] at hv
      funext b
      match b with
      | ⟨0, _⟩ => exact Fin.ext hv.symm
      | ⟨1, _⟩ => exact Subsingleton.elim (α := Fin 1) _ _
    · intro e
      funext b
      obtain rfl : b = 0 := Subsingleton.elim _ _
      apply Fin.ext
      rw [hv, e]
      rfl
  rw [hset, Finset.fold_singleton]
  show IntOp.andi (IntOp.andi (IntOp.cmpi .sge (col (ix2 p 0)) 0#32) (IntOp.cmpi .sle (col (ix2 p 0)) M)) 1#1 = 1#1 ↔ _
  rw [IntOp.andi_eq_one, IntOp.andi_eq_one, sge_zero_iff, IntOp.cmpi_sle]
  exact ⟨fun h => h.1, fun h => ⟨h, rfl⟩⟩

end Cert.Lib.Take

end
-- ==== Proof.LibPointScatter.lean ====
/-
  General facts about a scatter-add read at the exact instance (floats as extended reals), for any shapes and any
  dimension numbers:
  * `resultIdx?_eq_some_iff`: an update lands at operand index p exactly when, on every operand axis, its start
    (the index array's entry read signed, unclamped) plus its window coordinate is p's coordinate — being inside
    the operand is then automatic, so the "dropped when outside" clause disappears;
  * `scatterAdd_apply`: `Host.scatterAdd` at a result entry is the operand's entry plus the sum of the updates
    that land there;
  * `sum_filter_equiv`: two sums over filtered index sets agree when a bijection of the index types carries one
    predicate to the other and one summand to the other — the step that joins a scatter over flattened updates to
    the scatter over the unflattened ones.
  All three are stated over variables (shapes, index types), so instantiating them never makes Lean evaluate over
  a large literal extent.
-/
import Idealize.ShloMosaic.PureOps.Ideal

noncomputable section

open Idealize.ShloMosaic

namespace Cert.Lib.PointScatter

/-- An update lands at operand index `p` exactly when, on every operand axis, its start plus its window
    coordinate is `p`'s coordinate: being inside the operand is then automatic. -/
theorem resultIdx?_eq_some_iff {s si u : Shape} (d : ScatterDims s si u) {w : Nat} (j : u.Idx) (idx : IVec si w) (p : s.Idx) :
    d.resultIdx? j idx = some p ↔ ∀ a, d.start j idx a + (d.window j a : Int) = ((p a).val : Int) := by
  unfold ScatterDims.resultIdx?
  constructor
  · intro h
    by_cases hh : ∀ a, 0 ≤ d.start j idx a + d.window j a ∧ d.start j idx a + d.window j a < s.size a
    · rw [dif_pos hh] at h
      intro a
      have h1 := congrArg Fin.val (congrFun (Option.some.inj h) a)
      have h2 := hh a
      simp only at h1
      omega
    · rw [dif_neg hh] at h
      exact absurd h (by simp)
  · intro h
    have hh : ∀ a, 0 ≤ d.start j idx a + d.window j a ∧ d.start j idx a + d.window j a < s.size a := fun a => by
      have := h a; have := (p a).isLt; omega
    rw [dif_pos hh]
    congr 1
    funext a
    apply Fin.ext
    have := h a
    simp only
    omega

/-- The exact scatter-add at a result entry: the operand's entry plus the sum of the updates that land there. -/
theorem scatterAdd_apply {s si su : Shape} (d : ScatterDims s si su) {w : Nat} (x : FVec Ideal s .f32) (idx : IVec si w)
    (upd : FVec Ideal su .f32) (i : s.Idx) [DecidablePred fun j : su.Idx => d.resultIdx? j idx = some i] :
    Host.scatterAdd d x idx upd i = x i + ∑ j ∈ Finset.univ.filter (fun j => d.resultIdx? j idx = some i), upd j := by
  show Ideal.hostScatterAdd d x idx upd i = _
  unfold Ideal.hostScatterAdd
  congr

/-- Two sums over filtered index sets agree when a bijection of the index types carries one predicate to the
    other and one summand to the other. -/
theorem sum_filter_equiv {ι κ M : Type} [Fintype ι] [Fintype κ] [AddCommMonoid M] (e : ι ≃ κ) (P : ι → Prop) (Q : κ → Prop)
    [DecidablePred P] [DecidablePred Q] (f : ι → M) (g : κ → M) (hPQ : ∀ j, P j ↔ Q (e j)) (hfg : ∀ j, f j = g (e j)) :
    ∑ j ∈ Finset.univ.filter P, f j = ∑ k ∈ Finset.univ.filter Q, g k :=
  Finset.sum_equiv e (fun j => by simp only [Finset.mem_filter, Finset.mem_univ, true_and]; exact hPQ j) (fun j _ => hfg j)

end Cert.Lib.PointScatter

end
-- ==== Proof.LibScatterSet.lean ====
/-
  A scatter whose body returns the update ("set"), read at one result entry.

  The scatter is the left fold, over the update indices in row-major order, of the step that replaces the entry an
  update lands on by that update's value and leaves every other entry alone; an update landing outside the operand is
  dropped. Read at ONE entry i, the fold keeps the operand's value when no update lands on i, and holds the value of
  one of the updates landing on i when some do (the last of them in row-major order; which one is not needed).
  * `foldl_set_cases`: that invariant for the fold over any list of update numbers;
  * `scatter_set_cases`: the same for `Host.scatter` with the body `fun _ b => b`, any shapes, any dimension numbers;
  * `pointDims`, `pointDims_resultIdx?_iff`: scalar updates `[n]` written into a vector `[N]` at a column `[n, 1]` of
    indices — update p lands on entry k exactly when the p-th index, read signed, is k;
  * `lastDims3`, `lastDims3_resultIdx?_iff`: updates `[A, B, n]` written into `[A, B, N]` along the last axis at a
    column `[n, 1]` of indices — update (a, b, p) lands on (a', b', k) exactly when a = a', b = b' and the p-th index,
    read signed, is k;
  * `point_scatter_set_cases`, `last3_scatter_set_cases`: the case split at an entry for these two records, the landing
    condition spelled on the index array.
  Every statement holds for arbitrary extents N, n, A, B.
-/
import proofs.«413134_j85873576116768_3_alg».proof.Proof.LibPointScatter
import Idealize.ShloMosaic.PureOps.ShapeOps
import Idealize.ShloMosaic.Lib.ValueIdx

noncomputable section

open Idealize.ShloMosaic Idealize.ShloMosaic.ValueIdx

namespace Cert.Lib.ScatterSet

variable {α : Type}

/-- A left fold of "set" steps, read at one entry `i`. Update number `n` lands on `land n` (or nowhere) and carries the
    value `val n`; a step `g r n` leaves `r` alone when `n` lands nowhere, puts `val n` at the entry `n` lands on, and
    leaves every other entry alone. Then after the fold over `l`: either no `n ∈ l` lands on `i` and the entry is the
    initial one, or some `n ∈ l` lands on `i` and the entry is `val n`. -/
theorem foldl_set_cases {ι κ β : Type} (land : ι → Option κ) (val : ι → β) (g : (κ → β) → ι → (κ → β))
    (hnone : ∀ r n, land n = none → g r n = r)
    (hhit : ∀ r n p, land n = some p → g r n p = val n)
    (hmiss : ∀ r n p i', land n = some p → i' ≠ p → g r n i' = r i')
    (x : κ → β) (i : κ) (l : List ι) :
    ((∀ n ∈ l, land n ≠ some i) ∧ l.foldl g x i = x i) ∨ (∃ n ∈ l, land n = some i ∧ l.foldl g x i = val n) := by
  induction l using List.reverseRecOn with
  | nil => exact Or.inl ⟨fun n hn => absurd hn List.not_mem_nil, rfl⟩
  | append_singleton l n ih =>
    rw [List.foldl_append, List.foldl_cons, List.foldl_nil]
    cases hn : land n with
    | none =>
      -- the last update is dropped: the entry is what it was, and the last update lands nowhere
      rw [hnone _ _ hn]
      rcases ih with ⟨h1, h2⟩ | ⟨m, hm, h1, h2⟩
      · refine Or.inl ⟨fun k hk => ?_, h2⟩
        rcases List.mem_append.1 hk with hk | hk
        · exact h1 k hk
        · rw [List.mem_singleton.1 hk, hn]; exact fun h => nomatch h
      · exact Or.inr ⟨m, List.mem_append_left _ hm, h1, h2⟩
    | some p =>
      by_cases hip : i = p
      · -- the last update lands on `i`: the entry is its value
        subst hip
        exact Or.inr ⟨n, List.mem_append_right _ (List.mem_singleton.2 rfl), hn, hhit _ _ _ hn⟩
      · -- the last update lands elsewhere: the entry is what it was
        rw [hmiss _ _ _ _ hn hip]
        rcases ih with ⟨h1, h2⟩ | ⟨m, hm, h1, h2⟩
        · refine Or.inl ⟨fun k hk => ?_, h2⟩
          rcases List.mem_append.1 hk with hk | hk
          · exact h1 k hk
          · rw [List.mem_singleton.1 hk, hn]; exact fun h => hip (Option.some.inj h).symm
        · exact Or.inr ⟨m, List.mem_append_left _ hm, h1, h2⟩

/-- THE "SET" SCATTER AT ONE ENTRY: an entry no update lands on keeps the operand's value; an entry some update lands
    on holds the value of one of the updates landing there. -/
theorem scatter_set_cases {α : Type} {s si u : Shape} (d : ScatterDims s si u) {w : Nat} (x : s.Idx → α) (idx : IVec si w)
    (upd : u.Idx → α) (i : s.Idx) :
    ((∀ j : u.Idx, d.resultIdx? j idx ≠ some i) ∧ Host.scatter d (fun _ b => b) x idx upd i = x i)
    ∨ (∃ j : u.Idx, d.resultIdx? j idx = some i ∧ Host.scatter d (fun _ b => b) x idx upd i = upd j) := by
  unfold Host.scatter
  rcases foldl_set_cases (fun n : Fin u.numel => d.resultIdx? (u.rowMajor.symm n) idx) (fun n => upd (u.rowMajor.symm n))
      (fun r n =>
        match d.resultIdx? (u.rowMajor.symm n) idx with
        | some i => fun i' => if i' = i then (fun _ b => b) (r i) (upd (u.rowMajor.symm n)) else r i'
        | none => r)
      (fun r n h => by simp only [h])
      (fun r n p h => by simp only [h, if_true])
      (fun r n p i' h hne => by simp only [h, if_neg hne])
      x i (List.finRange u.numel) with ⟨h1, h2⟩ | ⟨n, _, h1, h2⟩
  · refine Or.inl ⟨fun j => ?_, h2⟩
    have := h1 (u.rowMajor j) (List.mem_finRange _)
    simpa only [Equiv.symm_apply_apply] using this
  · exact Or.inr ⟨u.rowMajor.symm n, h1, h2⟩

/-- An axis is among the kept ones exactly when it is not among the removed ones. -/
theorem mem_kept {s : Shape} (axes : List (Fin s.rank)) (a : Fin s.rank) : a ∈ s.kept axes ↔ a ∉ axes := by
  unfold Shape.kept
  simp [List.mem_filter]

/-! ## Scalar updates written into a vector at a column of indices -/

/-- The dimension numbers of a scatter of `n` scalar updates into a length-`N` vector at `[n, 1]` indices: no window
    axes, the operand's one axis inserted and scattered, the index vector on axis 1. -/
abbrev pointDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ :=
  { updateWindowDims := [], insertedWindowDims := [0], scatterDimsToOperandDims := [0], indexVectorDim := 1, wf := wf }

section PointCoordinates

variable {N n w : Nat} (wf : ScatterDims.WF ⟨1, ![N]⟩ ⟨2, ![n, 1]⟩ ⟨1, ![n]⟩ [] [0] [0] 1)
  (idx : IVec ⟨2, ![n, 1]⟩ w) (p : Fin n)

/-- The start index of update `p` sits at `(p, 0)`: its scatter coordinate `p` on axis 0, the one component on the index
    vector's axis 1. -/
theorem pointDims_siIdx (c : Fin (pointDims N n wf).scatterDimsToOperandDims.length) :
    (pointDims N n wf).siIdx (ix1 p) c = ix2 p 0 := by
  funext b
  refine Fin.ext ?_
  have hc : c.val = 0 := by have := c.isLt; simpa using this
  match b with
  | ⟨0, _⟩ => rfl
  | ⟨1, _⟩ => exact hc

/-- On the operand's one axis the window starts at the `p`-th index, read signed. -/
theorem pointDims_start : (pointDims N n wf).start (ix1 p) idx 0 = (idx (ix2 p 0)).toInt := by
  unfold ScatterDims.start
  rw [dif_pos (show (0 : Fin 1) ∈ (pointDims N n wf).scatterDimsToOperandDims from List.mem_singleton.mpr rfl), pointDims_siIdx]

/-- The operand's one axis is inserted: the window coordinate there is `0`. -/
theorem pointDims_window : (pointDims N n wf).window (ix1 p) 0 = 0 := by
  unfold ScatterDims.window
  rw [dif_neg (show (0 : Fin 1) ∉ (pointDims N n wf).sKept from fun h => (mem_kept _ _).1 h (List.mem_singleton.mpr rfl))]

end PointCoordinates

/-- Update `p` lands on entry `k` exactly when the `p`-th index, read signed, is `k`. -/
theorem pointDims_resultIdx?_iff {N n w : Nat} (wf : ScatterDims.WF ⟨1, ![N]⟩ ⟨2, ![n, 1]⟩ ⟨1, ![n]⟩ [] [0] [0] 1)
    (idx : IVec ⟨2, ![n, 1]⟩ w) (p : Fin n) (k : Fin N) :
    (pointDims N n wf).resultIdx? (ix1 p) idx = some (ix1 k) ↔ (idx (ix2 p 0)).toInt = (k.val : Int) := by
  rw [Cert.Lib.PointScatter.resultIdx?_eq_some_iff]
  constructor
  · intro h
    have h0 : (pointDims N n wf).start (ix1 p) idx 0 + (((pointDims N n wf).window (ix1 p) 0 : Nat) : Int) = (k.val : Int) := h 0
    rw [pointDims_start, pointDims_window] at h0
    simpa using h0
  · intro h a
    match a with
    | ⟨0, _⟩ =>
      show (pointDims N n wf).start (ix1 p) idx 0 + (((pointDims N n wf).window (ix1 p) 0 : Nat) : Int) = (k.val : Int)
      rw [pointDims_start, pointDims_window, h]
      simp

/-! ## Updates written along the last of three axes at a column of indices -/

/-- The dimension numbers of a scatter of `[A, B, n]` updates into an `[A, B, N]` operand at `[n, 1]` indices: the
    updates' axes 0 and 1 are window axes going to the operand's axes 0 and 1, the operand's axis 2 is inserted and
    scattered, the index vector on axis 1. -/
abbrev lastDims3 (A B N n : Nat)
    (wf : ScatterDims.WF ⟨3, ![A, B, N]⟩ ⟨2, ![n, 1]⟩ ⟨3, ![A, B, n]⟩ [0, 1] [2] [2] 1) :
    ScatterDims ⟨3, ![A, B, N]⟩ ⟨2, ![n, 1]⟩ ⟨3, ![A, B, n]⟩ :=
  { updateWindowDims := [0, 1], insertedWindowDims := [2], scatterDimsToOperandDims := [2], indexVectorDim := 1, wf := wf }

section Last3Coordinates

variable {A B N n w : Nat} (wf : ScatterDims.WF ⟨3, ![A, B, N]⟩ ⟨2, ![n, 1]⟩ ⟨3, ![A, B, n]⟩ [0, 1] [2] [2] 1)
  (idx : IVec ⟨2, ![n, 1]⟩ w) (a : Fin A) (b : Fin B) (p : Fin n)

/-- The start index of update `(a, b, p)` sits at `(p, 0)`: its scatter coordinate `p` on axis 0, the one component on
    the index vector's axis 1. -/
theorem lastDims3_siIdx (c : Fin (lastDims3 A B N n wf).scatterDimsToOperandDims.length) :
    (lastDims3 A B N n wf).siIdx (ix3 a b p) c = ix2 p 0 := by
  funext e
  refine Fin.ext ?_
  have hc : c.val = 0 := by have := c.isLt; simpa using this
  match e with
  | ⟨0, _⟩ => rfl
  | ⟨1, _⟩ => exact hc

/-- Axes 0 and 1 are not scattered: the window starts at `0` there. -/
theorem lastDims3_start_zero : (lastDims3 A B N n wf).start (ix3 a b p) idx 0 = 0 := by
  unfold ScatterDims.start
  rw [dif_neg (show (0 : Fin 3) ∉ ([2] : List (Fin 3)) by decide)]
theorem lastDims3_start_one : (lastDims3 A B N n wf).start (ix3 a b p) idx 1 = 0 := by
  unfold ScatterDims.start
  rw [dif_neg (show (1 : Fin 3) ∉ ([2] : List (Fin 3)) by decide)]

/-- On the scattered axis 2 the window starts at the `p`-th index, read signed. -/
theorem lastDims3_start_two : (lastDims3 A B N n wf).start (ix3 a b p) idx 2 = (idx (ix2 p 0)).toInt := by
  unfold ScatterDims.start
  rw [dif_pos (show (2 : Fin 3) ∈ (lastDims3 A B N n wf).scatterDimsToOperandDims from List.mem_singleton.mpr rfl), lastDims3_siIdx]

/-- On the kept axes 0 and 1 the window coordinate is the update's coordinate on the same axis. -/
theorem lastDims3_window_zero : (lastDims3 A B N n wf).window (ix3 a b p) 0 = a.val := by
  unfold ScatterDims.window
  rw [dif_pos (show (0 : Fin 3) ∈ (lastDims3 A B N n wf).sKept from (mem_kept _ _).2 (show (0 : Fin 3) ∉ ([2] : List (Fin 3)) by decide))]
  rfl
theorem lastDims3_window_one : (lastDims3 A B N n wf).window (ix3 a b p) 1 = b.val := by
  unfold ScatterDims.window
  rw [dif_pos (show (1 : Fin 3) ∈ (lastDims3 A B N n wf).sKept from (mem_kept _ _).2 (show (1 : Fin 3) ∉ ([2] : List (Fin 3)) by decide))]
  rfl

/-- Axis 2 is inserted: the window coordinate there is `0`. -/
theorem lastDims3_window_two : (lastDims3 A B N n wf).window (ix3 a b p) 2 = 0 := by
  unfold ScatterDims.window
  rw [dif_neg (show (2 : Fin 3) ∉ (lastDims3 A B N n wf).sKept from fun h => (mem_kept _ _).1 h (List.mem_singleton.mpr rfl))]

end Last3Coordinates

/-- Update `(a, b, p)` lands on entry `(a', b', k)` exactly when `a = a'`, `b = b'` and the `p`-th index, read signed,
    is `k`. -/
theorem lastDims3_resultIdx?_iff {A B N n w : Nat}
    (wf : ScatterDims.WF ⟨3, ![A, B, N]⟩ ⟨2, ![n, 1]⟩ ⟨3, ![A, B, n]⟩ [0, 1] [2] [2] 1)
    (idx : IVec ⟨2, ![n, 1]⟩ w) (a a' : Fin A) (b b' : Fin B) (p : Fin n) (k : Fin N) :
    (lastDims3 A B N n wf).resultIdx? (ix3 a b p) idx = some (ix3 a' b' k) ↔
      a = a' ∧ b = b' ∧ (idx (ix2 p 0)).toInt = (k.val : Int) := by
  rw [Cert.Lib.PointScatter.resultIdx?_eq_some_iff]
  constructor
  · intro h
    have h0 : (lastDims3 A B N n wf).start (ix3 a b p) idx 0 + (((lastDims3 A B N n wf).window (ix3 a b p) 0 : Nat) : Int) = (a'.val : Int) := h 0
    have h1 : (lastDims3 A B N n wf).start (ix3 a b p) idx 1 + (((lastDims3 A B N n wf).window (ix3 a b p) 1 : Nat) : Int) = (b'.val : Int) := h 1
    have h2 : (lastDims3 A B N n wf).start (ix3 a b p) idx 2 + (((lastDims3 A B N n wf).window (ix3 a b p) 2 : Nat) : Int) = (k.val : Int) := h 2
    rw [lastDims3_start_zero, lastDims3_window_zero] at h0
    rw [lastDims3_start_one, lastDims3_window_one] at h1
    rw [lastDims3_start_two, lastDims3_window_two] at h2
    refine ⟨Fin.ext ?_, Fin.ext ?_, ?_⟩
    · have : ((a.val : Nat) : Int) = ((a'.val : Nat) : Int) := by simpa using h0
      exact_mod_cast this
    · have : ((b.val : Nat) : Int) = ((b'.val : Nat) : Int) := by simpa using h1
      exact_mod_cast this
    · simpa using h2
  · rintro ⟨rfl, rfl, h⟩ e
    match e with
    | ⟨0, _⟩ =>
      show (lastDims3 A B N n wf).start (ix3 a b p) idx 0 + (((lastDims3 A B N n wf).window (ix3 a b p) 0 : Nat) : Int) = (a.val : Int)
      rw [lastDims3_start_zero, lastDims3_window_zero, Int.zero_add]
    | ⟨1, _⟩ =>
      show (lastDims3 A B N n wf).start (ix3 a b p) idx 1 + (((lastDims3 A B N n wf).window (ix3 a b p) 1 : Nat) : Int) = (b.val : Int)
      rw [lastDims3_start_one, lastDims3_window_one, Int.zero_add]
    | ⟨2, _⟩ =>
      show (lastDims3 A B N n wf).start (ix3 a b p) idx 2 + (((lastDims3 A B N n wf).window (ix3 a b p) 2 : Nat) : Int) = (k.val : Int)
      rw [lastDims3_start_two, lastDims3_window_two, h]
      simp

/-! ## The case split at an entry for the two records -/

/-- THE POINT "SET" SCATTER AT ENTRY `k`: when no index, read signed, is `k`, the entry is the operand's; otherwise it is
    the update `p` of one of the positions `p` whose index is `k`. -/
theorem point_scatter_set_cases {α : Type} {N n w : Nat}
    (wf : ScatterDims.WF ⟨1, ![N]⟩ ⟨2, ![n, 1]⟩ ⟨1, ![n]⟩ [] [0] [0] 1)
    (x : (⟨1, ![N]⟩ : Shape).Idx → α) (idx : IVec ⟨2, ![n, 1]⟩ w) (upd : (⟨1, ![n]⟩ : Shape).Idx → α) (k : Fin N) :
    ((∀ p : Fin n, (idx (ix2 p 0)).toInt ≠ (k.val : Int)) ∧
        Host.scatter (pointDims N n wf) (fun _ b => b) x idx upd (ix1 k) = x (ix1 k))
    ∨ (∃ p : Fin n, (idx (ix2 p 0)).toInt = (k.val : Int) ∧
        Host.scatter (pointDims N n wf) (fun _ b => b) x idx upd (ix1 k) = upd (ix1 p)) := by
  rcases scatter_set_cases (pointDims N n wf) x idx upd (ix1 k) with ⟨h1, h2⟩ | ⟨j, h1, h2⟩
  · exact Or.inl ⟨fun p hp => h1 (ix1 p) ((pointDims_resultIdx?_iff wf idx p k).2 hp), h2⟩
  · rw [eq_ix1 j] at h1 h2
    exact Or.inr ⟨j 0, (pointDims_resultIdx?_iff wf idx (j 0) k).1 h1, h2⟩

/-- THE LAST-AXIS "SET" SCATTER AT ENTRY `(a, b, k)`: when no index, read signed, is `k`, the entry is the operand's;
    otherwise it is the update `(a, b, p)` of one of the positions `p` whose index is `k`. -/
theorem last3_scatter_set_cases {α : Type} {A B N n w : Nat}
    (wf : ScatterDims.WF ⟨3, ![A, B, N]⟩ ⟨2, ![n, 1]⟩ ⟨3, ![A, B, n]⟩ [0, 1] [2] [2] 1)
    (x : (⟨3, ![A, B, N]⟩ : Shape).Idx → α) (idx : IVec ⟨2, ![n, 1]⟩ w) (upd : (⟨3, ![A, B, n]⟩ : Shape).Idx → α)
    (a : Fin A) (b : Fin B) (k : Fin N) :
    ((∀ p : Fin n, (idx (ix2 p 0)).toInt ≠ (k.val : Int)) ∧
        Host.scatter (lastDims3 A B N n wf) (fun _ b => b) x idx upd (ix3 a b k) = x (ix3 a b k))
    ∨ (∃ p : Fin n, (idx (ix2 p 0)).toInt = (k.val : Int) ∧
        Host.scatter (lastDims3 A B N n wf) (fun _ b => b) x idx upd (ix3 a b k) = upd (ix3 a b p)) := by
  rcases scatter_set_cases (lastDims3 A B N n wf) x idx upd (ix3 a b k) with ⟨h1, h2⟩ | ⟨j, h1, h2⟩
  · exact Or.inl ⟨fun p hp => h1 (ix3 a b p) ((lastDims3_resultIdx?_iff wf idx a a b b p k).2 ⟨rfl, rfl, hp⟩), h2⟩
  · rw [eq_ix3 j] at h1 h2
    obtain ⟨ha, hb, hk⟩ := (lastDims3_resultIdx?_iff wf idx (j 0) a (j 1) b (j 2) k).1 h1
    rw [ha, hb] at h2
    exact Or.inr ⟨j 2, hk, h2⟩

end Cert.Lib.ScatterSet

end
-- ==== Proof.LibGatherAxes.lean ====
/-
  Gathers that take single positions along the last axis, read at an index.

  Three gathers of one shape of use: an array is read along its LAST axis at a column of start indices `idx : [n, 1]`,
  every other axis being carried whole.

  * rank 2: `x : [R, C]`, offset axis `[0]`, collapsed axis `[1]`, start index map `[1]`, slices `[R, 1]`, result `[R, n]`;
    entry `(r, p)` is `x[r, γ]`;
  * rank 3: `x : [A, B, C]`, offset axes `[0, 1]`, collapsed axis `[2]`, start index map `[2]`, slices `[A, B, 1]`, result
    `[A, B, n]`; entry `(a, b, p)` is `x[a, b, γ]`;
  * rank 1: `x : [N]`, no offset axis, collapsed axis `[0]`, start index map `[0]`, slices `[1]`, result `[n]`; entry `p` is
    `x[γ]`;

  where in each case the position `γ` is the start index `idx[p, 0]` read as a signed integer and clamped into the last
  axis' range `[0, extent − 1]`. The index vector sits on axis 1 of the start indices throughout.
-/
import Idealize.ShloMosaic.PureOps.ShapeOps
import Idealize.ShloMosaic.Lib.ValueIdx

noncomputable section

namespace Cert.Lib.GatherAxes

open Idealize.ShloMosaic Idealize.ShloMosaic.ValueIdx

variable {α : Type}

/-! ## Rank 2: positions along the columns of an `[R, C]` array -/

/-- The dimension numbers of a gather of columns of an `[R, C]` array at `[n, 1]` start indices. -/
abbrev colDims (R C n : Nat)
    (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

section Cols

variable {R C n w : Nat}
  (wf : GatherDims.WF ⟨2, ![R, C]⟩ ⟨2, ![n, 1]⟩ ⟨2, ![R, n]⟩ [0] [1] [] [1] [] 1 ![R, 1])
  (idx : IVec ⟨2, ![n, 1]⟩ w) (r : Fin R) (p : Fin n)

/-- There are no batching axes: the batching coordinate vanishes on both operand axes. -/
theorem batchCoord_cols (a : Fin 2) : (colDims R C n wf).batchCoord (ix2 r p) a = 0 :=
  GatherDims.batchCoord_eq_zero _ _ _ List.not_mem_nil

/-- Operand axis 1 is the collapsed one, so it is not among the kept axes. -/
theorem one_not_mem_sKept_cols : (1 : Fin 2) ∉ (colDims R C n wf).sKept := fun h =>
  ((GatherDims.mem_sKept _ _).mp h).1 (List.mem_singleton.mpr rfl)

/-- Operand axis 0 is neither collapsed nor batching: it is the one kept axis. -/
theorem zero_mem_sKept_cols : (0 : Fin 2) ∈ (colDims R C n wf).sKept :=
  (GatherDims.mem_sKept _ _).mpr ⟨show (0 : Fin 2) ∉ ([1] : List (Fin 2)) by decide, List.not_mem_nil⟩

/-- On the collapsed axis the offset coordinate is `0`. -/
theorem offCoord_cols_one : (colDims R C n wf).offCoord (ix2 r p) 1 = 0 :=
  GatherDims.offCoord_eq_zero _ _ _ (one_not_mem_sKept_cols wf)

/-- On the kept axis the offset coordinate is the result's row: the kept axis stands first among the kept axes, the
    first offset axis of the result is its axis 0, and `(r, p)` has `r` there. -/
theorem offCoord_cols_zero : (colDims R C n wf).offCoord (ix2 r p) 0 = r.val := by
  unfold GatherDims.offCoord
  rw [dif_pos (zero_mem_sKept_cols wf)]
  rfl

/-- Axis 0 is not in the start index map: the slice starts at `0` there. -/
theorem start_cols_zero : (colDims R C n wf).start (ix2 r p) idx 0 = 0 := by
  unfold GatherDims.start
  rw [dif_neg (show (0 : Fin 2) ∉ ([1] : List (Fin 2)) by decide)]

/-- The start index of result `(r, p)` sits at `(p, 0)`: its batch coordinate `p` on axis 0, the one component on the
    index vector's axis 1. -/
theorem siIdx_cols (c : Fin (colDims R C n wf).startIndexMap.length) :
    (colDims R C n wf).siIdx (ix2 r p) c = ix2 p 0 := by
  funext b
  refine Fin.ext ?_
  have hc : c.val = 0 := by have := c.isLt; simpa using this
  match b with
  | ⟨0, _⟩ => rfl
  | ⟨1, _⟩ => exact hc

/-- On axis 1 the slice starts at the start index read signed, clamped so that the one-column slice fits. -/
theorem start_cols_one :
    (colDims R C n wf).start (ix2 r p) idx 1 = min (idx (ix2 p 0)).toInt.toNat (C - 1) := by
  unfold GatherDims.start
  rw [dif_pos (show (1 : Fin 2) ∈ (colDims R C n wf).startIndexMap from List.mem_singleton.mpr rfl), siIdx_cols]
  rfl

end Cols

/-- THE RANK-2 GATHER READ AT `(r, p)`: the array at the same row and the selected column. -/
theorem gather_cols_apply {R C n w : Nat} (hC : 0 < C)
    (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ w) (r : Fin R) (p : Fin n) :
    Host.gather (colDims R C n wf) x idx (ix2 r p)
      = x (ix2 r ⟨min (idx (ix2 p 0)).toInt.toNat (C - 1), by omega⟩) := by
  unfold Host.gather
  congr 1
  funext a
  refine Fin.ext ?_
  -- a coordinate of the operand index is the clamped start plus the batching plus the offset coordinate
  match a with
  | ⟨0, _⟩ =>
    show (colDims R C n wf).start (ix2 r p) idx 0 + (colDims R C n wf).batchCoord (ix2 r p) 0
      + (colDims R C n wf).offCoord (ix2 r p) 0 = r.val
    rw [batchCoord_cols, offCoord_cols_zero, start_cols_zero, Nat.add_zero, Nat.zero_add]
  | ⟨1, _⟩ =>
    show (colDims R C n wf).start (ix2 r p) idx 1 + (colDims R C n wf).batchCoord (ix2 r p) 1
      + (colDims R C n wf).offCoord (ix2 r p) 1 = min (idx (ix2 p 0)).toInt.toNat (C - 1)
    rw [batchCoord_cols, offCoord_cols_one, start_cols_one, Nat.add_zero]

/-! ## Rank 3: positions along the last axis of an `[A, B, C]` array -/

/-- The dimension numbers of a gather along the last axis of an `[A, B, C]` array at `[n, 1]` start indices. -/
abbrev lastDims3 (A B C n : Nat)
    (wf : GatherDims.WF ⟨3, ![A, B, C]⟩ ⟨2, ![n, 1]⟩ ⟨3, ![A, B, n]⟩ [0, 1] [2] [] [2] [] 1 ![A, B, 1]) :
    GatherDims ⟨3, ![A, B, C]⟩ ⟨2, ![n, 1]⟩ ⟨3, ![A, B, n]⟩ where
  offsetDims := [0, 1]
  collapsedSliceDims := [2]
  operandBatchingDims := []
  startIndicesBatchingDims := []
  startIndexMap := [2]
  indexVectorDim := 1
  sliceSizes := ![A, B, 1]
  wf := wf

section Last3

variable {A B C n w : Nat}
  (wf : GatherDims.WF ⟨3, ![A, B, C]⟩ ⟨2, ![n, 1]⟩ ⟨3, ![A, B, n]⟩ [0, 1] [2] [] [2] [] 1 ![A, B, 1])
  (idx : IVec ⟨2, ![n, 1]⟩ w) (a : Fin A) (b : Fin B) (p : Fin n)

/-- There are no batching axes: the batching coordinate vanishes on every operand axis. -/
theorem batchCoord_last3 (e : Fin 3) : (lastDims3 A B C n wf).batchCoord (ix3 a b p) e = 0 :=
  GatherDims.batchCoord_eq_zero _ _ _ List.not_mem_nil

/-- Operand axis 2 is the collapsed one, so it is not among the kept axes. -/
theorem two_not_mem_sKept_last3 : (2 : Fin 3) ∉ (lastDims3 A B C n wf).sKept := fun h =>
  ((GatherDims.mem_sKept _ _).mp h).1 (List.mem_singleton.mpr rfl)

/-- Operand axis 0 is neither collapsed nor batching: it is kept. -/
theorem zero_mem_sKept_last3 : (0 : Fin 3) ∈ (lastDims3 A B C n wf).sKept :=
  (GatherDims.mem_sKept _ _).mpr ⟨show (0 : Fin 3) ∉ ([2] : List (Fin 3)) by decide, List.not_mem_nil⟩

/-- Operand axis 1 is neither collapsed nor batching: it is kept. -/
theorem one_mem_sKept_last3 : (1 : Fin 3) ∈ (lastDims3 A B C n wf).sKept :=
  (GatherDims.mem_sKept _ _).mpr ⟨show (1 : Fin 3) ∉ ([2] : List (Fin 3)) by decide, List.not_mem_nil⟩

/-- On the collapsed axis the offset coordinate is `0`. -/
theorem offCoord_last3_two : (lastDims3 A B C n wf).offCoord (ix3 a b p) 2 = 0 :=
  GatherDims.offCoord_eq_zero _ _ _ (two_not_mem_sKept_last3 wf)

/-- Axis 0 stands first among the kept axes, the first offset axis of the result is its axis 0, and `(a, b, p)` has
    `a` there. -/
theorem offCoord_last3_zero : (lastDims3 A B C n wf).offCoord (ix3 a b p) 0 = a.val := by
  unfold GatherDims.offCoord
  rw [dif_pos (zero_mem_sKept_last3 wf)]
  rfl

/-- Axis 1 stands second among the kept axes, the second offset axis of the result is its axis 1, and `(a, b, p)` has
    `b` there. -/
theorem offCoord_last3_one : (lastDims3 A B C n wf).offCoord (ix3 a b p) 1 = b.val := by
  unfold GatherDims.offCoord
  rw [dif_pos (one_mem_sKept_last3 wf)]
  rfl

/-- Axis 0 is not in the start index map: the slice starts at `0` there. -/
theorem start_last3_zero : (lastDims3 A B C n wf).start (ix3 a b p) idx 0 = 0 := by
  unfold GatherDims.start
  rw [dif_neg (show (0 : Fin 3) ∉ ([2] : List (Fin 3)) by decide)]

/-- Axis 1 is not in the start index map: the slice starts at `0` there. -/
theorem start_last3_one : (lastDims3 A B C n wf).start (ix3 a b p) idx 1 = 0 := by
  unfold GatherDims.start
  rw [dif_neg (show (1 : Fin 3) ∉ ([2] : List (Fin 3)) by decide)]

/-- The start index of result `(a, b, p)` sits at `(p, 0)`: its one batch coordinate `p` on axis 0, the one component on
    the index vector's axis 1. -/
theorem siIdx_last3 (c : Fin (lastDims3 A B C n wf).startIndexMap.length) :
    (lastDims3 A B C n wf).siIdx (ix3 a b p) c = ix2 p 0 := by
  funext e
  refine Fin.ext ?_
  have hc : c.val = 0 := by have := c.isLt; simpa using this
  match e with
  | ⟨0, _⟩ => rfl
  | ⟨1, _⟩ => exact hc

/-- On axis 2 the slice starts at the start index read signed, clamped so that the slice of one position fits. -/
theorem start_last3_two :
    (lastDims3 A B C n wf).start (ix3 a b p) idx 2 = min (idx (ix2 p 0)).toInt.toNat (C - 1) := by
  unfold GatherDims.start
  rw [dif_pos (show (2 : Fin 3) ∈ (lastDims3 A B C n wf).startIndexMap from List.mem_singleton.mpr rfl), siIdx_last3]
  rfl

end Last3

/-- THE RANK-3 GATHER READ AT `(a, b, p)`: the array at the same two leading coordinates and the selected last one. -/
theorem gather_last3_apply {A B C n w : Nat} (hC : 0 < C)
    (wf : GatherDims.WF ⟨3, ![A, B, C]⟩ ⟨2, ![n, 1]⟩ ⟨3, ![A, B, n]⟩ [0, 1] [2] [] [2] [] 1 ![A, B, 1])
    (x : (⟨3, ![A, B, C]⟩ : Shape).Idx → α) (idx : IVec ⟨2, ![n, 1]⟩ w) (a : Fin A) (b : Fin B) (p : Fin n) :
    Host.gather (lastDims3 A B C n wf) x idx (ix3 a b p)
      = x (ix3 a b ⟨min (idx (ix2 p 0)).toInt.toNat (C - 1), by omega⟩) := by
  unfold Host.gather
  congr 1
  funext e
  refine Fin.ext ?_
  -- a coordinate of the operand index is the clamped start plus the batching plus the offset coordinate
  match e with
  | ⟨0, _⟩ =>
    show (lastDims3 A B C n wf).start (ix3 a b p) idx 0 + (lastDims3 A B C n wf).batchCoord (ix3 a b p) 0
      + (lastDims3 A B C n wf).offCoord (ix3 a b p) 0 = a.val
    rw [batchCoord_last3, offCoord_last3_zero, start_last3_zero, Nat.add_zero, Nat.zero_add]
  | ⟨1, _⟩ =>
    show (lastDims3 A B C n wf).start (ix3 a b p) idx 1 + (lastDims3 A B C n wf).batchCoord (ix3 a b p) 1
      + (lastDims3 A B C n wf).offCoord (ix3 a b p) 1 = b.val
    rw [batchCoord_last3, offCoord_last3_one, start_last3_one, Nat.add_zero, Nat.zero_add]
  | ⟨2, _⟩ =>
    show (lastDims3 A B C n wf).start (ix3 a b p) idx 2 + (lastDims3 A B C n wf).batchCoord (ix3 a b p) 2
      + (lastDims3 A B C n wf).offCoord (ix3 a b p) 2 = min (idx (ix2 p 0)).toInt.toNat (C - 1)
    rw [batchCoord_last3, offCoord_last3_two, start_last3_two, Nat.add_zero]

/-! ## Rank 1: positions of a flat `[N]` array -/

/-- The dimension numbers of a gather of single entries of an `[N]` array at `[n, 1]` start indices. -/
abbrev takeDims1 (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

section Take1

variable {N n w : Nat}
  (wf : GatherDims.WF ⟨1, ![N]⟩ ⟨2, ![n, 1]⟩ ⟨1, ![n]⟩ [] [0] [] [0] [] 1 ![1])
  (idx : IVec ⟨2, ![n, 1]⟩ w) (p : Fin n)

/-- There is no batching axis: the batching coordinate vanishes. -/
theorem batchCoord_take1 : (takeDims1 N n wf).batchCoord (ix1 p) 0 = 0 :=
  GatherDims.batchCoord_eq_zero _ _ _ List.not_mem_nil

/-- The one operand axis is collapsed: its offset coordinate is `0`. -/
theorem offCoord_take1 : (takeDims1 N n wf).offCoord (ix1 p) 0 = 0 :=
  GatherDims.offCoord_eq_zero _ _ _ (fun h => ((GatherDims.mem_sKept _ _).mp h).1 (List.mem_singleton.mpr rfl))

/-- The start index of result `p` sits at `(p, 0)`: its batch coordinate `p` on axis 0, the one component on the index
    vector's axis 1. -/
theorem siIdx_take1 (c : Fin (takeDims1 N n wf).startIndexMap.length) :
    (takeDims1 N n wf).siIdx (ix1 p) c = ix2 p 0 := by
  funext e
  refine Fin.ext ?_
  have hc : c.val = 0 := by have := c.isLt; simpa using this
  match e with
  | ⟨0, _⟩ => rfl
  | ⟨1, _⟩ => exact hc

/-- The slice starts at the start index read signed, clamped so that the slice of one entry fits. -/
theorem start_take1 :
    (takeDims1 N n wf).start (ix1 p) idx 0 = min (idx (ix2 p 0)).toInt.toNat (N - 1) := by
  unfold GatherDims.start
  rw [dif_pos (show (0 : Fin 1) ∈ (takeDims1 N n wf).startIndexMap from List.mem_singleton.mpr rfl), siIdx_take1]
  rfl

end Take1

/-- THE RANK-1 GATHER READ AT `p`: the array at the selected entry. -/
theorem gather_take1_apply {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (p : Fin n) :
    Host.gather (takeDims1 N n wf) x idx (ix1 p)
      = x (ix1 ⟨min (idx (ix2 p 0)).toInt.toNat (N - 1), by omega⟩) := by
  unfold Host.gather
  congr 1
  funext e
  refine Fin.ext ?_
  -- the one coordinate of the operand index is the clamped start plus the batching plus the offset coordinate
  match e with
  | ⟨0, _⟩ =>
    show (takeDims1 N n wf).start (ix1 p) idx 0 + (takeDims1 N n wf).batchCoord (ix1 p) 0
      + (takeDims1 N n wf).offCoord (ix1 p) 0 = min (idx (ix2 p 0)).toInt.toNat (N - 1)
    rw [batchCoord_take1, offCoord_take1, start_take1, Nat.add_zero]

end Cert.Lib.GatherAxes

end
-- ==== Proof.SpecG.lean ====
/-
  The function both programs compute, as one term of the argument arrays.

  Write `x : [4, 2048, 11008]` for the activations, `W : [4096, 11008]` and `b : [4096]` for the layer, `ain : [5504]`
  for the list of kept input columns and `aout : [2048]` for the list of kept output rows. An entry of `aout` names the
  output column `wrap 4096 a` (a negative entry counts from the end); `ain` is read through `col`, the entry clamped
  into the columns. The result at `(t, s, d)` is
      b d + sum over the list positions i of x (t, s, col i) * W (d, col i)    if some entry of aout names d,
      0                                                                        otherwise.
  Whether an output column is named twice does not matter: the value depends on the column only.
-/
import Idealize.ShloMosaic.PureOps.Ideal.Laws
import Idealize.ShloMosaic.Lib.ValueIdx
import proofs.«413134_j85873576116768_3_alg».proof.Proof.LibTake

noncomputable section

namespace Cert.Spec

open Idealize.ShloMosaic Idealize.ShloMosaic.ValueIdx

/-- The column the `i`-th entry of the input list selects: the entry read signed and clamped into `[0, 11007]`. -/
def col (ain : IVec ⟨1, ![5504]⟩ 32) (i : Fin 5504) : Fin 11008 :=
  ⟨min (ain (ix1 i)).toInt.toNat (11008 - 1), by omega⟩

/-- Some entry of the output list names column `d`. -/
def named (aout : IVec ⟨1, ![2048]⟩ 32) (d : Fin 4096) : Prop :=
  ∃ o : Fin 2048, (Cert.Lib.Take.wrap 4096#32 (aout (ix1 o))).toInt = (d.val : Int)

open Classical in
/-- The pruned linear layer, scattered into the zero array. -/
def G (x : (⟨3, ![4, 2048, 11008]⟩ : Shape).Idx → EReal) (W : (⟨2, ![4096, 11008]⟩ : Shape).Idx → EReal)
    (b : (⟨1, ![4096]⟩ : Shape).Idx → EReal) (ain : IVec ⟨1, ![5504]⟩ 32) (aout : IVec ⟨1, ![2048]⟩ 32) :
    (⟨3, ![4, 2048, 4096]⟩ : Shape).Idx → EReal := fun j =>
  if named aout (j 2) then
    (∑ i : Fin 5504, x (ix3 (j 0) (j 1) (col ain i)) * W (ix2 (j 2) (col ain i))) + b (ix1 (j 2))
  else 0

theorem G_of_named (x W b ain aout) (t : Fin 4) (s : Fin 2048) (d : Fin 4096) (h : named aout d) :
    G x W b ain aout (ix3 t s d) = (∑ i : Fin 5504, x (ix3 t s (col ain i)) * W (ix2 d (col ain i))) + b (ix1 d) := by
  unfold G; exact if_pos h

theorem G_of_not_named (x W b ain aout) (t : Fin 4) (s : Fin 2048) (d : Fin 4096) (h : ¬named aout d) :
    G x W b ain aout (ix3 t s d) = 0 := by
  unfold G; exact if_neg h

end Cert.Spec

end
-- ==== Proof.KernelTail.lean ====
/-
  The operations after the matrix kernel, as one function of the kernel's output and the output list, and that
  function read at an entry.

  The kernel leaves `y : [8192, 2048]`, one row per (batch, position) pair and one column per place in the output list
  `aout : [2048]`. The remaining operations spread these columns over the 4096 output columns:
  * `y` is read as `[4, 2048, 2048]`;
  * the list entries are wrapped (a negative entry counts from the end of the 4096 columns), and the places
    `0, 1, …, 2047` are written, at the wrapped entries, into a vector of 4096 entries all −1: entry `d` of the result
    is a place whose wrapped entry is `d`, or −1 when there is none;
  * the mask is "that entry is ≥ 0", and the position is the entry under the mask, 0 elsewhere;
  * the array is looked up along its last axis at the positions, with the lookup's own wrap, range guard and fill;
  * the result is the lookup under the mask and 0 elsewhere.

  `tail_eq`: the operations, run from any buffer contents, leave that function of two of the buffers in the result
  buffer (for any float instance). `tail_apply`: on the extended reals the function at `(t, s, d)` is 0 when no list
  entry names column `d`, and otherwise `y (2048 t + s, p)` for a place `p` whose entry names `d`: the place is then
  a number in `[0, 2047]`, which the mask keeps, the lookup's wrap leaves alone, its guard admits and its clamp fixes.
-/
import proofs.«413134_j85873576116768_3_alg».proof.Proof.Gen.KernelIdeal.Launch
import Idealize.ShloMosaic.Lib.StableHlo.Run
import Idealize.ShloMosaic.Lib.Pipeline.Value
import proofs.«413134_j85873576116768_3_alg».proof.Proof.LibTake
import proofs.«413134_j85873576116768_3_alg».proof.Proof.LibScatterSet
import proofs.«413134_j85873576116768_3_alg».proof.Proof.LibGatherAxes
import proofs.«413134_j85873576116768_3_alg».proof.Proof.SpecG

noncomputable section

namespace Cert.KernelIdeal.Tail

open Idealize.ShloMosaic Idealize.ShloMosaic.TcCoe Idealize.ShloMosaic.ValueIdx
open Cert.KernelIdeal.Gen
open Cert.Lib

variable {F : FTy → Type} [FloatOps F]

/-! ## The stages -/

/-- The output list with each negative entry counted from the end of the 4096 columns. -/
def aoutN (aout : IVec S2048 32) : IVec S2048 32 :=
  select (cmpi .slt aout (broadcastInDim S2048 ![] bcast_S_S2048 (constantI S_ 32 0#32)))
    (addi aout (broadcastInDim S2048 ![] bcast_S_S2048 (constantI S_ 32 4096#32))) aout

/-- The place of each output column in the list: the places `0 … 2047` written at the wrapped entries into the vector
    of 4096 entries all −1. -/
def posFull (aout : IVec S2048 32) : IVec S4096 32 :=
  Host.scatter scatter_S4096_S2048x1_S2048_n_0_0_1 (fun _ b => b)
    (broadcastInDim S4096 ![] bcast_S_S4096 (constantI S_ 32 4294967295#32))
    (broadcastInDim S2048x1 ![0] bcast_S2048_S2048x1_0 (aoutN aout))
    (iotaInDim S2048 32 0)

/-- The output columns some list entry names: the place is not negative. -/
def mask (aout : IVec S2048 32) : IVec S4096 1 :=
  cmpi .sge (posFull aout) (broadcastInDim S4096 ![] bcast_S_S4096 (constantI S_ 32 0#32))

/-- The place under the mask, 0 elsewhere. -/
def pos (aout : IVec S2048 32) : IVec S4096 32 :=
  select (mask aout) (posFull aout) (broadcastInDim S4096 ![] bcast_S_S4096 (constantI S_ 32 0#32))

/-- The lookup's own wrap of the positions: a negative one counted from the end of the 2048 places. -/
def posW (aout : IVec S2048 32) : IVec S4096 32 :=
  select (cmpi .slt (pos aout) (broadcastInDim S4096 ![] bcast_S_S4096 (constantI S_ 32 0#32)))
    (addi (pos aout) (broadcastInDim S4096 ![] bcast_S_S4096 (constantI S_ 32 2048#32))) (pos aout)

/-- The wrapped positions as a column. -/
def posCol (aout : IVec S2048 32) : IVec S4096x1 32 :=
  broadcastInDim S4096x1 ![0] bcast_S4096_S4096x1_0 (posW aout)

/-- The lookup's range guard: the wrapped position lies in `[0, 2047]`. -/
def guard (aout : IVec S2048 32) : IVec S4096 1 :=
  Host.reduce IntOp.andi
    (andi (cmpi .sge (posCol aout) (broadcastInDim S4096x1 ![] bcast_S_S4096x1 (constantI S_ 32 0#32)))
      (cmpi .sle (posCol aout) (broadcastInDim S4096x1 ![0, 1] bcast_S1x1_S4096x1_0_1
        (broadcastInDim S1x1 ![1] bcast_S1_S1x1_1 (constantI S1 32 2047#32)))))
    (constantI S_ 1 1#1) reducesTo_S4096x1_S4096_d1 h_S_

/-- The kernel's output read as `[4, 2048, 2048]` and looked up along its last axis at the wrapped positions. -/
def gathered (y : FVec F S8192x2048 .f32) (aout : IVec S2048 32) : FVec F S4x2048x4096 .f32 :=
  Host.gather gather_S4x2048x2048_S4096x1_S4x2048x4096_01_2_n_n_2_1_420481
    (shapeCast S4x2048x2048 y shapeCasts_S8192x2048_S4x2048x2048) (posCol aout)

/-- The lookup with its fill where the guard fails. -/
def taken (y : FVec F S8192x2048 .f32) (aout : IVec S2048 32) : FVec F S4x2048x4096 .f32 :=
  select (broadcastInDim S4x2048x4096 ![2] bcast_S4096_S4x2048x4096_2 (guard aout)) (gathered y aout)
    (broadcastInDim S4x2048x4096 ![] bcast_S_S4x2048x4096 (constant S_ .f32 0x7FC00000#32))

/-- THE TAIL: the lookup under the mask, 0 elsewhere. -/
def tailFn (y : FVec F S8192x2048 .f32) (aout : IVec S2048 32) : FVec F S4x2048x4096 .f32 :=
  select (broadcastInDim S4x2048x4096 ![0, 1, 2] bcast_S1x1x4096_S4x2048x4096_0_1_2
      (broadcastInDim S1x1x4096 ![2] bcast_S4096_S1x1x4096_2 (mask aout)))
    (taken y aout)
    (broadcastInDim S4x2048x4096 ![] bcast_S_S4x2048x4096 (constant S_ .f32 0x00000000#32))

/-! ## The operations compute it -/

/-- The lookup of the second called function, as one function of the array and the positions: the lookup's wrap, the
    column, the range guard, the gather and the fill. -/
def takeFn (y3 : FVec F S4x2048x2048 .f32) (q : IVec S4096 32) : FVec F S4x2048x4096 .f32 :=
  let qW : IVec S4096 32 :=
    select (cmpi .slt q (broadcastInDim S4096 ![] bcast_S_S4096 (constantI S_ 32 0#32)))
      (addi q (broadcastInDim S4096 ![] bcast_S_S4096 (constantI S_ 32 2048#32))) q
  let qC : IVec S4096x1 32 := broadcastInDim S4096x1 ![0] bcast_S4096_S4096x1_0 qW
  select (broadcastInDim S4x2048x4096 ![2] bcast_S4096_S4x2048x4096_2
      (Host.reduce IntOp.andi
        (andi (cmpi .sge qC (broadcastInDim S4096x1 ![] bcast_S_S4096x1 (constantI S_ 32 0#32)))
          (cmpi .sle qC (broadcastInDim S4096x1 ![0, 1] bcast_S1x1_S4096x1_0_1
            (broadcastInDim S1x1 ![1] bcast_S1_S1x1_1 (constantI S1 32 2047#32)))))
        (constantI S_ 1 1#1) reducesTo_S4096x1_S4096_d1 h_S_))
    (Host.gather gather_S4x2048x2048_S4096x1_S4x2048x4096_01_2_n_n_2_1_420481 y3 qC)
    (broadcastInDim S4x2048x4096 ![] bcast_S_S4x2048x4096 (constant S_ .f32 0x7FC00000#32))

section Stages

variable (V : Valuation τ sig (Elt F))

/-- The first stretch: the reading of the kernel's output as three axes, the place vector, the mask and a zero. -/
theorem stretch1_v18 : StableHlo.after (hostOps1 (F := F)) V (Proc.devRef .tc main_v18)
    = shapeCast S4x2048x2048 (V (Proc.devRef .tc main_v17)) shapeCasts_S8192x2048_S4x2048x2048 := by
  simp only [hostOps1]
  after_results_simp
  rfl

theorem stretch1_v27 : StableHlo.after (hostOps1 (F := F)) V (Proc.devRef .tc main_v27)
    = posFull (V (Proc.devRef .tc main_arg4)) := by
  simp only [hostOps1]
  after_results_simp
  rfl

theorem stretch1_v29 : StableHlo.after (hostOps1 (F := F)) V (Proc.devRef .tc main_v29)
    = mask (V (Proc.devRef .tc main_arg4)) := by
  simp only [hostOps1]
  after_results_simp
  rfl

theorem stretch1_c6 : StableHlo.after (hostOps1 (F := F)) V (Proc.devRef .tc main_c_6) = constantI S_ 32 0#32 := by
  simp only [hostOps1]
  after_results_simp

/-- The second stretch: the place under the mask; it leaves the mask and the reading of the kernel's output. -/
theorem stretch2_v30 : StableHlo.after (hostOps1_1 (F := F)) V (Proc.devRef .tc main_v30)
    = select (V (Proc.devRef .tc main_v29)) (V (Proc.devRef .tc main_v27))
        (broadcastInDim S4096 ![] bcast_S_S4096 (V (Proc.devRef .tc main_c_6))) := by
  simp only [hostOps1_1]
  after_results_simp
  rfl

theorem stretch2_v29 : StableHlo.after (hostOps1_1 (F := F)) V (Proc.devRef .tc main_v29) = V (Proc.devRef .tc main_v29) := by
  simp only [hostOps1_1]
  after_results_simp

theorem stretch2_v18 : StableHlo.after (hostOps1_1 (F := F)) V (Proc.devRef .tc main_v18) = V (Proc.devRef .tc main_v18) := by
  simp only [hostOps1_1]
  after_results_simp

/-- The third stretch: the lookup; it leaves the mask. -/
theorem stretch3_v31 : StableHlo.after (hostOps1_2 (F := F)) V (Proc.devRef .tc main_v31)
    = takeFn (V (Proc.devRef .tc main_v18)) (V (Proc.devRef .tc main_v30)) := by
  simp only [hostOps1_2]
  after_results_simp
  rfl

theorem stretch3_v29 : StableHlo.after (hostOps1_2 (F := F)) V (Proc.devRef .tc main_v29) = V (Proc.devRef .tc main_v29) := by
  simp only [hostOps1_2]
  after_results_simp

/-- The fourth stretch: the mask with two unit axes in front, and the zero; it leaves the lookup. -/
theorem stretch4_v32 : StableHlo.after (hostOps1_3 (F := F)) V (Proc.devRef .tc main_v32)
    = broadcastInDim S1x1x4096 ![2] bcast_S4096_S1x1x4096_2 (V (Proc.devRef .tc main_v29)) := by
  simp only [hostOps1_3]
  after_results_simp

theorem stretch4_cst7 : StableHlo.after (hostOps1_3 (F := F)) V (Proc.devRef .tc main_cst_7)
    = constant S_ .f32 0x00000000#32 := by
  simp only [hostOps1_3]
  after_results_simp

theorem stretch4_v31 : StableHlo.after (hostOps1_3 (F := F)) V (Proc.devRef .tc main_v31) = V (Proc.devRef .tc main_v31) := by
  simp only [hostOps1_3]
  after_results_simp

/-- The fifth stretch: the lookup under the mask, the zero elsewhere. -/
theorem stretch5_v33 : StableHlo.after (hostOps1_4 (F := F)) V (Proc.devRef .tc main_v33)
    = select (broadcastInDim S4x2048x4096 ![0, 1, 2] bcast_S1x1x4096_S4x2048x4096_0_1_2 (V (Proc.devRef .tc main_v32)))
        (V (Proc.devRef .tc main_v31))
        (broadcastInDim S4x2048x4096 ![] bcast_S_S4x2048x4096 (V (Proc.devRef .tc main_cst_7))) := by
  simp only [hostOps1_4]
  after_results_simp
  rfl

end Stages

/-- After the operations that follow the kernel, the result buffer holds the tail function of the kernel's output
    buffer and the output list's buffer as they stood before them. -/
theorem tail_eq (Vx : Valuation τ sig (Elt F)) :
    StableHlo.after (List.flatten [hostOps1, hostOps1_1, hostOps1_2, hostOps1_3, hostOps1_4]) Vx (Proc.devRef .tc main_v33)
      = tailFn (Vx (Proc.devRef .tc main_v17)) (Vx (Proc.devRef .tc main_arg4)) := by
  rw [List.flatten_cons, List.flatten_cons, List.flatten_cons, List.flatten_cons, List.flatten_cons, List.flatten_nil,
    List.append_nil, StableHlo.after_append, StableHlo.after_append, StableHlo.after_append, StableHlo.after_append]
  rw [stretch5_v33, stretch4_v32, stretch4_cst7, stretch4_v31, stretch3_v31, stretch3_v29, stretch2_v30, stretch2_v29,
    stretch2_v18, stretch1_v18, stretch1_v27, stretch1_v29, stretch1_c6]
  rfl

/-! ## Broadcasts along the last of three axes, read at an index -/

section Reads

variable {α : Type}

/-- A vector spread along the last of three axes reads, at `(a, b, p)`, its entry `p`. -/
theorem bcast_last_apply {A B n : Nat} (h : (⟨1, ![n]⟩ : Shape).BroadcastsInDim ⟨3, ![A, B, n]⟩ ![2])
    (v : (⟨1, ![n]⟩ : Shape).Idx → α) (a : Fin A) (b : Fin B) (p : Fin n) :
    broadcastInDim ⟨3, ![A, B, n]⟩ ![2] h v (ix3 a b p) = v (ix1 p) := by
  refine broadcastInDim_apply _ h v _ _ fun e => ?_
  match e with
  | ⟨0, _⟩ =>
    show p.val = if n = 1 then 0 else p.val
    have := p.isLt
    split
    · omega
    · rfl

/-- An array with two leading axes of extent one spread over them reads, at `(a, b, p)`, its entry `(0, 0, p)`. -/
theorem bcast_unit2_apply {A B n : Nat} (h : (⟨3, ![1, 1, n]⟩ : Shape).BroadcastsInDim ⟨3, ![A, B, n]⟩ ![0, 1, 2])
    (v : (⟨3, ![1, 1, n]⟩ : Shape).Idx → α) (a : Fin A) (b : Fin B) (p : Fin n) :
    broadcastInDim ⟨3, ![A, B, n]⟩ ![0, 1, 2] h v (ix3 a b p) = v (ix3 0 0 p) := by
  refine broadcastInDim_apply _ h v _ _ fun e => ?_
  match e with
  | ⟨0, _⟩ => rfl
  | ⟨1, _⟩ => rfl
  | ⟨2, _⟩ =>
    show p.val = if n = 1 then 0 else p.val
    have := p.isLt
    split
    · omega
    · rfl

end Reads

/-! ## The tail at an entry, on the extended reals -/

section Apply

variable (y : FVec Ideal S8192x2048 .f32) (aout : IVec S2048 32)

/-- An entry of the wrapped list, kept as a column, is the wrap of the list's entry. -/
theorem aoutCol_apply (p : Fin 2048) :
    broadcastInDim S2048x1 ![0] bcast_S2048_S2048x1_0 (aoutN aout) (ix2 p 0) = Take.wrap 4096#32 (aout (ix1 p)) := by
  rw [Take.col_apply]
  rfl

/-- The place vector at column `d`: −1 when no list entry names `d`, and otherwise a place whose entry names `d`. -/
theorem posFull_cases (d : Fin 4096) :
    (¬Cert.Spec.named aout d ∧ posFull aout (ix1 d) = 4294967295#32)
    ∨ (∃ p : Fin 2048, (Take.wrap 4096#32 (aout (ix1 p))).toInt = (d.val : Int) ∧ posFull aout (ix1 d) = BitVec.ofNat 32 p.val) := by
  rcases ScatterSet.point_scatter_set_cases (N := 4096) (n := 2048) scatter_S4096_S2048x1_S2048_n_0_0_1_wf
      (broadcastInDim S4096 ![] bcast_S_S4096 (constantI S_ 32 4294967295#32))
      (broadcastInDim S2048x1 ![0] bcast_S2048_S2048x1_0 (aoutN aout))
      (iotaInDim S2048 32 0) d with ⟨h1, h2⟩ | ⟨p, h1, h2⟩
  · refine Or.inl ⟨?_, h2⟩
    rintro ⟨o, ho⟩
    exact h1 o ((aoutCol_apply aout o).symm ▸ ho)
  · exact Or.inr ⟨p, (aoutCol_apply aout p) ▸ h1, h2⟩

/-- A place below 2048, as a word, reads back as itself. -/
theorem toInt_place (p : Fin 2048) : (BitVec.ofNat 32 p.val).toInt = (p.val : Int) :=
  Take.toInt_ofNat_lt p.val (by have := p.isLt; omega)

theorem toInt_2047 : (2047#32 : BitVec 32).toInt = 2047 := by decide

/-- The kernel's output read as `[4, 2048, 2048]`: entry `(t, s, p)` is entry `(2048 t + s, p)`. -/
theorem y3_apply (t : Fin 4) (s : Fin 2048) (p : Fin 2048) :
    shapeCast S4x2048x2048 y shapeCasts_S8192x2048_S4x2048x2048 (ix3 t s p) = y (ix2 ⟨2048 * t.val + s.val, by omega⟩ p) := by
  refine shapeCast_apply y _ _ _ ?_
  rw [Shape.rowMajor_val_two, Shape.rowMajor_val_three]
  show (2048 * t.val + s.val) * 2048 + p.val = (t.val * 2048 + s.val) * 2048 + p.val
  omega

/-- The mask spread over the three axes reads the mask at the column. -/
theorem maskB_apply (t : Fin 4) (s : Fin 2048) (d : Fin 4096) :
    broadcastInDim S4x2048x4096 ![0, 1, 2] bcast_S1x1x4096_S4x2048x4096_0_1_2
      (broadcastInDim S1x1x4096 ![2] bcast_S4096_S1x1x4096_2 (mask aout)) (ix3 t s d) = mask aout (ix1 d) := by
  rw [bcast_unit2_apply, bcast_last_apply]

/-- The tail at an entry: the lookup where the mask is on, 0 elsewhere. -/
theorem tailFn_apply (t : Fin 4) (s : Fin 2048) (d : Fin 4096) :
    tailFn y aout (ix3 t s d) = if mask aout (ix1 d) = 1#1 then taken y aout (ix3 t s d) else 0 := by
  unfold tailFn
  rw [Take.select_apply, maskB_apply, Take.bcast_scalar_apply, constant_apply, Ideal.ofBits_zero_f32]

/-- Where the place is −1 the mask is off and the entry is 0. -/
theorem tail_off (t : Fin 4) (s : Fin 2048) (d : Fin 4096) (hpf : posFull aout (ix1 d) = 4294967295#32) :
    tailFn y aout (ix3 t s d) = 0 := by
  have hm : mask aout (ix1 d) ≠ 1#1 := by
    show IntOp.cmpi .sge (posFull aout (ix1 d)) 0#32 ≠ 1#1
    rw [hpf]
    intro h
    have h0 := (Take.sge_zero_iff _).1 h
    rw [Take.toInt_neg_one] at h0
    omega
  rw [tailFn_apply, if_neg hm]

section On

variable (d : Fin 4096) (p : Fin 2048) (hpf : posFull aout (ix1 d) = BitVec.ofNat 32 p.val)
include hpf

/-- Where the place is `p` the mask is on. -/
theorem mask_on : mask aout (ix1 d) = 1#1 := by
  show IntOp.cmpi .sge (posFull aout (ix1 d)) 0#32 = 1#1
  rw [hpf, Take.sge_zero_iff, toInt_place]
  omega

/-- There the wrapped position, in the column, is `p`: the mask keeps it and the lookup's wrap leaves it. -/
theorem posCol_on : posCol aout (ix2 d 0) = BitVec.ofNat 32 p.val := by
  have hpos : pos aout (ix1 d) = BitVec.ofNat 32 p.val := by
    show (if mask aout (ix1 d) = 1#1 then posFull aout (ix1 d) else 0#32) = _
    rw [if_pos (mask_on aout d p hpf), hpf]
  have hposW : posW aout (ix1 d) = BitVec.ofNat 32 p.val := by
    show Take.wrap 2048#32 (pos aout (ix1 d)) = _
    rw [hpos, Take.wrap_of_nonneg _ _ (by rw [toInt_place]; omega)]
  unfold posCol
  rw [Take.col_apply, hposW]

/-- There the lookup's range guard holds. -/
theorem guard_on : guard aout (ix1 d) = 1#1 := by
  have hp := p.isLt
  unfold guard
  rw [Take.guard_apply, posCol_on aout d p hpf, toInt_place, toInt_2047]
  omega

/-- There the lookup reads the kernel's output at place `p`. -/
theorem gathered_on (t : Fin 4) (s : Fin 2048) :
    gathered y aout (ix3 t s d) = y (ix2 ⟨2048 * t.val + s.val, by omega⟩ p) := by
  have hp := p.isLt
  have hq : (⟨min (posCol aout (ix2 d 0)).toInt.toNat (2048 - 1), by omega⟩ : Fin 2048) = p :=
    Fin.ext (by
      show min (posCol aout (ix2 d 0)).toInt.toNat (2048 - 1) = p.val
      rw [posCol_on aout d p hpf, toInt_place, Int.toNat_natCast]
      omega)
  unfold gathered
  exact ((GatherAxes.gather_last3_apply (A := 4) (B := 2048) (C := 2048) (n := 4096) (by omega)
      gather_S4x2048x2048_S4096x1_S4x2048x4096_01_2_n_n_2_1_420481_wf
      (shapeCast S4x2048x2048 y shapeCasts_S8192x2048_S4x2048x2048) (posCol aout) t s d).trans
    (congrArg (fun q => shapeCast S4x2048x2048 y shapeCasts_S8192x2048_S4x2048x2048 (ix3 t s q)) hq)).trans
    (y3_apply y t s p)

/-- Where the place is `p` the entry is the kernel's output at row `2048 t + s` and place `p`. -/
theorem tail_on (t : Fin 4) (s : Fin 2048) :
    tailFn y aout (ix3 t s d) = y (ix2 ⟨2048 * t.val + s.val, by omega⟩ p) := by
  have htaken : taken y aout (ix3 t s d) = gathered y aout (ix3 t s d) := by
    unfold taken
    rw [Take.select_apply, bcast_last_apply, if_pos (guard_on aout d p hpf)]
  rw [tailFn_apply, if_pos (mask_on aout d p hpf), htaken, gathered_on y aout d p hpf]

end On

/-- THE TAIL AT `(t, s, d)`: 0 at a column no list entry names; at a named column, the kernel's output at row
    `2048 t + s` and at a place whose entry names the column. -/
theorem tail_apply (t : Fin 4) (s : Fin 2048) (d : Fin 4096) :
    (¬Cert.Spec.named aout d → tailFn y aout (ix3 t s d) = 0)
    ∧ (Cert.Spec.named aout d → ∃ p : Fin 2048, (Cert.Lib.Take.wrap 4096#32 (aout (ix1 p))).toInt = (d.val : Int)
        ∧ tailFn y aout (ix3 t s d) = y (ix2 ⟨2048 * t.val + s.val, by omega⟩ p)) := by
  rcases posFull_cases aout d with ⟨hn, hpf⟩ | ⟨p, hw, hpf⟩
  · exact ⟨fun _ => tail_off y aout t s d hpf, fun h => absurd h hn⟩
  · exact ⟨fun h => absurd ⟨p, hw⟩ h, fun _ => ⟨p, hw, tail_on y aout d p hpf t s⟩⟩

end Apply

end Cert.KernelIdeal.Tail

end
-- ==== Proof.LibGatherRows.lean ====
/-
  A gather of whole rows, read at an index.

  `x[idx]` of a table `x : [N, C]` at a column of start indices `idx : [R, 1]` lowers to a gather with offset axis `[1]`,
  collapsed axis `[0]`, start index map `[0]`, the index vector on axis 1 and slices `[1, C]`. Its entry `(r, q)` is the
  table's entry `(ρ, q)`, where the row `ρ` is the start index `idx[r, 0]` read as a signed integer and clamped into
  `[0, N − 1]`. A printed gather record with these dimension numbers is `rowDims N C R _` (its remaining field is a proof).
-/
import Idealize.ShloMosaic.PureOps.ShapeOps
import Idealize.ShloMosaic.Lib.ValueIdx

noncomputable section

namespace Idealize.ShloMosaic.GatherRows

open Idealize.ShloMosaic Idealize.ShloMosaic.ValueIdx

variable {α : Type}

/-- The dimension numbers of a gather of rows of an `[N, C]` table at `[R, 1]` start indices. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row the `r`-th start index selects: read signed, clamped into `[0, N − 1]`. -/
def row {N R w : Nat} (hN : 0 < N) (idx : IVec ⟨2, ![R, 1]⟩ w) (r : Fin R) : Fin N :=
  ⟨min (idx (ix2 r 0)).toInt.toNat (N - 1), by omega⟩

section Coordinates

variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (q : Fin C)

/-- There are no batching axes: the batching coordinate vanishes on both operand axes. -/
theorem batchCoord_rows (a : Fin 2) : (rowDims N C R wf).batchCoord (ix2 r q) a = 0 :=
  GatherDims.batchCoord_eq_zero _ _ _ List.not_mem_nil

/-- Operand axis 0 is the collapsed one, so it is not among the kept axes. -/
theorem zero_not_mem_sKept : (0 : Fin 2) ∉ (rowDims N C R wf).sKept := fun h =>
  ((GatherDims.mem_sKept _ _).mp h).1 (List.mem_singleton.mpr rfl)

/-- Operand axis 1 is neither collapsed nor batching: it is the one kept axis. -/
theorem one_mem_sKept : (1 : Fin 2) ∈ (rowDims N C R wf).sKept :=
  (GatherDims.mem_sKept _ _).mpr ⟨show (1 : Fin 2) ∉ ([0] : List (Fin 2)) by decide, List.not_mem_nil⟩

/-- On the collapsed axis the offset coordinate is `0`. -/
theorem offCoord_rows_zero : (rowDims N C R wf).offCoord (ix2 r q) 0 = 0 :=
  GatherDims.offCoord_eq_zero _ _ _ (zero_not_mem_sKept wf)

/-- On the kept axis the offset coordinate is the result's column: the kept axis stands first among the kept axes, the
    first offset axis of the result is its axis 1, and `(r, q)` has `q` there. -/
theorem offCoord_rows_one : (rowDims N C R wf).offCoord (ix2 r q) 1 = q.val := by
  unfold GatherDims.offCoord
  rw [dif_pos (one_mem_sKept wf)]
  rfl

/-- Axis 1 is not in the start index map: the slice starts at `0` there. -/
theorem start_rows_one : (rowDims N C R wf).start (ix2 r q) idx 1 = 0 := by
  unfold GatherDims.start
  rw [dif_neg (show (1 : Fin 2) ∉ ([0] : List (Fin 2)) by decide)]

/-- The start index of result `(r, q)` sits at `(r, 0)`: its batch coordinate `r` on axis 0, the one component on the
    index vector's axis 1. -/
theorem siIdx_rows (c : Fin (rowDims N C R wf).startIndexMap.length) :
    (rowDims N C R wf).siIdx (ix2 r q) c = ix2 r 0 := by
  funext b
  refine Fin.ext ?_
  have hc : c.val = 0 := by have := c.isLt; simpa using this
  match b with
  | ⟨0, _⟩ => rfl
  | ⟨1, _⟩ => exact hc

/-- On axis 0 the slice starts at the start index read signed, clamped so that the one-row slice fits. -/
theorem start_rows_zero :
    (rowDims N C R wf).start (ix2 r q) idx 0 = min (idx (ix2 r 0)).toInt.toNat (N - 1) := by
  unfold GatherDims.start
  rw [dif_pos (show (0 : Fin 2) ∈ (rowDims N C R wf).startIndexMap from List.mem_singleton.mpr rfl), siIdx_rows]
  rfl

end Coordinates

/-- THE GATHER READ AT `(r, q)`: the table at the selected row and the same column. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowDims N C R wf) x idx (ix2 r q) = x (ix2 (row hN idx r) q) := by
  unfold Host.gather
  congr 1
  funext a
  refine Fin.ext ?_
  -- a coordinate of the operand index is the clamped start plus the batching plus the offset coordinate
  match a with
  | ⟨0, _⟩ =>
    show (rowDims N C R wf).start (ix2 r q) idx 0 + (rowDims N C R wf).batchCoord (ix2 r q) 0
      + (rowDims N C R wf).offCoord (ix2 r q) 0 = min (idx (ix2 r 0)).toInt.toNat (N - 1)
    rw [batchCoord_rows, offCoord_rows_zero, start_rows_zero, Nat.add_zero]
  | ⟨1, _⟩ =>
    show (rowDims N C R wf).start (ix2 r q) idx 1 + (rowDims N C R wf).batchCoord (ix2 r q) 1
      + (rowDims N C R wf).offCoord (ix2 r q) 1 = q.val
    rw [batchCoord_rows, offCoord_rows_one, start_rows_one, Nat.add_zero, Nat.zero_add]

end Idealize.ShloMosaic.GatherRows

end
-- ==== Proof.KernelEntry.lean ====
/-
  What the three operand arrays of the kernel hold when its region is entered, each read at one entry.

  Before the region the host computes, from the launched arrays x : [4, 2048, 11008], W : [4096, 11008], b : [4096] and
  the two integer lists ain : [5504] (kept input columns) and aout : [2048] (kept output rows):
  * the activations with their two leading axes merged, a : [8192, 11008], a (2048 t + s, j) = x (t, s, j);
  * the bias looked up at the output list, as a one-row rectangle: entry (0, p) is b d when the p-th output entry,
    wrapped by 4096, is the row d;
  * the weight rows looked up at the output list, each multiplied entrywise by the indicator of the input list, a
    vector of 11008 entries that is 1 on the columns the input list names and 0 on every other column:
    entry (p, j) is W (d, j) * mask j.
  A lookup wraps a negative entry by the table's length, guards the wrapped entry to lie in the table (filling with
  not-a-number otherwise) and clamps the start; for an entry whose wrap names a row d of the table the guard holds and
  the clamp changes nothing. The indicator is a set-scatter of ones into zeros at the wrapped input list; under the
  hypothesis that every input entry lies in [0, 11008) the wrap is the entry itself and the column it names is its clamp.

  Each array is first written as one term of the launched arrays (the host operations before the region composed,
  stretch by stretch), then read at an index.
-/
import proofs.«413134_j85873576116768_3_alg».proof.Proof.KernelIdealFrameRuns
import Idealize.ShloMosaic.Lib.StableHlo.Run
import Idealize.ShloMosaic.Lib.Pipeline.Value
import Idealize.ShloMosaic.Lib.StableHlo.Predicate
import Idealize.ShloMosaic.Lib.ValueIdx
import proofs.«413134_j85873576116768_3_alg».proof.Proof.LibTake
import proofs.«413134_j85873576116768_3_alg».proof.Proof.LibGatherRows
import proofs.«413134_j85873576116768_3_alg».proof.Proof.LibGatherAxes
import proofs.«413134_j85873576116768_3_alg».proof.Proof.LibScatterSet
import proofs.«413134_j85873576116768_3_alg».proof.Proof.SpecG

set_option maxRecDepth 16384

noncomputable section

namespace Cert.KernelIdeal.Entry

open Idealize.ShloMosaic Idealize.ShloMosaic.TcCoe Idealize.ShloMosaic.ValueIdx
open Idealize.SL.Sem
open Cert.KernelIdeal Cert.KernelIdeal.Gen
open Cert.Lib.Take (wrap)

/-! ## Reads of recasts and broadcasts, at any extent -/

/-- A rank-3 array recast to rank 2 by merging its two leading axes, read at an index. -/
theorem reshape_merge_apply {α : Type} {A B C N : Nat} (h : (⟨3, ![A, B, C]⟩ : Shape).ShapeCasts ⟨2, ![N, C]⟩)
    (x : (⟨3, ![A, B, C]⟩ : Shape).Idx → α) (t : Fin A) (s : Fin B) (j : Fin C) (r : Fin N) (hr : r.val = B * t.val + s.val) :
    shapeCast ⟨2, ![N, C]⟩ x h (ix2 r j) = x (ix3 t s j) := by
  apply shapeCast_apply
  rw [Shape.rowMajor_val_three, Shape.rowMajor_val_two]
  show (t.val * B + s.val) * C + j.val = r.val * C + j.val
  rw [hr, Nat.mul_comm B t.val]

/-- A vector recast as a one-row rectangle, read at an index. -/
theorem reshape_row_apply {α : Type} {n : Nat} (h : (⟨1, ![n]⟩ : Shape).ShapeCasts ⟨2, ![1, n]⟩)
    (v : (⟨1, ![n]⟩ : Shape).Idx → α) (p : Fin n) :
    shapeCast ⟨2, ![1, n]⟩ v h (ix2 0 p) = v (ix1 p) := by
  apply shapeCast_apply
  rw [Shape.rowMajor_val_one, Shape.rowMajor_val_two]
  show p.val = 0 * n + p.val
  omega

/-- The rank-2 index (p, q), in either spelling. -/
theorem ij_eq_ix2 {n k : Nat} (p : Fin n) (q : Fin k) : StableHlo.Predicate.ij p q = ix2 p q := by
  funext a
  match a with
  | ⟨0, _⟩ => rfl
  | ⟨1, _⟩ => rfl

/-- A vector laid along the second axis of a rectangle (constant down each column) reads, at (p, q), the vector at q. -/
theorem bcast_down_apply {α : Type} {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) := by
  rw [← ij_eq_ix2, StableHlo.Predicate.bcast_cols, Cert.Lib.Take.ofFin_eq_ix1]

/-- A vector laid along the first axis of a rectangle (constant along each row) reads, at (p, q), the vector at p. -/
theorem bcast_across_apply {α : Type} {n k : Nat} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- The pattern of 1.0 denotes the extended real 1. -/
theorem ofBits_one : Ideal.ofBits .f32 0x3F800000#32 = 1 := by
  simp [Ideal.ofBits, Ideal.ieee, -EReal.coe_mul]; norm_num

/-! ## The stages, as functions of the launched arrays -/

/-- The output list normalised: each entry wrapped by 4096, kept as a column. -/
def idxCol (a : IVec S2048 32) : IVec S2048x1 32 :=
  broadcastInDim S2048x1 ![0] bcast_S2048_S2048x1_0
    (select (cmpi .slt a (broadcastInDim S2048 ![] bcast_S_S2048 (constantI S_ 32 0#32)))
      (addi a (broadcastInDim S2048 ![] bcast_S_S2048 (constantI S_ 32 4096#32))) a)

/-- The guard of the lookup: entry p is one when the normalised entry lies in [0, 4095]. -/
def guard (a : IVec S2048 32) : IVec S2048 1 :=
  Host.reduce IntOp.andi
    (andi (cmpi .sge (idxCol a) (broadcastInDim S2048x1 ![] bcast_S_S2048x1 (constantI S_ 32 0#32)))
      (cmpi .sle (idxCol a) (broadcastInDim S2048x1 ![0, 1] bcast_S1x1_S2048x1_0_1
        (broadcastInDim S1x1 ![1] bcast_S1_S1x1_1 (constantI S1 32 4095#32)))))
    (constantI S_ 1 1#1) reducesTo_S2048x1_S2048_d1 h_S_

/-- The bias looked up at the normalised output list, not-a-number where the guard fails. -/
def biasTake {F : FTy → Type} [FloatOps F] (b : FVec F S4096 .f32) (a : IVec S2048 32) : FVec F S2048 .f32 :=
  select (guard a) (Host.gather gather_S4096_S2048x1_S2048_n_0_n_n_0_1_1 b (idxCol a))
    (broadcastInDim S2048 ![] bcast_S_S2048 (constant S_ .f32 0x7FC00000#32))

/-- The weight rows looked up at the normalised output list, not-a-number where the guard fails. -/
def wRows {F : FTy → Type} [FloatOps F] (W : FVec F S4096x11008 .f32) (a : IVec S2048 32) : FVec F S2048x11008 .f32 :=
  select (broadcastInDim S2048x11008 ![0] bcast_S2048_S2048x11008_0 (guard a))
    (Host.gather gather_S4096x11008_S2048x1_S2048x11008_1_0_n_n_0_1_111008 W (idxCol a))
    (broadcastInDim S2048x11008 ![] bcast_S_S2048x11008 (constant S_ .f32 0x7FC00000#32))

/-- The input list normalised: each entry wrapped by 11008, kept as a column. -/
def inCol (ai : IVec S5504 32) : IVec S5504x1 32 :=
  broadcastInDim S5504x1 ![0] bcast_S5504_S5504x1_0
    (select (cmpi .slt ai (broadcastInDim S5504 ![] bcast_S_S5504 (constantI S_ 32 0#32)))
      (addi ai (broadcastInDim S5504 ![] bcast_S_S5504 (constantI S_ 32 11008#32))) ai)

/-- The indicator of the input list: ones set into zeros at the normalised entries. -/
def maskIn {F : FTy → Type} [FloatOps F] (ai : IVec S5504 32) : FVec F S11008 .f32 :=
  Host.scatter scatter_S11008_S5504x1_S5504_n_0_0_1 (fun _ b => b)
    (broadcastInDim S11008 ![] bcast_S_S11008 (constant S_ .f32 0x00000000#32)) (inCol ai)
    (broadcastInDim S5504 ![] bcast_S_S5504 (constant S_ .f32 0x3F800000#32))

/-- Rows multiplied entrywise by the indicator, in the narrower format. -/
def pruned {F : FTy → Type} [FloatOps F] (wr : FVec F S2048x11008 .f32) (ai : IVec S5504 32) : FVec F S2048x11008 .bf16 :=
  truncf .bf16 (mulf wr (broadcastInDim S2048x11008 ![0, 1] bcast_S1x11008_S2048x11008_0_1
    (broadcastInDim S1x11008 ![1] bcast_S11008_S1x11008_1 (maskIn ai)))) bitsLt_bf16_f32

/-! ## The host operations before the region, stretch by stretch -/

section Stages

variable {F : FTy → Type} [FloatOps F] (V : Valuation τ sig (Elt F))

theorem A_v0 : (StableHlo.after (hostOps0 (F := F)) V (Proc.devRef .tc main_v0) : S2048x11008.Idx → F .f32)
    = wRows (V (Proc.devRef .tc main_arg1)) (V (Proc.devRef .tc main_arg4)) := by
  simp only [hostOps0]
  after_results_simp
  rfl
theorem A_keeps_arg0 : StableHlo.after (hostOps0 (F := F)) V (Proc.devRef .tc main_arg0) = V (Proc.devRef .tc main_arg0) := by
  simp only [hostOps0]
  after_results_simp
theorem A_keeps_arg2 : StableHlo.after (hostOps0 (F := F)) V (Proc.devRef .tc main_arg2) = V (Proc.devRef .tc main_arg2) := by
  simp only [hostOps0]
  after_results_simp
theorem A_keeps_arg3 : StableHlo.after (hostOps0 (F := F)) V (Proc.devRef .tc main_arg3) = V (Proc.devRef .tc main_arg3) := by
  simp only [hostOps0]
  after_results_simp
theorem A_keeps_arg4 : StableHlo.after (hostOps0 (F := F)) V (Proc.devRef .tc main_arg4) = V (Proc.devRef .tc main_arg4) := by
  simp only [hostOps0]
  after_results_simp

theorem B_v13 : (StableHlo.after (hostOps0_1 (F := F)) V (Proc.devRef .tc main_v13) : S2048x11008.Idx → F .bf16)
    = pruned (V (Proc.devRef .tc main_v0)) (V (Proc.devRef .tc main_arg3)) := by
  simp only [hostOps0_1]
  after_results_simp
  rfl
theorem B_keeps_arg0 : StableHlo.after (hostOps0_1 (F := F)) V (Proc.devRef .tc main_arg0) = V (Proc.devRef .tc main_arg0) := by
  simp only [hostOps0_1]
  after_results_simp
theorem B_keeps_arg2 : StableHlo.after (hostOps0_1 (F := F)) V (Proc.devRef .tc main_arg2) = V (Proc.devRef .tc main_arg2) := by
  simp only [hostOps0_1]
  after_results_simp
theorem B_keeps_arg4 : StableHlo.after (hostOps0_1 (F := F)) V (Proc.devRef .tc main_arg4) = V (Proc.devRef .tc main_arg4) := by
  simp only [hostOps0_1]
  after_results_simp

theorem C_v14 : (StableHlo.after (hostOps0_2 (F := F)) V (Proc.devRef .tc main_v14) : S2048.Idx → F .f32)
    = biasTake (V (Proc.devRef .tc main_arg2)) (V (Proc.devRef .tc main_arg4)) := by
  simp only [hostOps0_2]
  after_results_simp
  rfl
theorem C_keeps_arg0 : StableHlo.after (hostOps0_2 (F := F)) V (Proc.devRef .tc main_arg0) = V (Proc.devRef .tc main_arg0) := by
  simp only [hostOps0_2]
  after_results_simp
theorem C_keeps_v13 : StableHlo.after (hostOps0_2 (F := F)) V (Proc.devRef .tc main_v13) = V (Proc.devRef .tc main_v13) := by
  simp only [hostOps0_2]
  after_results_simp

theorem D_v15 : (StableHlo.after (hostOps0_3 (F := F)) V (Proc.devRef .tc main_v15) : S1x2048.Idx → F .f32)
    = shapeCast S1x2048 (V (Proc.devRef .tc main_v14) : S2048.Idx → F .f32) shapeCasts_S2048_S1x2048 := by
  simp only [hostOps0_3]
  after_results_simp
  rfl
theorem D_v16 : (StableHlo.after (hostOps0_3 (F := F)) V (Proc.devRef .tc main_v16) : S8192x11008.Idx → F .f32)
    = shapeCast S8192x11008 (V (Proc.devRef .tc main_arg0) : S4x2048x11008.Idx → F .f32) shapeCasts_S4x2048x11008_S8192x11008 := by
  simp only [hostOps0_3]
  after_results_simp
  rfl
theorem D_keeps_v13 : StableHlo.after (hostOps0_3 (F := F)) V (Proc.devRef .tc main_v13) = V (Proc.devRef .tc main_v13) := by
  simp only [hostOps0_3]
  after_results_simp

end Stages

/-! ## The stages read at an index -/

theorem idxCol_apply (a : IVec S2048 32) (p : Fin 2048) : idxCol a (ix2 p 0) = wrap 4096#32 (a (ix1 p)) := by
  unfold idxCol
  rw [Cert.Lib.Take.col_apply]
  exact Cert.Lib.Take.wrap_vec_apply _ _ _ _

theorem inCol_apply (ai : IVec S5504 32) (i : Fin 5504) : inCol ai (ix2 i 0) = wrap 11008#32 (ai (ix1 i)) := by
  unfold inCol
  rw [Cert.Lib.Take.col_apply]
  exact Cert.Lib.Take.wrap_vec_apply _ _ _ _

/-- The guard holds at an entry whose wrap names a row of the table. -/
theorem guard_of_wrap (a : IVec S2048 32) (p : Fin 2048) (d : Fin 4096)
    (hp : (wrap 4096#32 (a (ix1 p))).toInt = (d.val : Int)) : guard a (ix1 p) = 1#1 := by
  unfold guard
  rw [Cert.Lib.Take.guard_apply, idxCol_apply, hp]
  have hd := d.isLt
  have h4 : (4095#32 : BitVec 32).toInt = 4095 := by decide
  rw [h4]
  omega

/-- The clamp of the normalised entry is the row it names. -/
theorem clamp_idxCol (a : IVec S2048 32) (p : Fin 2048) (d : Fin 4096)
    (hp : (wrap 4096#32 (a (ix1 p))).toInt = (d.val : Int)) :
    min (idxCol a (ix2 p 0)).toInt.toNat (4096 - 1) = d.val := by
  rw [idxCol_apply, hp]
  have hd := d.isLt
  omega

theorem biasTake_apply {F : FTy → Type} [FloatOps F] (b : FVec F S4096 .f32) (a : IVec S2048 32) (p : Fin 2048) (d : Fin 4096)
    (hp : (wrap 4096#32 (a (ix1 p))).toInt = (d.val : Int)) : biasTake b a (ix1 p) = b (ix1 d) := by
  unfold biasTake
  rw [Cert.Lib.Take.select_apply, if_pos (guard_of_wrap a p d hp)]
  show Host.gather (Cert.Lib.GatherAxes.takeDims1 4096 2048 gather_S4096_S2048x1_S2048_n_0_n_n_0_1_1_wf) b (idxCol a) (ix1 p) = _
  rw [Cert.Lib.GatherAxes.gather_take1_apply (by norm_num)]
  exact congrArg b (congrArg ix1 (Fin.ext (clamp_idxCol a p d hp)))

theorem wRows_apply {F : FTy → Type} [FloatOps F] (W : FVec F S4096x11008 .f32) (a : IVec S2048 32) (p : Fin 2048) (d : Fin 4096)
    (j : Fin 11008) (hp : (wrap 4096#32 (a (ix1 p))).toInt = (d.val : Int)) : wRows W a (ix2 p j) = W (ix2 d j) := by
  unfold wRows
  rw [Cert.Lib.Take.select_apply, bcast_across_apply, if_pos (guard_of_wrap a p d hp)]
  show Host.gather (GatherRows.rowDims 4096 11008 2048 gather_S4096x11008_S2048x1_S2048x11008_1_0_n_n_0_1_111008_wf) W (idxCol a) (ix2 p j) = _
  rw [GatherRows.gather_rows_apply (by norm_num)]
  exact congrArg W (congrArg (fun r => ix2 r j) (Fin.ext (clamp_idxCol a p d hp)))

/-- The zero vector the indicator starts from reads 0 everywhere. -/
theorem zeros_apply (i : S11008.Idx) :
    broadcastInDim S11008 ![] bcast_S_S11008 (constant (F := Ideal) S_ .f32 0x00000000#32) i = (0 : EReal) :=
  Ideal.ofBits_zero_f32

/-- The vector of ones set into it reads 1 everywhere. -/
theorem ones_apply (i : S5504.Idx) :
    broadcastInDim S5504 ![] bcast_S_S5504 (constant (F := Ideal) S_ .f32 0x3F800000#32) i = (1 : EReal) :=
  ofBits_one

/-- The indicator is a point set-scatter: scalar updates written into a vector at a column of indices. -/
theorem maskIn_eq (ai : IVec S5504 32) : maskIn (F := Ideal) ai
    = Host.scatter (Cert.Lib.ScatterSet.pointDims 11008 5504 scatter_S11008_S5504x1_S5504_n_0_0_1_wf) (fun _ b => b)
        (broadcastInDim S11008 ![] bcast_S_S11008 (constant (F := Ideal) S_ .f32 0x00000000#32)) (inCol ai)
        (broadcastInDim S5504 ![] bcast_S_S5504 (constant (F := Ideal) S_ .f32 0x3F800000#32)) := rfl

/-- The indicator at column k: zero when no normalised entry is k, one when some is. -/
theorem maskIn_cases (ai : IVec S5504 32) (k : Fin 11008) :
    ((∀ i : Fin 5504, (wrap 11008#32 (ai (ix1 i))).toInt ≠ (k.val : Int)) ∧ maskIn (F := Ideal) ai (ix1 k) = 0)
    ∨ (∃ i : Fin 5504, (wrap 11008#32 (ai (ix1 i))).toInt = (k.val : Int) ∧ maskIn (F := Ideal) ai (ix1 k) = 1) := by
  rw [maskIn_eq]
  rcases Cert.Lib.ScatterSet.point_scatter_set_cases scatter_S11008_S5504x1_S5504_n_0_0_1_wf
      (broadcastInDim S11008 ![] bcast_S_S11008 (constant (F := Ideal) S_ .f32 0x00000000#32)) (inCol ai)
      (broadcastInDim S5504 ![] bcast_S_S5504 (constant (F := Ideal) S_ .f32 0x3F800000#32)) k with ⟨h1, h2⟩ | ⟨p, h1, h2⟩
  · refine Or.inl ⟨fun i => ?_, ?_⟩
    · have h := h1 i
      rw [inCol_apply] at h
      exact h
    · rw [h2]
      exact zeros_apply _
  · refine Or.inr ⟨p, ?_, ?_⟩
    · rw [inCol_apply] at h1
      exact h1
    · rw [h2]
      exact ones_apply _

theorem pruned_apply (wr : FVec Ideal S2048x11008 .f32) (ai : IVec S5504 32) (p : Fin 2048) (j : Fin 11008) :
    pruned wr ai (ix2 p j) = wr (ix2 p j) * maskIn (F := Ideal) ai (ix1 j) := by
  show wr (ix2 p j) * broadcastInDim S2048x11008 ![0, 1] bcast_S1x11008_S2048x11008_0_1
      (broadcastInDim S1x11008 ![1] bcast_S11008_S1x11008_1 (maskIn (F := Ideal) ai)) (ix2 p j) = _
  rw [bcast_down_apply]

/-! ## The operand arrays at the region's entry -/

variable (m : (ℓ : Loc nD τ sig) → Buf (Elt Ideal) ℓ)

/-- The activations as launched. -/
abbrev X (c : Dev nD) : FVec Ideal S4x2048x11008 .f32 := m ((c : Thread nD τ).loc main_arg0)
/-- The weights as launched. -/
abbrev Wt (c : Dev nD) : FVec Ideal S4096x11008 .f32 := m ((c : Thread nD τ).loc main_arg1)
/-- The bias as launched. -/
abbrev bb (c : Dev nD) : FVec Ideal S4096 .f32 := m ((c : Thread nD τ).loc main_arg2)
/-- The list of kept input columns as launched. -/
abbrev ain (c : Dev nD) : IVec S5504 32 := m ((c : Thread nD τ).loc main_arg3)
/-- The list of kept output rows as launched. -/
abbrev aout (c : Dev nD) : IVec S2048 32 := m ((c : Thread nD τ).loc main_arg4)

/-- The host operations before the region, one stretch after the other. -/
theorem V0_split (c : Dev nD) :
    V0 m c = StableHlo.after hostOps0_3 (StableHlo.after hostOps0_2 (StableHlo.after hostOps0_1
      (StableHlo.after hostOps0 (fun b => m (c, b))))) := by
  show StableHlo.after (List.flatten [hostOps0, hostOps0_1, hostOps0_2, hostOps0_3]) _ = _
  rw [List.flatten_cons, List.flatten_cons, List.flatten_cons, List.flatten_cons, List.flatten_nil, List.append_nil,
    StableHlo.after_append, StableHlo.after_append, StableHlo.after_append]

/-- The activations' operand: the launched array with its two leading axes merged. -/
theorem v16_eq (c : Dev nD) :
    (V m c main_v16 : S8192x11008.Idx → EReal) = shapeCast S8192x11008 (X m c) shapeCasts_S4x2048x11008_S8192x11008 := by
  show V0 m c (Proc.devRef .tc main_v16) = _
  rw [V0_split, D_v16, C_keeps_arg0, B_keeps_arg0, A_keeps_arg0]

/-- The bias operand: the looked-up bias as a one-row rectangle. -/
theorem v15_eq (c : Dev nD) :
    (V m c main_v15 : S1x2048.Idx → EReal) = shapeCast S1x2048 (biasTake (bb m c) (aout m c)) shapeCasts_S2048_S1x2048 := by
  show V0 m c (Proc.devRef .tc main_v15) = _
  rw [V0_split, D_v15, C_v14, B_keeps_arg2, B_keeps_arg4, A_keeps_arg2, A_keeps_arg4]

/-- The weights' operand: the looked-up rows times the indicator of the input list. -/
theorem v13_eq (c : Dev nD) :
    (V m c main_v13 : S2048x11008.Idx → EReal) = pruned (wRows (Wt m c) (aout m c)) (ain m c) := by
  show V0 m c (Proc.devRef .tc main_v13) = _
  rw [V0_split, D_keeps_v13, C_keeps_v13, B_v13, A_v0, A_keeps_arg3]

/-- (E1) The activations' operand at row 2048 t + s is the launched array at (t, s). -/
theorem a_apply (c : Dev nD) (t : Fin 4) (s : Fin 2048) (j : Fin 11008) :
    V m c main_v16 (ix2 ⟨2048 * t.val + s.val, by omega⟩ j) = X m c (ix3 t s j) :=
  (congrFun (v16_eq m c) _).trans (reshape_merge_apply _ _ t s j _ rfl)

/-- (E2) The bias operand at (0, p) is the bias at the row the p-th output entry names. -/
theorem bias_apply (c : Dev nD) (p : Fin 2048) (d : Fin 4096)
    (hp : (wrap 4096#32 (aout m c (ix1 p))).toInt = (d.val : Int)) :
    V m c main_v15 (ix2 0 p) = bb m c (ix1 d) := by
  refine (congrFun (v15_eq m c) _).trans ?_
  rw [reshape_row_apply]
  exact biasTake_apply (bb m c) (aout m c) p d hp

/-- (E3) The weights' operand at (p, j) is the weight row the p-th output entry names, at column j, times an indicator
    of the input list: one on the columns the list names, zero on every other column. -/
theorem wp_apply (c : Dev nD)
    (hin : ∀ i : Fin 5504, 0 ≤ (ain m c (ix1 i)).toInt ∧ (ain m c (ix1 i)).toInt < 11008) :
    ∃ mask : Fin 11008 → EReal, (∀ i : Fin 5504, mask (Cert.Spec.col (ain m c) i) = 1)
      ∧ (∀ k : Fin 11008, (∀ i : Fin 5504, Cert.Spec.col (ain m c) i ≠ k) → mask k = 0)
      ∧ ∀ (p : Fin 2048) (d : Fin 4096) (j : Fin 11008), (wrap 4096#32 (aout m c (ix1 p))).toInt = (d.val : Int) →
          V m c main_v13 (ix2 p j) = Wt m c (ix2 d j) * mask j := by
  -- under the range hypothesis the wrap of an input entry is the entry, and the column it names is its clamp
  have hcol : ∀ i : Fin 5504,
      (wrap 11008#32 (ain m c (ix1 i))).toInt = ((Cert.Spec.col (ain m c) i).val : Int) := fun i => by
    obtain ⟨h0, h1⟩ := hin i
    rw [Cert.Lib.Take.wrap_of_nonneg _ _ h0]
    show (ain m c (ix1 i)).toInt = ((min (ain m c (ix1 i)).toInt.toNat (11008 - 1) : Nat) : Int)
    omega
  refine ⟨fun k => maskIn (F := Ideal) (ain m c) (ix1 k), fun i => ?_, fun k hk => ?_, fun p d j hp => ?_⟩
  · rcases maskIn_cases (ain m c) (Cert.Spec.col (ain m c) i) with ⟨h1, -⟩ | ⟨-, -, h2⟩
    · exact absurd (hcol i) (h1 i)
    · exact h2
  · rcases maskIn_cases (ain m c) k with ⟨-, h2⟩ | ⟨i, h1, -⟩
    · exact h2
    · refine absurd (Fin.ext ?_) (hk i)
      have h := hcol i
      omega
  · refine (congrFun (v13_eq m c) _).trans ?_
    rw [pruned_apply, wRows_apply _ _ p d j hp]

end Cert.KernelIdeal.Entry

end
-- ==== Proof.Assemble.lean ====
/-
  The kernel's side of the claim, as arithmetic on arrays: no program appears here.

  Write X : [4, 2048, 11008], Wt : [4096, 11008], bb : [4096] for the layer's arrays and ain : [5504], aout : [2048] for
  the two position lists; W4 a is the entry a of aout wrapped (a negative entry counts from the end), col i the entry i of
  ain read signed and clamped into the columns. The kernel's arrays are Aa : [8192, 11008], the activations with their
  two leading axes merged (row 2048 t + s is (t, s)); Wp : [2048, 11008], row p the weight row that position p of aout
  names with every column outside the input list zeroed by a 0/1 mask; Bs : [1, 2048], entry p the bias that position p
  names; y : [8192, 2048] = Bs + Aa · Wpᵀ contracted over ALL 11008 columns; and out : [4, 2048, 4096], zero at an
  unnamed output column d and y at (2048 t + s, p) for some position p naming d.

  * col_injective: with the entries of ain in [0, 11008) and pairwise distinct, col has no repeats — in range the clamp
    is the identity, so equal columns are equal signed readings, hence equal words.
  * assemble: out is the specification's array. At a named d the entry is bb d + ∑ over all columns j of
    X (t, s, j) * (Wt (d, j) * mask j); the mask is 1 on the listed columns and 0 elsewhere and col has no repeats, so
    the sum is the one over the list positions; the specification writes the sum first and the bias second.
-/
import proofs.«413134_j85873576116768_3_alg».proof.Proof.Spec
import proofs.«413134_j85873576116768_3_alg».proof.Proof.SpecG

noncomputable section

namespace Cert.Assemble

open Idealize.ShloMosaic Idealize.ShloMosaic.ValueIdx
open Cert.Lib

/-- The selected columns have no repeats, when the input list's entries lie in `[0, 11008)` and are pairwise distinct. -/
theorem col_injective (ain : IVec ⟨1, ![5504]⟩ 32)
    (hin : ∀ i : Fin 5504, 0 ≤ (ain (ix1 i)).toInt ∧ (ain (ix1 i)).toInt < 11008)
    (hinj : ∀ i j : Fin 5504, ain (ix1 i) = ain (ix1 j) → i = j) : Function.Injective (Cert.Spec.col ain) := by
  intro i j h
  apply hinj
  apply BitVec.eq_of_toInt_eq
  have hv : (Cert.Spec.col ain i).val = (Cert.Spec.col ain j).val := congrArg Fin.val h
  -- in range the clamp is the identity
  have hi : (Cert.Spec.col ain i).val = (ain (ix1 i)).toInt.toNat :=
    Take.clamp_of_range _ 11008 (hin i).1 (by have := (hin i).2; omega)
  have hj : (Cert.Spec.col ain j).val = (ain (ix1 j)).toInt.toNat :=
    Take.clamp_of_range _ 11008 (hin j).1 (by have := (hin j).2; omega)
  have ei : ((ain (ix1 i)).toInt.toNat : Int) = (ain (ix1 i)).toInt := Int.toNat_of_nonneg (hin i).1
  have ej : ((ain (ix1 j)).toInt.toNat : Int) = (ain (ix1 j)).toInt := Int.toNat_of_nonneg (hin j).1
  omega

/-- THE KERNEL'S ARRAYS ASSEMBLE TO THE SPECIFICATION. -/
theorem assemble
    (X : (⟨3, ![4, 2048, 11008]⟩ : Shape).Idx → EReal) (Wt : (⟨2, ![4096, 11008]⟩ : Shape).Idx → EReal)
    (bb : (⟨1, ![4096]⟩ : Shape).Idx → EReal)
    (ain : IVec ⟨1, ![5504]⟩ 32) (aout : IVec ⟨1, ![2048]⟩ 32)
    (Aa : (⟨2, ![8192, 11008]⟩ : Shape).Idx → EReal) (Wp : (⟨2, ![2048, 11008]⟩ : Shape).Idx → EReal)
    (Bs : (⟨2, ![1, 2048]⟩ : Shape).Idx → EReal)
    (y : (⟨2, ![8192, 2048]⟩ : Shape).Idx → EReal) (out : (⟨3, ![4, 2048, 4096]⟩ : Shape).Idx → EReal)
    (hy : ∀ (r : Fin 8192) (p : Fin 2048), y (ix2 r p) = Bs (ix2 0 p) + ∑ j : Fin 11008, Aa (ix2 r j) * Wp (ix2 p j))
    (hA : ∀ (t : Fin 4) (s : Fin 2048) (j : Fin 11008), Aa (ix2 ⟨2048 * t.val + s.val, by omega⟩ j) = X (ix3 t s j))
    (hB : ∀ (p : Fin 2048) (d : Fin 4096), (Cert.Lib.Take.wrap 4096#32 (aout (ix1 p))).toInt = (d.val : Int) →
      Bs (ix2 0 p) = bb (ix1 d))
    (hW : ∃ mask : Fin 11008 → EReal, (∀ i : Fin 5504, mask (Cert.Spec.col ain i) = 1) ∧
      (∀ k : Fin 11008, (∀ i : Fin 5504, Cert.Spec.col ain i ≠ k) → mask k = 0)
        ∧ ∀ (p : Fin 2048) (d : Fin 4096) (j : Fin 11008),
          (Cert.Lib.Take.wrap 4096#32 (aout (ix1 p))).toInt = (d.val : Int) → Wp (ix2 p j) = Wt (ix2 d j) * mask j)
    (hT : ∀ (t : Fin 4) (s : Fin 2048) (d : Fin 4096), (¬Cert.Spec.named aout d → out (ix3 t s d) = 0)
      ∧ (Cert.Spec.named aout d → ∃ p : Fin 2048, (Cert.Lib.Take.wrap 4096#32 (aout (ix1 p))).toInt = (d.val : Int) ∧
          out (ix3 t s d) = y (ix2 ⟨2048 * t.val + s.val, by omega⟩ p)))
    (hin : ∀ i : Fin 5504, 0 ≤ (ain (ix1 i)).toInt ∧ (ain (ix1 i)).toInt < 11008)
    (hinj : ∀ i j : Fin 5504, ain (ix1 i) = ain (ix1 j) → i = j) :
    out = Cert.Spec.G X Wt bb ain aout := by
  obtain ⟨mask, hm1, hm0, hWp⟩ := hW
  funext j
  obtain ⟨t, s, d, rfl⟩ : ∃ (t : Fin 4) (s : Fin 2048) (d : Fin 4096), j = ix3 t s d := ⟨j 0, j 1, j 2, eq_ix3 j⟩
  by_cases hn : Cert.Spec.named aout d
  · -- a position `p` names `d`: the entry is the bias at `d` plus the masked contraction over all columns
    obtain ⟨p, hp, ho⟩ := (hT t s d).2 hn
    rw [ho, Cert.Spec.G_of_named _ _ _ _ _ t s d hn, hy, hB p d hp, add_comm (bb (ix1 d))]
    -- the masked contraction over all columns is the contraction over the list
    refine congrArg (fun z : EReal => z + bb (ix1 d)) ?_
    exact (Finset.sum_congr rfl fun k _ => by rw [hA t s k, hWp p d k hp]).trans
      (Cert.Spec.masked_dot (Cert.Spec.col ain) (col_injective ain hin hinj) (fun k => X (ix3 t s k))
        (fun k => Wt (ix2 d k)) mask hm1 hm0)
  · -- no position names `d`: both are zero
    rw [(hT t s d).1 hn, Cert.Spec.G_of_not_named _ _ _ _ _ t s d hn]

end Cert.Assemble

end
-- ==== Proof.PreFacts.lean ====
/-
  The printed precondition, read back at one element. The precondition function is the conjunction, as one-bit words,
  of: every entry of the three real-valued inputs is finite; every entry a of the 32-bit integer table alive_in
  (5504 entries) satisfies 0 ≤ a and a < 11008, both signed; and for every pair of positions (p, q) of that table
  either the entries at p and q differ or p = q. When the function is the all-ones word, the second conjunct says each
  entry, read as a signed integer, lies in [0, 11008), and the third says the table is injective: two positions holding
  the same word are the same position. Each universally quantified conjunct is an and-reduction over all axes of a
  one-bit array, so that it is one exactly when every entry of the array is one; the entry is then read through the
  broadcasts, the position counter and the comparisons at a symbolic position.
-/
import proofs.«413134_j85873576116768_3_alg».proof.Pre_finite_inputs
import proofs.«413134_j85873576116768_3_alg».proof.Proof.Gen.Pre_finite_inputs
import Idealize.ShloMosaic.Lib.StableHlo.Predicate
import Idealize.ShloMosaic.Lib.ReduceAll
import Idealize.ShloMosaic.Lib.ValueIdx

noncomputable section

namespace Cert.PreFacts

open Idealize.ShloMosaic
open Cert.Pre_finite_inputs Cert.Pre_finite_inputs.Gen

/-- The scalar shape has one index. -/
instance subsingleton_scalar_idx : Subsingleton S_.Idx := ⟨fun a b => funext fun d => d.elim0⟩

/-- The rank-1 index at coordinate p, in either spelling. -/
theorem ofFin_eq_ix1 {n : Nat} (p : Fin n) : Shape.Idx.ofFin p = ValueIdx.ix1 p := by
  funext a
  match a with
  | ⟨0, _⟩ => rfl

/-- Two position counters below 2³² that agree as 32-bit words agree. -/
theorem fin_eq_of_ofNat_eq {n : Nat} (hn : n ≤ 2 ^ 32) (p q : Fin n)
    (e : BitVec.ofNat 32 p.val = BitVec.ofNat 32 q.val) : p = q := by
  have e' := congrArg BitVec.toNat e
  simp only [BitVec.toNat_ofNat] at e'
  have hp := p.isLt
  have hq := q.isLt
  rw [Nat.mod_eq_of_lt (by omega), Nat.mod_eq_of_lt (by omega)] at e'
  exact Fin.ext e'

/-- THE PRECONDITION DECODED: every entry of alive_in, read as a signed integer, lies in [0, 11008), and the entries
    are pairwise distinct. -/
theorem alive_in_facts {F : FTy → Type} [FloatOps F] (x : FVec F Cert.Pre_finite_inputs.S4x2048x11008 .f32)
    (W : FVec F Cert.Pre_finite_inputs.S4096x11008 .f32) (b : FVec F Cert.Pre_finite_inputs.S4096 .f32)
    (ain : IVec Cert.Pre_finite_inputs.S5504 32) (aout : IVec Cert.Pre_finite_inputs.S2048 32)
    (h : Cert.Pre_finite_inputs.fn (F := F) x W b ain aout = (fun _ => 1#1)) :
    (∀ i : Fin 5504, 0 ≤ (ain (ValueIdx.ix1 i)).toInt ∧ (ain (ValueIdx.ix1 i)).toInt < 11008)
    ∧ (∀ i j : Fin 5504, ain (ValueIdx.ix1 i) = ain (ValueIdx.ix1 j) → i = j) := by
  have e := congrFun h ValueIdx.ix0
  dsimp only [Cert.Pre_finite_inputs.fn, Cert.Pre_finite_inputs.fn_part1] at e
  -- the conjunction: (finiteness ∧ range) ∧ distinctness
  obtain ⟨e20, e34⟩ := IntOp.andi_eq_one.1 e
  obtain ⟨-, e19⟩ := IntOp.andi_eq_one.1 e20
  constructor
  · intro i
    -- the range conjunct at position i: (0 ≤ a) ∧ (a < 11008), signed
    obtain ⟨hge, hlt⟩ := IntOp.andi_eq_one.1 (Host.reduce_andi_all _ _ _ _ _ e19 (ValueIdx.ix1 i))
    have hge' := IntOp.cmpi_sge.1 hge
    have hlt' := IntOp.cmpi_slt.1 hlt
    rw [StableHlo.Predicate.bcast_scalar _ Facts.h_S_] at hge' hlt'
    have z0 : (0#32 : BitVec 32).toInt = 0 := by decide
    have z1 : (11008#32 : BitVec 32).toInt = 11008 := by decide
    exact ⟨z0 ▸ hge', z1 ▸ hlt'⟩
  · intro i j hij
    -- the distinctness conjunct at the pair (i, j): the entries differ, or the positions agree
    have e33 := Host.reduce_andi_all _ _ _ _ _ e34 (StableHlo.Predicate.ij i j)
    rcases IntOp.ori_eq_one.1 e33 with hne | heq
    · have hne' := IntOp.cmpi_ne.1 hne
      rw [StableHlo.Predicate.bcast_rows, StableHlo.Predicate.bcast_cols, ofFin_eq_ix1, ofFin_eq_ix1] at hne'
      exact absurd hij hne'
    · have heq' := IntOp.cmpi_eq.1 heq
      rw [StableHlo.Predicate.bcast_rows, StableHlo.Predicate.bcast_cols, StableHlo.Predicate.iota_apply,
        StableHlo.Predicate.iota_apply] at heq'
      exact fin_eq_of_ofNat_eq (by norm_num) i j heq'

end Cert.PreFacts

end
-- ==== Proof.KernelValue.lean ====
/-
  The kernel program's result, at the exact instance, is the specification's function of the arguments.

  The run's post names the result buffer as the host tail applied to the arrays the region leaves. The tail selects, for
  an output column named by the output list, one of the positions that name it and reads the product's column there;
  the product's column at a position naming column d is the bias at d plus the contraction of the activations' row with
  row d of the weights masked to the listed input columns; and the masked contraction is the contraction over the list,
  because the list has no repeats. A column no position names is zero on both sides.
-/
import proofs.«413134_j85873576116768_3_alg».proof.Defs
import proofs.«413134_j85873576116768_3_alg».proof.Proof.KernelAcc
import proofs.«413134_j85873576116768_3_alg».proof.Proof.KernelTail
import proofs.«413134_j85873576116768_3_alg».proof.Proof.KernelEntry
import proofs.«413134_j85873576116768_3_alg».proof.Proof.Assemble
import proofs.«413134_j85873576116768_3_alg».proof.Proof.PreFacts

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Value

open Cert.KernelIdeal Cert.KernelIdeal.Gen

variable (m : (ℓ : Loc nD τ sig) → Buf (Elt Ideal) ℓ) (ρ : Dev nD → PrngReg)

/-- The function of the arguments the result buffer ends at. -/
abbrev result (c : Dev nD) : Buf (Elt Ideal) ((c : Thread nD τ).loc main_v33) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4))

/-- The host tail over the region's arrays is the specification, when the input list is in range and has no repeats. -/
theorem tail_result (c : Dev nD)
    (hin : ∀ i : Fin 5504, 0 ≤ ((m ((c : Thread nD τ).loc main_arg3) : IVec S5504 32) (ix1 i)).toInt
      ∧ ((m ((c : Thread nD τ).loc main_arg3) : IVec S5504 32) (ix1 i)).toInt < 11008)
    (hinj : ∀ i j : Fin 5504, (m ((c : Thread nD τ).loc main_arg3) : IVec S5504 32) (ix1 i)
      = (m ((c : Thread nD τ).loc main_arg3) : IVec S5504 32) (ix1 j) → i = j) :
    Pipeline.afterTail₀ cfgs (dats m) 0 (V0 m) [hostOps1, hostOps1_1, hostOps1_2, hostOps1_3, hostOps1_4] c main_v33
      = result m c := by
  unfold Pipeline.afterTail₀
  rw [Cert.KernelIdeal.Tail.tail_eq]
  have e17 : Pipeline.withArrays (cfgs 0).spec c (V0 m c) (fun w => (dats m 0 c).arrAt w (cfgs 0).N) (Proc.devRef .tc main_v17)
      = Acc.Gy m c :=
    (Pipeline.withArrays_arr spec0 launch0.win.arr_inj c _ _ 3).trans (Acc.final_y m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  rw [e17, e4]
  exact Cert.Assemble.assemble _ _ _ _ _ (Acc.Aarr m c) (Acc.Warr m c) (Acc.Barr m c) (Acc.Gy m c) _
    (fun r p => rfl) (Cert.KernelIdeal.Entry.a_apply m c) (Cert.KernelIdeal.Entry.bias_apply m c)
    (Cert.KernelIdeal.Entry.wp_apply m c hin) (fun t s d => Cert.KernelIdeal.Tail.tail_apply _ _ t s d) hin hinj

/-- The run, read: the result buffer at the specification, the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hf := fun c => Cert.PreFacts.alive_in_facts _ _ _ _ _ (hpre c)
  refine (θ_run defs _ _).mono (fun r h c => ⟨?_, ?_, ?_, ?_, ?_, ?_⟩) (run_main m ρ)
  · exact ((h c).2 main_v33 (Pipeline.mem_restRefs_of main_v33 (by decide) (by decide))).trans
      (tail_result m c (hf c).1 (hf c).2)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)
  · exact ((h c).2 main_arg4 (Pipeline.mem_restRefs_of main_arg4 (by decide) (by decide))).trans (W_main_arg4 m (dats m) c)

end Cert.KernelIdeal.Value

end
-- ==== Proof.RefSide.lean ====
/-
  The reference's side of the claim: the reference program's result is the pruned linear layer scattered into zero.

  Write x : [4, 2048, 11008], W : [4096, 11008], b : [4096] for the arrays and ain : [5504], aout : [2048] for the two
  position lists. The reference wraps every entry of a list (a negative entry counts from the end), keeps the wrapped list
  as a column, and then
    * takes the rows of W at the wrapped entries of aout, and of those the columns at the wrapped entries of ain;
    * takes the columns of x at the wrapped entries of ain;
    * contracts the two selections over the list positions of ain and adds b taken at the wrapped entries of aout: an
      array u : [4, 2048, 2048], its entry (t, s, p) belonging to position p of aout;
    * writes u, along the last axis, into the zero array [4, 2048, 4096] at the wrapped entries of aout.
  Every lookup clamps its start into the axis; the final write does not, and drops what falls outside.

  Read at one entry (t, s, d) of the result. If no wrapped entry of aout is d, no update lands there and the entry is the
  zero it started as. Otherwise the entry is u (t, s, p) for ONE position p whose wrapped entry is d; that entry lies
  in [0, 4096), so the lookups' clamp leaves it alone and the row of W and the entry of b are those at d; the entries of
  ain lie in [0, 11008) by hypothesis, so their wrap leaves them alone and the column is the clamped entry. Either way the
  entry is the specification's, which does not depend on p.
-/
import proofs.«413134_j85873576116768_3_alg».proof.Proof.Gen.ReferenceIdeal.Run
import proofs.«413134_j85873576116768_3_alg».proof.Proof.Gen.ReferenceIdeal.Read
import proofs.«413134_j85873576116768_3_alg».proof.Proof.SpecG
import proofs.«413134_j85873576116768_3_alg».proof.Proof.LibScatterSet
import proofs.«413134_j85873576116768_3_alg».proof.Proof.LibGatherRows
import proofs.«413134_j85873576116768_3_alg».proof.Proof.LibGatherAxes
import proofs.«413134_j85873576116768_3_alg».proof.Proof.LibContract

noncomputable section

namespace Cert.RefSide

open Idealize.ShloMosaic Idealize.ShloMosaic.ValueIdx
open Cert.ReferenceIdeal Cert.ReferenceIdeal.Gen Cert.ReferenceIdeal.Read
open Cert.Lib

/-! ## The index columns: a wrapped list kept as a column, read at `(p, 0)` -/

/-- The column the final write reads its positions from: at `(p, 0)`, the wrapped `p`-th entry of the output list. -/
theorem v38_col (x4 : (⟨S2048, .i32⟩ : BufTy).Contents (Elt Ideal)) (p : Fin 2048) :
    val_main_v38 (F := Ideal) x4 (ix2 p 0) = Take.wrap 4096#32 (x4 (ix1 p)) :=
  (Take.col_apply bcast_S2048_S2048x1_0 (val_main_v37 (F := Ideal) x4) p).trans
    (Take.wrap_vec_apply bcast_S_S2048 4096#32 x4 p)

/-- The column the row lookup of `W` reads: the same wrapped entry. -/
theorem v5_col (x4 : (⟨S2048, .i32⟩ : BufTy).Contents (Elt Ideal)) (p : Fin 2048) :
    val_main_v5 (F := Ideal) x4 (ix2 p 0) = Take.wrap 4096#32 (x4 (ix1 p)) :=
  (Take.col_apply bcast_S2048_S2048x1_0 (val_main_v4 (F := Ideal) x4) p).trans
    (Take.wrap_vec_apply bcast_S_S2048 4096#32 x4 p)

/-- The column the lookup of `b` reads: the same wrapped entry. -/
theorem v26_col (x4 : (⟨S2048, .i32⟩ : BufTy).Contents (Elt Ideal)) (p : Fin 2048) :
    val_main_v26 (F := Ideal) x4 (ix2 p 0) = Take.wrap 4096#32 (x4 (ix1 p)) :=
  (Take.col_apply bcast_S2048_S2048x1_0 (val_main_v25 (F := Ideal) x4) p).trans
    (Take.wrap_vec_apply bcast_S_S2048 4096#32 x4 p)

/-- The column the column lookup of `W`'s rows reads: at `(i, 0)`, the wrapped `i`-th entry of the input list. -/
theorem v12_col (x3 : (⟨S5504, .i32⟩ : BufTy).Contents (Elt Ideal)) (i : Fin 5504) :
    val_main_v12 (F := Ideal) x3 (ix2 i 0) = Take.wrap 11008#32 (x3 (ix1 i)) :=
  (Take.col_apply bcast_S5504_S5504x1_0 (val_main_v11 (F := Ideal) x3) i).trans
    (Take.wrap_vec_apply bcast_S_S5504 11008#32 x3 i)

/-- The column the column lookup of `x` reads: the same wrapped entry. -/
theorem v19_col (x3 : (⟨S5504, .i32⟩ : BufTy).Contents (Elt Ideal)) (i : Fin 5504) :
    val_main_v19 (F := Ideal) x3 (ix2 i 0) = Take.wrap 11008#32 (x3 (ix1 i)) :=
  (Take.col_apply bcast_S5504_S5504x1_0 (val_main_v18 (F := Ideal) x3) i).trans
    (Take.wrap_vec_apply bcast_S_S5504 11008#32 x3 i)

/-- A word that is `d` as a signed integer, `d` below `N`, clamps into `[0, N − 1]` to `d`. -/
theorem clamp_eq_of_toInt {N : Nat} (a : BitVec 32) (d : Fin N) (h : a.toInt = (d.val : Int)) :
    min a.toInt.toNat (N - 1) = d.val := by
  have h0 : 0 ≤ a.toInt := by omega
  have e : (a.toInt.toNat : Int) = a.toInt := Int.toNat_of_nonneg h0
  have hd := d.isLt
  omega

/-! ## The lookups, read at an index -/

section Lookups

variable (x0 : (⟨S4x2048x11008, .f32⟩ : BufTy).Contents (Elt Ideal)) (x1 : (⟨S4096x11008, .f32⟩ : BufTy).Contents (Elt Ideal))
  (x2 : (⟨S4096, .f32⟩ : BufTy).Contents (Elt Ideal)) (x3 : (⟨S5504, .i32⟩ : BufTy).Contents (Elt Ideal))
  (x4 : (⟨S2048, .i32⟩ : BufTy).Contents (Elt Ideal))

/-- The rows of `W` at the output list: where the wrapped `p`-th entry is `d`, row `p` of the selection is row `d`. -/
theorem v6_apply (p : Fin 2048) (c : Fin 11008) (d : Fin 4096)
    (hw : (Take.wrap 4096#32 (x4 (ix1 p))).toInt = (d.val : Int)) :
    val_main_v6 (F := Ideal) x1 x4 (ix2 p c) = x1 (ix2 d c) := by
  have e := GatherRows.gather_rows_apply (N := 4096) (C := 11008) (R := 2048) (by omega)
    gather_S4096x11008_S2048x1_S2048x11008_1_0_n_n_0_1_111008_wf x1 (val_main_v5 (F := Ideal) x4) p c
  refine e.trans (congrArg (fun r : Fin 4096 => x1 (ix2 r c)) (Fin.ext ?_))
  show min (val_main_v5 (F := Ideal) x4 (ix2 p 0)).toInt.toNat (4096 - 1) = d.val
  rw [v5_col]
  exact clamp_eq_of_toInt _ d hw

/-- Of those rows, the columns at the input list: entry `(p, k)` is `W` at row `d` and the `k`-th selected column. -/
theorem v13_apply (hin : ∀ i : Fin 5504, 0 ≤ (x3 (ix1 i)).toInt ∧ (x3 (ix1 i)).toInt < 11008)
    (p : Fin 2048) (k : Fin 5504) (d : Fin 4096) (hw : (Take.wrap 4096#32 (x4 (ix1 p))).toInt = (d.val : Int)) :
    val_main_v13 (F := Ideal) x1 x3 x4 (ix2 p k) = x1 (ix2 d (Spec.col x3 k)) := by
  have e := GatherAxes.gather_cols_apply (R := 2048) (C := 11008) (n := 5504) (by omega)
    gather_S2048x11008_S5504x1_S2048x5504_0_1_n_n_1_1_20481_wf (val_main_v6 (F := Ideal) x1 x4)
    (val_main_v12 (F := Ideal) x3) p k
  refine e.trans ((v6_apply x1 x4 p _ d hw).trans (congrArg (fun c : Fin 11008 => x1 (ix2 d c)) (Fin.ext ?_)))
  show min (val_main_v12 (F := Ideal) x3 (ix2 k 0)).toInt.toNat (11008 - 1) = min (x3 (ix1 k)).toInt.toNat (11008 - 1)
  rw [v12_col, Take.wrap_of_nonneg _ _ (hin k).1]

/-- The columns of `x` at the input list: entry `(t, s, k)` is `x` at `(t, s)` and the `k`-th selected column. -/
theorem v20_apply (hin : ∀ i : Fin 5504, 0 ≤ (x3 (ix1 i)).toInt ∧ (x3 (ix1 i)).toInt < 11008)
    (t : Fin 4) (s : Fin 2048) (k : Fin 5504) :
    val_main_v20 (F := Ideal) x0 x3 (ix3 t s k) = x0 (ix3 t s (Spec.col x3 k)) := by
  have e := GatherAxes.gather_last3_apply (A := 4) (B := 2048) (C := 11008) (n := 5504) (by omega)
    gather_S4x2048x11008_S5504x1_S4x2048x5504_01_2_n_n_2_1_420481_wf x0 (val_main_v19 (F := Ideal) x3) t s k
  refine e.trans (congrArg (fun c : Fin 11008 => x0 (ix3 t s c)) (Fin.ext ?_))
  show min (val_main_v19 (F := Ideal) x3 (ix2 k 0)).toInt.toNat (11008 - 1) = min (x3 (ix1 k)).toInt.toNat (11008 - 1)
  rw [v19_col, Take.wrap_of_nonneg _ _ (hin k).1]

/-- The entries of `b` at the output list: where the wrapped `p`-th entry is `d`, entry `p` of the selection is `b d`. -/
theorem v27_apply (p : Fin 2048) (d : Fin 4096) (hw : (Take.wrap 4096#32 (x4 (ix1 p))).toInt = (d.val : Int)) :
    val_main_v27 (F := Ideal) x2 x4 (ix1 p) = x2 (ix1 d) := by
  have e := GatherAxes.gather_take1_apply (N := 4096) (n := 2048) (by omega)
    gather_S4096_S2048x1_S2048_n_0_n_n_0_1_1_wf x2 (val_main_v26 (F := Ideal) x4) p
  refine e.trans (congrArg (fun r : Fin 4096 => x2 (ix1 r)) (Fin.ext ?_))
  show min (val_main_v26 (F := Ideal) x4 (ix2 p 0)).toInt.toNat (4096 - 1) = d.val
  rw [v26_col]
  exact clamp_eq_of_toInt _ d hw

/-- That selection spread over the two leading axes: entry `(t, s, p)` is `b d`. -/
theorem v30_apply (t : Fin 4) (s : Fin 2048) (p : Fin 2048) (d : Fin 4096)
    (hw : (Take.wrap 4096#32 (x4 (ix1 p))).toInt = (d.val : Int)) :
    val_main_v30 (F := Ideal) x2 x4 (ix3 t s p) = x2 (ix1 d) := by
  rw [val_main_v30_apply, val_main_v29_apply]
  have hi : idx_main_v29 (idx_main_v30 (ix3 t s p)) = ix1 p := by
    funext a
    match a with
    | ⟨0, _⟩ => rfl
  rw [hi]
  exact v27_apply x2 x4 p d hw

/-- The contraction at `(t, s, p)`: the sum over the input list's positions of the two column selections. -/
theorem v28_apply (t : Fin 4) (s : Fin 2048) (p : Fin 2048) :
    val_main_v28 (F := Ideal) x0 x1 x3 x4 (ix3 t s p)
      = ∑ k : Fin 5504, val_main_v20 (F := Ideal) x0 x3 (ix3 t s k) * val_main_v13 (F := Ideal) x1 x3 x4 (ix2 p k) :=
  Contract.dotGeneral_3x2_apply (A := 4) (B := 2048) (K := 5504) (N := 2048) (φ₁ := .f32) (φ₂ := .f32)
    dot_S4x2048x5504_S2048x5504_S4x2048x2048_2_1_01_0_n_n_wf (val_main_v20 (F := Ideal) x0 x3)
    (val_main_v13 (F := Ideal) x1 x3 x4) t s p

end Lookups

/-! ## The result -/

/-- THE REFERENCE'S RESULT is the specification's array, when every entry of the input list lies in `[0, 11008)`. -/
theorem ref_result (x0 : (⟨S4x2048x11008, .f32⟩ : BufTy).Contents (Elt Ideal))
    (x1 : (⟨S4096x11008, .f32⟩ : BufTy).Contents (Elt Ideal)) (x2 : (⟨S4096, .f32⟩ : BufTy).Contents (Elt Ideal))
    (x3 : (⟨S5504, .i32⟩ : BufTy).Contents (Elt Ideal)) (x4 : (⟨S2048, .i32⟩ : BufTy).Contents (Elt Ideal))
    (hin : ∀ i : Fin 5504, 0 ≤ (x3 (ix1 i)).toInt ∧ (x3 (ix1 i)).toInt < 11008) :
    Cert.ReferenceIdeal.Read.val_main_v39 (F := Ideal) x0 x1 x2 x3 x4 = Cert.Spec.G x0 x1 x2 x3 x4 := by
  funext j
  obtain ⟨t, s, d, rfl⟩ : ∃ (t : Fin 4) (s : Fin 2048) (d : Fin 4096), j = ix3 t s d := ⟨j 0, j 1, j 2, eq_ix3 j⟩
  rcases ScatterSet.last3_scatter_set_cases (A := 4) (B := 2048) (N := 4096) (n := 2048)
      scatter_S4x2048x4096_S2048x1_S4x2048x2048_01_2_2_1_wf (val_main_v32 (F := Ideal)) (val_main_v38 (F := Ideal) x4)
      (val_main_v31 (F := Ideal) x0 x1 x2 x3 x4) t s d with ⟨h1, h2⟩ | ⟨p, h1, h2⟩
  · -- no wrapped entry of the output list is `d`: the entry is the zero it started as, and `d` is not named
    have hnn : ¬Spec.named x4 d := fun ⟨o, ho⟩ => h1 o (by rw [v38_col]; exact ho)
    have h2' : val_main_v39 (F := Ideal) x0 x1 x2 x3 x4 (ix3 t s d) = val_main_v32 (F := Ideal) (ix3 t s d) := h2
    rw [h2', Spec.G_of_not_named _ _ _ _ _ t s d hnn, val_main_v32_apply, val_main_cst_apply, Ideal.ofBits_def,
      Ideal.ofBits_zero_f32]
  · -- the wrapped `p`-th entry is `d`: the entry is the update at `(t, s, p)`, and `d` is named
    rw [v38_col] at h1
    have h2' : val_main_v39 (F := Ideal) x0 x1 x2 x3 x4 (ix3 t s d)
        = val_main_v31 (F := Ideal) x0 x1 x2 x3 x4 (ix3 t s p) := h2
    have hs : (∑ k : Fin 5504, val_main_v20 (F := Ideal) x0 x3 (ix3 t s k) * val_main_v13 (F := Ideal) x1 x3 x4 (ix2 p k))
        = ∑ i : Fin 5504, x0 (ix3 t s (Spec.col x3 i)) * x1 (ix2 d (Spec.col x3 i)) :=
      Finset.sum_congr rfl fun k _ => by rw [v20_apply x0 x3 hin, v13_apply x1 x3 x4 hin p k d h1]
    rw [h2', Spec.G_of_named _ _ _ _ _ t s d ⟨p, h1⟩, val_main_v31_apply, Ideal.addf_def, v28_apply,
      v30_apply x2 x4 t s p d h1, hs]

end Cert.RefSide

end
-- ==== Proof.lean ====
/-
  The certificate of the pruned linear layer: the kernel against its reference, over the extended reals.

  The statement carries two added conjuncts on the list of kept input columns: its entries lie in range and are pairwise
  distinct. Under them both programs compute one function of the arguments (SpecG.lean): for an output column that some
  entry of the output list names, the bias at that column plus the contraction of the activations with that row of the
  weights over the listed input columns; zero for every other output column.
  * The reference gathers the listed columns and rows, contracts over the list, adds the gathered bias and scatters the
    result columns into a zero array (RefSide.lean, over the reference's run read one operation at a time).
  * The kernel multiplies the gathered weight rows by the indicator of the listed columns, contracts over ALL columns
    block by block on a 4 x 43 grid, starting each row block from the bias (KernelAcc.lean: the running sum by induction
    on the grid point), and then selects each named output column by an inverse index table (KernelTail.lean); the
    masked contraction is the contraction over the list because the list has no repeats (Spec.lean, Assemble.lean).
  The three frames: the two kernels' are the frame certificates of the programs; the reference's is its run with the
  result dropped. The idealization rewrote nothing, so it is preserved trivially.
-/
import proofs.«413134_j85873576116768_3_alg».proof.Defs
import proofs.«413134_j85873576116768_3_alg».proof.Proof.Gen.Kernel
import proofs.«413134_j85873576116768_3_alg».proof.Proof.Gen.KernelIdeal
import proofs.«413134_j85873576116768_3_alg».proof.Proof.Gen.ReferenceIdeal
import proofs.«413134_j85873576116768_3_alg».proof.Proof.Gen.Pre_finite_inputs
import proofs.«413134_j85873576116768_3_alg».proof.Proof.KernelFrame
import proofs.«413134_j85873576116768_3_alg».proof.Proof.KernelIdealFrame
import proofs.«413134_j85873576116768_3_alg».proof.Proof.Gen.ReferenceIdeal.Run
import proofs.«413134_j85873576116768_3_alg».proof.Proof.Gen.ReferenceIdeal.Read
import proofs.«413134_j85873576116768_3_alg».proof.Proof.KernelValue
import proofs.«413134_j85873576116768_3_alg».proof.Proof.RefSide
import proofs.«413134_j85873576116768_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the specification's function of the arguments, which agree. -/
theorem algebraic : Cert.algebraic_KernelIdeal_ReferenceIdeal := by
  intro m ρ m' ρ' hpre hagree
  refine ⟨fun c => Cert.KernelIdeal.Value.result m c, Cert.KernelIdeal.Value.run m ρ hpre, ?_⟩
  refine (θ_run Cert.ReferenceIdeal.defs _ _).mono (fun _ h c => ⟨(h c).1.trans ?_, (h c).2⟩)
    (Cert.ReferenceIdeal.Value.run (F := Ideal) m' ρ')
  have hin := (Cert.PreFacts.alive_in_facts _ _ _ _ _ (hpre c)).1
  rw [Cert.ReferenceIdeal.Read.val_main_v39_eq, (hagree c).1, (hagree c).2.1, (hagree c).2.2.1, (hagree c).2.2.2.1,
    (hagree c).2.2.2.2]
  exact Cert.RefSide.ref_result _ _ _ _ _ hin

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
